-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)
  ∧ IdealRules.named_const.Statement Cert.KernelIdeal.κ "inv_temperature" .f32 0x40A00000#32 ((67108864 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S100000x64 : Shape := ⟨2, ![100000, 64]⟩
abbrev S_ : Shape := ⟨0, ![]⟩
abbrev S4096x1 : Shape := ⟨2, ![4096, 1]⟩
abbrev S4096x64 : Shape := ⟨2, ![4096, 64]⟩

class Facts : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S100000x64 : S_.BroadcastsInDim S100000x64 (![] : Fin 0 → Fin S100000x64.rank)
  reducesTo_S100000x64_S_d0_1 : S100000x64.ReducesTo [0, 1] S_
  h_S_ : 0 < S_.numel
  reducesTo_S4096x64_S4096_d1 : S4096x64.ReducesTo [1] S4096
  reducesTo_S4096_S_d0 : S4096.ReducesTo [0] S_
  gather_S100000x64_S4096x1_S4096x64_1_0_n_n_0_1_164_wf : GatherDims.WF S100000x64 S4096x1 S4096x64 [1] [0] [] [0] [] 1 ![1, 64]

variable [Facts]

def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def fn_part2 {F : FTy → Type} [FloatOps F] (main_v13 : FVec F S4096x64 .f32) (main_v32 : IVec S_ 1) (main_v34 : FVec F S4096 .f32) : IVec S_ 1 :=
  let main_cst_11 : FVec F S_ .f32 := constant S_ .f32 0x00000000#32
  let main_v35 : FVec F S4096 .f32 := broadcastInDim S4096 ![] bcast_S_S4096 main_cst_11
  let main_v36 : IVec S4096 1 := cmpf .ogt main_v34 main_v35
  let main_c_12 : IVec S_ 1 := constantI S_ 1 1#1
  let main_v37 : IVec S_ 1 := (fun x v => Host.reduce IntOp.andi x v reducesTo_S4096_S_d0 h_S_) main_v36 main_c_12
  let main_v38 : IVec S_ 1 := andi main_v32 main_v37
  let main_v39 : FVec F S4096x64 .f32 := mulf main_v13 main_v13
  let main_cst_13 : FVec F S_ .f32 := constant S_ .f32 0x00000000#32
  let main_v40 : FVec F S4096 .f32 := (fun x v => Host.reduceAdd x v reducesTo_S4096x64_S4096_d1 h_S_) main_v39 main_cst_13
  let main_cst_14 : FVec F S_ .f32 := constant S_ .f32 0x00000000#32
  let main_v41 : FVec F S4096 .f32 := broadcastInDim S4096 ![] bcast_S_S4096 main_cst_14
  let main_v42 : IVec S4096 1 := cmpf .ogt main_v40 main_v41
  let main_c_15 : IVec S_ 1 := constantI S_ 1 1#1
  let main_v43 : IVec S_ 1 := (fun x v => Host.reduce IntOp.andi x v reducesTo_S4096_S_d0 h_S_) main_v42 main_c_15
  let main_v44 : IVec S_ 1 := andi main_v38 main_v43
  main_v44

def fn_part1 {F : FTy → Type} [FloatOps F] (main_arg3 : FVec F S100000x64 .f32) (main_arg4 : FVec F S100000x64 .f32) (main_arg5 : FVec F S100000x64 .f32) (main_v6 : FVec F S4096x64 .f32) (main_v13 : FVec F S4096x64 .f32) (main_v17 : IVec S_ 1) : IVec S_ 1 :=
  let main_v18 : FVec F S100000x64 .f32 := Host.absf main_arg3
  let main_cst_4 : FVec F S_ .f32 := constant S_ .f32 0x7F800000#32
  let main_v19 : FVec F S100000x64 .f32 := broadcastInDim S100000x64 ![] bcast_S_S100000x64 main_cst_4
  let main_v20 : IVec S100000x64 1 := cmpf .olt main_v18 main_v19
  let main_c_5 : IVec S_ 1 := constantI S_ 1 1#1
  let main_v21 : IVec S_ 1 := (fun x v => Host.reduce IntOp.andi x v reducesTo_S100000x64_S_d0_1 h_S_) main_v20 main_c_5
  let main_v22 : IVec S_ 1 := andi main_v17 main_v21
  let main_v23 : FVec F S100000x64 .f32 := Host.absf main_arg4
  let main_cst_6 : FVec F S_ .f32 := constant S_ .f32 0x7F800000#32
  let main_v24 : FVec F S100000x64 .f32 := broadcastInDim S100000x64 ![] bcast_S_S100000x64 main_cst_6
  let main_v25 : IVec S100000x64 1 := cmpf .olt main_v23 main_v24
  let main_c_7 : IVec S_ 1 := constantI S_ 1 1#1
  let main_v26 : IVec S_ 1 := (fun x v => Host.reduce IntOp.andi x v reducesTo_S100000x64_S_d0_1 h_S_) main_v25 main_c_7
  let main_v27 : IVec S_ 1 := andi main_v22 main_v26
  let main_v28 : FVec F S100000x64 .f32 := Host.absf main_arg5
  let main_cst_8 : FVec F S_ .f32 := constant S_ .f32 0x7F800000#32
  let main_v29 : FVec F S100000x64 .f32 := broadcastInDim S100000x64 ![] bcast_S_S100000x64 main_cst_8
  let main_v30 : IVec S100000x64 1 := cmpf .olt main_v28 main_v29
  let main_c_9 : IVec S_ 1 := constantI S_ 1 1#1
  let main_v31 : IVec S_ 1 := (fun x v => Host.reduce IntOp.andi x v reducesTo_S100000x64_S_d0_1 h_S_) main_v30 main_c_9
  let main_v32 : IVec S_ 1 := andi main_v27 main_v31
  let main_v33 : FVec F S4096x64 .f32 := mulf main_v6 main_v6
  let main_cst_10 : FVec F S_ .f32 := constant S_ .f32 0x00000000#32
  let main_v34 : FVec F S4096 .f32 := (fun x v => Host.reduceAdd x v reducesTo_S4096x64_S4096_d1 h_S_) main_v33 main_cst_10
  fn_part2 (F := F) main_v13 main_v32 main_v34

def fn {F : FTy → Type} [FloatOps F] (main_arg0 : IVec S4096 32) (main_arg1 : IVec S4096 32) (main_arg2 : FVec F S100000x64 .f32) (main_arg3 : FVec F S100000x64 .f32) (main_arg4 : FVec F S100000x64 .f32) (main_arg5 : FVec F S100000x64 .f32) : IVec S_ 1 :=
  let main_c : IVec S_ 32 := constantI S_ 32 0#32
  let main_v0 : IVec S4096 32 := broadcastInDim S4096 ![] bcast_S_S4096 main_c
  let main_v1 : IVec S4096 1 := cmpi .slt main_arg0 main_v0
  let main_c_0 : IVec S_ 32 := constantI S_ 32 100000#32
  let main_v2 : IVec S4096 32 := broadcastInDim S4096 ![] bcast_S_S4096 main_c_0
  let main_v3 : IVec S4096 32 := addi main_arg0 main_v2
  let main_v4 : IVec S4096 32 := select main_v1 main_v3 main_arg0
  let main_v5 : IVec S4096x1 32 := broadcastInDim S4096x1 ![0] bcast_S4096_S4096x1_0 main_v4
  let main_v6 : FVec F S4096x64 .f32 := (fun x i => Host.gather gather_S100000x64_S4096x1_S4096x64_1_0_n_n_0_1_164 x i) main_arg2 main_v5
  let main_c_1 : IVec S_ 32 := constantI S_ 32 0#32
  let main_v7 : IVec S4096 32 := broadcastInDim S4096 ![] bcast_S_S4096 main_c_1
  let main_v8 : IVec S4096 1 := cmpi .slt main_arg0 main_v7
  let main_c_2 : IVec S_ 32 := constantI S_ 32 100000#32
  let main_v9 : IVec S4096 32 := broadcastInDim S4096 ![] bcast_S_S4096 main_c_2
  let main_v10 : IVec S4096 32 := addi main_arg0 main_v9
  let main_v11 : IVec S4096 32 := select main_v8 main_v10 main_arg0
  let main_v12 : IVec S4096x1 32 := broadcastInDim S4096x1 ![0] bcast_S4096_S4096x1_0 main_v11
  let main_v13 : FVec F S4096x64 .f32 := (fun x i => Host.gather gather_S100000x64_S4096x1_S4096x64_1_0_n_n_0_1_164 x i) main_arg4 main_v12
  let main_v14 : FVec F S100000x64 .f32 := Host.absf main_arg2
  let main_cst : FVec F S_ .f32 := constant S_ .f32 0x7F800000#32
  let main_v15 : FVec F S100000x64 .f32 := broadcastInDim S100000x64 ![] bcast_S_S100000x64 main_cst
  let main_v16 : IVec S100000x64 1 := cmpf .olt main_v14 main_v15
  let main_c_3 : IVec S_ 1 := constantI S_ 1 1#1
  let main_v17 : IVec S_ 1 := (fun x v => Host.reduce IntOp.andi x v reducesTo_S100000x64_S_d0_1 h_S_) main_v16 main_c_3
  fn_part1 (F := F) main_arg3 main_arg4 main_arg5 main_v6 main_v13 main_v17
-- ==== Kernel.lean ====
abbrev S4096 : Shape := ⟨1, ![4096]⟩
abbrev S100000x64 : Shape := ⟨2, ![100000, 64]⟩
abbrev S_ : Shape := ⟨0, ![]⟩
abbrev S4096x1 : Shape := ⟨2, ![4096, 1]⟩
abbrev S4096x64 : Shape := ⟨2, ![4096, 64]⟩
abbrev S8192x64 : Shape := ⟨2, ![8192, 64]⟩
abbrev S16x1x128 : Shape := ⟨3, ![16, 1, 128]⟩
abbrev S512x64 : Shape := ⟨2, ![512, 64]⟩
abbrev S1x1x128 : Shape := ⟨3, ![1, 1, 128]⟩
abbrev S512x1 : Shape := ⟨2, ![512, 1]⟩
abbrev S64x512 : Shape := ⟨2, ![64, 512]⟩
abbrev S512x512 : Shape := ⟨2, ![512, 512]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩
abbrev S16x1x1 : Shape := ⟨3, ![16, 1, 1]⟩
abbrev S16 : Shape := ⟨1, ![16]⟩

abbrev nBuf : Space → Nat
  | .hbm => 75
  | .vmem => 10
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S100000x64, .f32⟩
  | .hbm, ⟨3, _⟩ => ⟨S100000x64, .f32⟩
  | .hbm, ⟨4, _⟩ => ⟨S100000x64, .f32⟩
  | .hbm, ⟨5, _⟩ => ⟨S100000x64, .f32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S4096x64, .f32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S4096x64, .f32⟩
  | .hbm, ⟨24, _⟩ => ⟨S4096x64, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x1, .f32⟩
  | .hbm, ⟨29, _⟩ => ⟨S4096x64, .f32⟩
  | .hbm, ⟨30, _⟩ => ⟨S4096x64, .f32⟩
  | .hbm, ⟨31, _⟩ => ⟨S4096x64, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x1, .f32⟩
  | .hbm, ⟨36, _⟩ => ⟨S4096x64, .f32⟩
  | .hbm, ⟨37, _⟩ => ⟨S4096x64, .f32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S_, .i32⟩
  | .hbm, ⟨42, _⟩ => ⟨S4096, .i32⟩
  | .hbm, ⟨43, _⟩ => ⟨S4096, .i32⟩
  | .hbm, ⟨44, _⟩ => ⟨S4096, .i32⟩
  | .hbm, ⟨45, _⟩ => ⟨S4096x1, .i32⟩
  | .hbm, ⟨46, _⟩ => ⟨S4096x64, .f32⟩
  | .hbm, ⟨47, _⟩ => ⟨S_, .i32⟩
  | .hbm, ⟨48, _⟩ => ⟨S4096, .i32⟩
  | .hbm, ⟨49, _⟩ => ⟨S4096, .i1⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S4096, .i32⟩
  | .hbm, ⟨54, _⟩ => ⟨S4096x1, .i32⟩
  | .hbm, ⟨55, _⟩ => ⟨S4096x64, .f32⟩
  | .hbm, ⟨56, _⟩ => ⟨S8192x64, .f32⟩
  | .hbm, ⟨57, _⟩ => ⟨S8192x64, .f32⟩
  | .hbm, ⟨58, _⟩ => ⟨S8192x64, .f32⟩
  | .hbm, ⟨59, _⟩ => ⟨S8192x64, .f32⟩
  | .hbm, ⟨60, _⟩ => ⟨S16x1x128, .f32⟩
  | .hbm, ⟨61, _⟩ => ⟨S16x1x1, .f32⟩
  | .hbm, ⟨62, _⟩ => ⟨S16, .f32⟩
  | .hbm, ⟨63, _⟩ => ⟨S_, .f32⟩
  | .hbm, ⟨64, _⟩ => ⟨S_, .f32⟩
  | .hbm, ⟨65, _⟩ => ⟨S16x1x128, .f32⟩
  | .hbm, ⟨66, _⟩ => ⟨S16x1x1, .f32⟩
  | .hbm, ⟨67, _⟩ => ⟨S16, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .local _ .vmem, ⟨0, _⟩ => ⟨S512x64, .f32⟩
  | .local _ .vmem, ⟨1, _⟩ => ⟨S512x64, .f32⟩
  | .local _ .vmem, ⟨2, _⟩ => ⟨S8192x64, .f32⟩
  | .local _ .vmem, ⟨3, _⟩ => ⟨S1x1x128, .f32⟩
  | .local _ .vmem, ⟨4, _⟩ => ⟨S1x1x128, .f32⟩
  | .local _ .vmem, ⟨5, _⟩ => ⟨S512x64, .f32⟩
  | .local _ .vmem, ⟨6, _⟩ => ⟨S512x64, .f32⟩
  | .local _ .vmem, ⟨7, _⟩ => ⟨S8192x64, .f32⟩
  | .local _ .vmem, ⟨8, _⟩ => ⟨S1x1x128, .f32⟩
  | .local _ .vmem, ⟨9, _⟩ => ⟨S1x1x128, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_call0_v2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_v0 : Ref sig .tc := ⟨.hbm, 31, rfl⟩
abbrev main_call1_cst : Ref sig .tc := ⟨.hbm, 32, rfl⟩
abbrev main_call1_v1 : Ref sig .tc := ⟨.hbm, 33, rfl⟩
abbrev main_call1_v2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_cst_9 : Ref sig .tc := ⟨.hbm, 72, rfl⟩
abbrev main_v47 : Ref sig .tc := ⟨.hbm, 73, rfl⟩
abbrev main_v48 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c512_i32 : BitVec 32 := 512#32
  let v292 : BitVec 32 := Scalar.muli arg0 c512_i32
  v292
def k0_off1 (i : grid0.Coords) : Fin 2 → Nat :=
  let arg0 : BitVec 32 := BitVec.ofNat 32 (i 0).val
  let c512_i32 : BitVec 32 := 512#32
  let v292 : BitVec 32 := Scalar.muli arg0 c512_i32
  let v293 : BitVec 32 := v292
  let v294 : Index := Scalar.indexCast v293
  let c0_83 : Index := 0#32
  ![v294.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def k1_mult1 (i : grid1.Coords) : BitVec 32 :=
  let arg0 : BitVec 32 := BitVec.ofNat 32 (i 0).val
  let c512_i32 : BitVec 32 := 512#32
  let v292 : BitVec 32 := Scalar.muli arg0 c512_i32
  v292
def k1_off1 (i : grid1.Coords) : Fin 2 → Nat :=
  let arg0 : BitVec 32 := BitVec.ofNat 32 (i 0).val
  let c512_i32 : BitVec 32 := 512#32
  let v292 : BitVec 32 := Scalar.muli arg0 c512_i32
  let v293 : BitVec 32 := v292
  let v294 : Index := Scalar.indexCast v293
  let c0_83 : Index := 0#32
  ![v294.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  bcast_S4096x1_S4096x64_0_1 : S4096x1.BroadcastsInDim S4096x64 (![0, 1] : Fin 2 → Fin S4096x64.rank)
  concatenates_S4096x64_S4096x64_S8192x64_d0 : Shape.Concatenates [S4096x64, S4096x64] S8192x64 0
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S8192x64_S512x64_0_0 : ∀ a, (![0, 0] : Fin 2 → Nat) a + S512x64.size a ≤ S8192x64.size a
  transposes_S512x64_p1_0_S64x512 : S512x64.Transposes [1, 0] S64x512
  reduces_S512x512_S512 : S512x512.Reduces [1] S512
  shapeCasts_S512_S512x1 : S512.ShapeCasts S512x1
  broadcasts_S512x1_S512x512 : S512x1.Broadcasts S512x512
  inb_S8192x64_S512x64_512_0 : ∀ a, (![512, 0] : Fin 2 → Nat) a + S512x64.size a ≤ S8192x64.size a
  inb_S8192x64_S512x64_1024_0 : ∀ a, (![1024, 0] : Fin 2 → Nat) a + S512x64.size a ≤ S8192x64.size a
  inb_S8192x64_S512x64_1536_0 : ∀ a, (![1536, 0] : Fin 2 → Nat) a + S512x64.size a ≤ S8192x64.size a
  inb_S8192x64_S512x64_2048_0 : ∀ a, (![2048, 0] : Fin 2 → Nat) a + S512x64.size a ≤ S8192x64.size a
  inb_S8192x64_S512x64_2560_0 : ∀ a, (![2560, 0] : Fin 2 → Nat) a + S512x64.size a ≤ S8192x64.size a
  inb_S8192x64_S512x64_3072_0 : ∀ a, (![3072, 0] : Fin 2 → Nat) a + S512x64.size a ≤ S8192x64.size a
  inb_S8192x64_S512x64_3584_0 : ∀ a, (![3584, 0] : Fin 2 → Nat) a + S512x64.size a ≤ S8192x64.size a
  inb_S8192x64_S512x64_4096_0 : ∀ a, (![4096, 0] : Fin 2 → Nat) a + S512x64.size a ≤ S8192x64.size a
  inb_S8192x64_S512x64_4608_0 : ∀ a, (![4608, 0] : Fin 2 → Nat) a + S512x64.size a ≤ S8192x64.size a
  inb_S8192x64_S512x64_5120_0 : ∀ a, (![5120, 0] : Fin 2 → Nat) a + S512x64.size a ≤ S8192x64.size a
  inb_S8192x64_S512x64_5632_0 : ∀ a, (![5632, 0] : Fin 2 → Nat) a + S512x64.size a ≤ S8192x64.size a
  inb_S8192x64_S512x64_6144_0 : ∀ a, (![6144, 0] : Fin 2 → Nat) a + S512x64.size a ≤ S8192x64.size a
  inb_S8192x64_S512x64_6656_0 : ∀ a, (![6656, 0] : Fin 2 → Nat) a + S512x64.size a ≤ S8192x64.size a
  inb_S8192x64_S512x64_7168_0 : ∀ a, (![7168, 0] : Fin 2 → Nat) a + S512x64.size a ≤ S8192x64.size a
  inb_S8192x64_S512x64_7680_0 : ∀ a, (![7680, 0] : Fin 2 → Nat) a + S512x64.size a ≤ S8192x64.size a
  reduces_S512x64_S512 : S512x64.Reduces [1] S512
  shapeCasts_S512x1_S1x512x1 : S512x1.ShapeCasts S1x512x1
  reduces_S1x512x1_S1 : S1x512x1.Reduces [1, 2] S1
  shapeCasts_S1_S1x1x1 : S1.ShapeCasts S1x1x1
  inpos_S1x1x1_p0_0_0 : ∀ a, (![0, 0, 0] : Fin 3 → Nat) a < S1x1x1.size a
  inb_S1x1x128_S1x1x128_0_0_0 : ∀ a, (![0, 0, 0] : Fin 3 → Nat) a + S1x1x128.size a ≤ S1x1x128.size a
  h_S1x1x128 : 0 < S1x1x128.numel
  slices_S16x1x128_S16x1x1_0_0_0 : S16x1x128.Slices ![0, 0, 0] S16x1x1
  shapeCasts_S16x1x1_S16 : S16x1x1.ShapeCasts S16
  reducesTo_S16_S_d0 : S16.ReducesTo [0] S_
  gather_S100000x64_S4096x1_S4096x64_1_0_n_n_0_1_164_wf : GatherDims.WF S100000x64 S4096x1 S4096x64 [1] [0] [] [0] [] 1 ![1, 64]
  dot_S512x64_S64x512_S512x512_1_0_0_1_n_n_wf : DotDims.WF S512x64 S64x512 S512x512 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x64.size a ≤ S8192x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S8192x64.size a
  hwx0_0 : ∀ i : grid0.Coords, EltTy.bits .f32 = 32 ∨ (Rect.block (s := S8192x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .f32 = 32 ∨ (Rect.block (s := S8192x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S16x1x128.size a
  hwx0_2 : ∀ i : grid0.Coords, EltTy.bits .f32 = 32 ∨ (Rect.block (s := S16x1x128) S1x1x128.size (cc0_transform_2 i) (hinb0_2 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S512x64.size a ≤ S8192x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S8192x64.size a
  hwx1_0 : ∀ i : grid1.Coords, EltTy.bits .f32 = 32 ∨ (Rect.block (s := S8192x64) S512x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .f32 = 32 ∨ (Rect.block (s := S8192x64) S8192x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x128.size a ≤ S16x1x128.size a
  hwx1_2 : ∀ i : grid1.Coords, EltTy.bits .f32 = 32 ∨ (Rect.block (s := S16x1x128) S1x1x128.size (cc1_transform_2 i) (hinb1_2 i)).WholeWords (EltTy.packing .f32)

variable [Facts₀]

def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf

abbrev win0_0 : Pipeline.Window sig grid0 :=
  Pipeline.Window.ofSpec (Memref.whole main_v34) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v38) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x1x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096 : Shape := ⟨1, ![4096]⟩
abbrev S100000x64 : Shape := ⟨2, ![100000, 64]⟩
abbrev S_ : Shape := ⟨0, ![]⟩
abbrev S4096x1 : Shape := ⟨2, ![4096, 1]⟩
abbrev S4096x64 : Shape := ⟨2, ![4096, 64]⟩
abbrev S64x4096 : Shape := ⟨2, ![64, 4096]⟩
abbrev S4096x4096 : Shape := ⟨2, ![4096, 4096]⟩
abbrev S4096x8192 : Shape := ⟨2, ![4096, 8192]⟩
abbrev S8192x8192 : Shape := ⟨2, ![8192, 8192]⟩
abbrev S8192 : Shape := ⟨1, ![8192]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 195
  | .vmem => 0
  | .smem => 0
  | _ => 0

abbrev hbmTy0_0 (i : Nat) : BufTy := match i % 128 with
  | 0 => ⟨S4096, .i32⟩
  | 1 => ⟨S4096, .i32⟩
  | 2 => ⟨S100000x64, .f32⟩
  | 3 => ⟨S100000x64, .f32⟩
  | 4 => ⟨S100000x64, .f32⟩
  | 5 => ⟨S100000x64, .f32⟩
  | 6 => ⟨S_, .i32⟩
  | 7 => ⟨S4096, .i32⟩
  | 8 => ⟨S4096, .i1⟩
  | 9 => ⟨S_, .i32⟩
  | 10 => ⟨S4096, .i32⟩
  | 11 => ⟨S4096, .i32⟩
  | 12 => ⟨S4096, .i32⟩
  | 13 => ⟨S4096x1, .i32⟩
  | 14 => ⟨S4096x64, .f32⟩
  | 15 => ⟨S_, .i32⟩
  | 16 => ⟨S4096, .i32⟩
  | 17 => ⟨S4096, .i1⟩
  | 18 => ⟨S_, .i32⟩
  | 19 => ⟨S4096, .i32⟩
  | 20 => ⟨S4096, .i32⟩
  | 21 => ⟨S4096, .i32⟩
  | 22 => ⟨S4096x1, .i32⟩
  | 23 => ⟨S4096x64, .f32⟩
  | 24 => ⟨S4096x64, .f32⟩
  | 25 => ⟨S_, .f32⟩
  | 26 => ⟨S4096, .f32⟩
  | 27 => ⟨S4096x1, .f32⟩
  | 28 => ⟨S4096x1, .f32⟩
  | 29 => ⟨S4096x64, .f32⟩
  | 30 => ⟨S4096x64, .f32⟩
  | 31 => ⟨S4096x64, .f32⟩
  | 32 => ⟨S_, .f32⟩
  | 33 => ⟨S4096, .f32⟩
  | 34 => ⟨S4096x1, .f32⟩
  | 35 => ⟨S4096x1, .f32⟩
  | 36 => ⟨S4096x64, .f32⟩
  | 37 => ⟨S4096x64, .f32⟩
  | 38 => ⟨S64x4096, .f32⟩
  | 39 => ⟨S4096x4096, .f32⟩
  | 40 => ⟨S64x4096, .f32⟩
  | 41 => ⟨S4096x4096, .f32⟩
  | 42 => ⟨S64x4096, .f32⟩
  | 43 => ⟨S4096x4096, .f32⟩
  | 44 => ⟨S4096x4096, .i32⟩
  | 45 => ⟨S4096x4096, .i32⟩
  | 46 => ⟨S_, .i32⟩
  | 47 => ⟨S4096x4096, .i32⟩
  | 48 => ⟨S4096x4096, .i32⟩
  | 49 => ⟨S4096x4096, .i1⟩
  | 50 => ⟨S_, .f32⟩
  | 51 => ⟨S4096x4096, .f32⟩
  | 52 => ⟨S4096x4096, .f32⟩
  | 53 => ⟨S_, .f32⟩
  | 54 => ⟨S4096x4096, .f32⟩
  | 55 => ⟨S4096x4096, .f32⟩
  | 56 => ⟨S4096x8192, .f32⟩
  | 57 => ⟨S4096x4096, .f32⟩
  | 58 => ⟨S4096x8192, .f32⟩
  | 59 => ⟨S8192x8192, .f32⟩
  | 60 => ⟨S_, .f32⟩
  | 61 => ⟨S8192x8192, .f32⟩
  | 62 => ⟨S8192x8192, .f32⟩
  | 63 => ⟨S8192, .i32⟩
  | 64 => ⟨S_, .f32⟩
  | 65 => ⟨S8192, .f32⟩
  | 66 => ⟨S_, .f32⟩
  | 67 => ⟨S8192, .f32⟩
  | 68 => ⟨S8192, .f32⟩
  | 69 => ⟨S8192x1, .f32⟩
  | 70 => ⟨S8192x8192, .f32⟩
  | 71 => ⟨S8192x8192, .f32⟩
  | 72 => ⟨S8192x8192, .f32⟩
  | 73 => ⟨S_, .f32⟩
  | 74 => ⟨S8192, .f32⟩
  | 75 => ⟨S8192x1, .f32⟩
  | 76 => ⟨S8192x1, .f32⟩
  | 77 => ⟨S8192x8192, .f32⟩
  | 78 => ⟨S8192x8192, .f32⟩
  | 79 => ⟨S8192x1, .i32⟩
  | 80 => ⟨S_, .i32⟩
  | 81 => ⟨S8192x1, .i32⟩
  | 82 => ⟨S8192x1, .i1⟩
  | 83 => ⟨S_, .i32⟩
  | 84 => ⟨S8192x1, .i32⟩
  | 85 => ⟨S8192x1, .i32⟩
  | 86 => ⟨S8192x1, .i32⟩
  | 87 => ⟨S8192x1x1, .i32⟩
  | 88 => ⟨S1, .i32⟩
  | 89 => ⟨S_, .i32⟩
  | 90 => ⟨S8192x1x1, .i32⟩
  | 91 => ⟨S8192x1x1, .i1⟩
  | 92 => ⟨S1x1x1, .i32⟩
  | 93 => ⟨S8192x1x1, .i32⟩
  | 94 => ⟨S8192x1x1, .i1⟩
  | 95 => ⟨S8192x1x1, .i1⟩
  | 96 => ⟨S_, .i1⟩
  | 97 => ⟨S8192x1, .i1⟩
  | 98 => ⟨S8192x1, .f32⟩
  | 99 => ⟨S_, .f32⟩
  | 100 => ⟨S8192x1, .f32⟩
  | 101 => ⟨S8192x1, .f32⟩
  | 102 => ⟨S_, .f32⟩
  | 103 => ⟨S_, .f32⟩
  | 104 => ⟨S_, .f32⟩
  | 105 => ⟨S_, .f32⟩
  | 106 => ⟨S_, .f32⟩
  | 107 => ⟨S_, .i32⟩
  | 108 => ⟨S4096, .i32⟩
  | 109 => ⟨S4096, .i1⟩
  | 110 => ⟨S_, .i32⟩
  | 111 => ⟨S4096, .i32⟩
  | 112 => ⟨S4096, .i32⟩
  | 113 => ⟨S4096, .i32⟩
  | 114 => ⟨S4096x1, .i32⟩
  | 115 => ⟨S4096x64, .f32⟩
  | 116 => ⟨S_, .i32⟩
  | 117 => ⟨S4096, .i32⟩
  | 118 => ⟨S4096, .i1⟩
  | 119 => ⟨S_, .i32⟩
  | 120 => ⟨S4096, .i32⟩
  | 121 => ⟨S4096, .i32⟩
  | 122 => ⟨S4096, .i32⟩
  | 123 => ⟨S4096x1, .i32⟩
  | 124 => ⟨S4096x64, .f32⟩
  | 125 => ⟨S64x4096, .f32⟩
  | 126 => ⟨S4096x4096, .f32⟩
  | 127 => ⟨S64x4096, .f32⟩
  | _ => ⟨S4096, .i32⟩

abbrev hbmTy0_1 (i : Nat) : BufTy := match i % 128 with
  | 0 => ⟨S4096x4096, .f32⟩
  | 1 => ⟨S64x4096, .f32⟩
  | 2 => ⟨S4096x4096, .f32⟩
  | 3 => ⟨S4096x4096, .i32⟩
  | 4 => ⟨S4096x4096, .i32⟩
  | 5 => ⟨S_, .i32⟩
  | 6 => ⟨S4096x4096, .i32⟩
  | 7 => ⟨S4096x4096, .i32⟩
  | 8 => ⟨S4096x4096, .i1⟩
  | 9 => ⟨S_, .f32⟩
  | 10 => ⟨S4096x4096, .f32⟩
  | 11 => ⟨S4096x4096, .f32⟩
  | 12 => ⟨S_, .f32⟩
  | 13 => ⟨S4096x4096, .f32⟩
  | 14 => ⟨S4096x4096, .f32⟩
  | 15 => ⟨S4096x8192, .f32⟩
  | 16 => ⟨S4096x4096, .f32⟩
  | 17 => ⟨S4096x8192, .f32⟩
  | 18 => ⟨S8192x8192, .f32⟩
  | 19 => ⟨S_, .f32⟩
  | 20 => ⟨S8192x8192, .f32⟩
  | 21 => ⟨S8192x8192, .f32⟩
  | 22 => ⟨S8192, .i32⟩
  | 23 => ⟨S_, .f32⟩
  | 24 => ⟨S8192, .f32⟩
  | 25 => ⟨S_, .f32⟩
  | 26 => ⟨S8192, .f32⟩
  | 27 => ⟨S8192, .f32⟩
  | 28 => ⟨S8192x1, .f32⟩
  | 29 => ⟨S8192x8192, .f32⟩
  | 30 => ⟨S8192x8192, .f32⟩
  | 31 => ⟨S8192x8192, .f32⟩
  | 32 => ⟨S_, .f32⟩
  | 33 => ⟨S8192, .f32⟩
  | 34 => ⟨S8192x1, .f32⟩
  | 35 => ⟨S8192x1, .f32⟩
  | 36 => ⟨S8192x8192, .f32⟩
  | 37 => ⟨S8192x8192, .f32⟩
  | 38 => ⟨S8192x1, .i32⟩
  | 39 => ⟨S_, .i32⟩
  | 40 => ⟨S8192x1, .i32⟩
  | 41 => ⟨S8192x1, .i1⟩
  | 42 => ⟨S_, .i32⟩
  | 43 => ⟨S8192x1, .i32⟩
  | 44 => ⟨S8192x1, .i32⟩
  | 45 => ⟨S8192x1, .i32⟩
  | 46 => ⟨S8192x1x1, .i32⟩
  | 47 => ⟨S1, .i32⟩
  | 48 => ⟨S_, .i32⟩
  | 49 => ⟨S8192x1x1, .i32⟩
  | 50 => ⟨S8192x1x1, .i1⟩
  | 51 => ⟨S1x1x1, .i32⟩
  | 52 => ⟨S8192x1x1, .i32⟩
  | 53 => ⟨S8192x1x1, .i1⟩
  | 54 => ⟨S8192x1x1, .i1⟩
  | 55 => ⟨S_, .i1⟩
  | 56 => ⟨S8192x1, .i1⟩
  | 57 => ⟨S8192x1, .f32⟩
  | 58 => ⟨S_, .f32⟩
  | 59 => ⟨S8192x1, .f32⟩
  | 60 => ⟨S8192x1, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_cst : Ref sig .tc := ⟨.hbm, 25, rfl⟩
abbrev main_call0_v1 : Ref sig .tc := ⟨.hbm, 26, rfl⟩
abbrev main_call0_v2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_v0 : Ref sig .tc := ⟨.hbm, 31, rfl⟩
abbrev main_call1_cst : Ref sig .tc := ⟨.hbm, 32, rfl⟩
abbrev main_call1_v1 : Ref sig .tc := ⟨.hbm, 33, rfl⟩
abbrev main_call1_v2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst : Ref sig .tc := ⟨.hbm, 50, rfl⟩
abbrev main_call2_v0 : Ref sig .tc := ⟨.hbm, 51, rfl⟩
abbrev main_v31 : Ref sig .tc := ⟨.hbm, 52, rfl⟩
abbrev main_cst_4 : Ref sig .tc := ⟨.hbm, 53, rfl⟩
abbrev main_call3_v0 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_call4_cst : Ref sig .tc := ⟨.hbm, 64, rfl⟩
abbrev main_call4_v0 : Ref sig .tc := ⟨.hbm, 65, rfl⟩
abbrev main_call4_cst_0 : Ref sig .tc := ⟨.hbm, 66, rfl⟩
abbrev main_call4_v1 : Ref sig .tc := ⟨.hbm, 67, rfl⟩
abbrev main_call4_v2 : Ref sig .tc := ⟨.hbm, 68, rfl⟩
abbrev main_call4_v3 : Ref sig .tc := ⟨.hbm, 69, rfl⟩
abbrev main_call4_v4 : Ref sig .tc := ⟨.hbm, 70, rfl⟩
abbrev main_call4_v5 : Ref sig .tc := ⟨.hbm, 71, rfl⟩
abbrev main_call4_v6 : Ref sig .tc := ⟨.hbm, 72, rfl⟩
abbrev main_call4_cst_1 : Ref sig .tc := ⟨.hbm, 73, rfl⟩
abbrev main_call4_v7 : Ref sig .tc := ⟨.hbm, 74, rfl⟩
abbrev main_call4_v8 : Ref sig .tc := ⟨.hbm, 75, rfl⟩
abbrev main_call4_v9 : Ref sig .tc := ⟨.hbm, 76, rfl⟩
abbrev main_call4_v10 : Ref sig .tc := ⟨.hbm, 77, rfl⟩
abbrev main_v40 : Ref sig .tc := ⟨.hbm, 78, rfl⟩
abbrev main_v41 : Ref sig .tc := ⟨.hbm, 79, rfl⟩
abbrev main_call5_c : Ref sig .tc := ⟨.hbm, 80, rfl⟩
abbrev main_call5_v0 : Ref sig .tc := ⟨.hbm, 81, rfl⟩
abbrev main_call5_v1 : Ref sig .tc := ⟨.hbm, 82, rfl⟩
abbrev main_call5_c_0 : Ref sig .tc := ⟨.hbm, 83, rfl⟩
abbrev main_call5_v2 : Ref sig .tc := ⟨.hbm, 84, rfl⟩
abbrev main_call5_v3 : Ref sig .tc := ⟨.hbm, 85, rfl⟩
abbrev main_call5_v4 : Ref sig .tc := ⟨.hbm, 86, rfl⟩
abbrev main_call5_v5 : Ref sig .tc := ⟨.hbm, 87, rfl⟩
abbrev main_call5_c_1 : Ref sig .tc := ⟨.hbm, 88, rfl⟩
abbrev main_call5_c_2 : Ref sig .tc := ⟨.hbm, 89, rfl⟩
abbrev main_call5_v6 : Ref sig .tc := ⟨.hbm, 90, rfl⟩
abbrev main_call5_v7 : Ref sig .tc := ⟨.hbm, 91, rfl⟩
abbrev main_call5_v8 : Ref sig .tc := ⟨.hbm, 92, rfl⟩
abbrev main_call5_v9 : Ref sig .tc := ⟨.hbm, 93, rfl⟩
abbrev main_call5_v10 : Ref sig .tc := ⟨.hbm, 94, rfl⟩
abbrev main_call5_v11 : Ref sig .tc := ⟨.hbm, 95, rfl⟩
abbrev main_call5_c_3 : Ref sig .tc := ⟨.hbm, 96, rfl⟩
abbrev main_call5_v12 : Ref sig .tc := ⟨.hbm, 97, rfl⟩
abbrev main_call5_v13 : Ref sig .tc := ⟨.hbm, 98, rfl⟩
abbrev main_call5_cst : Ref sig .tc := ⟨.hbm, 99, rfl⟩
abbrev main_call5_v14 : Ref sig .tc := ⟨.hbm, 100, rfl⟩
abbrev main_v42 : Ref sig .tc := ⟨.hbm, 101, rfl⟩
abbrev main_cst_6 : Ref sig .tc := ⟨.hbm, 102, rfl⟩
abbrev main_v43 : Ref sig .tc := ⟨.hbm, 103, rfl⟩
abbrev main_cst_7 : Ref sig .tc := ⟨.hbm, 104, rfl⟩
abbrev main_v44 : Ref sig .tc := ⟨.hbm, 105, rfl⟩
abbrev main_v45 : Ref sig .tc := ⟨.hbm, 106, rfl⟩
abbrev main_c_8 : Ref sig .tc := ⟨.hbm, 107, rfl⟩
abbrev main_v46 : Ref sig .tc := ⟨.hbm, 108, rfl⟩
abbrev main_v47 : Ref sig .tc := ⟨.hbm, 109, rfl⟩
abbrev main_c_9 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_c_10 : Ref sig .tc := ⟨.hbm, 116, rfl⟩
abbrev main_v53 : Ref sig .tc := ⟨.hbm, 117, rfl⟩
abbrev main_v54 : Ref sig .tc := ⟨.hbm, 118, rfl⟩
abbrev main_c_11 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_c_12 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_cst_13 : Ref sig .tc := ⟨.hbm, 137, rfl⟩
abbrev main_call6_v0 : Ref sig .tc := ⟨.hbm, 138, rfl⟩
abbrev main_v71 : Ref sig .tc := ⟨.hbm, 139, rfl⟩
abbrev main_cst_14 : Ref sig .tc := ⟨.hbm, 140, rfl⟩
abbrev main_call7_v0 : Ref sig .tc := ⟨.hbm, 141, rfl⟩
abbrev main_v72 : Ref sig .tc := ⟨.hbm, 142, rfl⟩
abbrev main_v73 : Ref sig .tc := ⟨.hbm, 143, rfl⟩
abbrev main_v74 : Ref sig .tc := ⟨.hbm, 144, rfl⟩
abbrev main_v75 : Ref sig .tc := ⟨.hbm, 145, rfl⟩
abbrev main_v76 : Ref sig .tc := ⟨.hbm, 146, rfl⟩
abbrev main_cst_15 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_call8_cst : Ref sig .tc := ⟨.hbm, 151, rfl⟩
abbrev main_call8_v0 : Ref sig .tc := ⟨.hbm, 152, rfl⟩
abbrev main_call8_cst_0 : Ref sig .tc := ⟨.hbm, 153, rfl⟩
abbrev main_call8_v1 : Ref sig .tc := ⟨.hbm, 154, rfl⟩
abbrev main_call8_v2 : Ref sig .tc := ⟨.hbm, 155, rfl⟩
abbrev main_call8_v3 : Ref sig .tc := ⟨.hbm, 156, rfl⟩
abbrev main_call8_v4 : Ref sig .tc := ⟨.hbm, 157, rfl⟩
abbrev main_call8_v5 : Ref sig .tc := ⟨.hbm, 158, rfl⟩
abbrev main_call8_v6 : Ref sig .tc := ⟨.hbm, 159, rfl⟩
abbrev main_call8_cst_1 : Ref sig .tc := ⟨.hbm, 160, rfl⟩
abbrev main_call8_v7 : Ref sig .tc := ⟨.hbm, 161, rfl⟩
abbrev main_call8_v8 : Ref sig .tc := ⟨.hbm, 162, rfl⟩
abbrev main_call8_v9 : Ref sig .tc := ⟨.hbm, 163, rfl⟩
abbrev main_call8_v10 : Ref sig .tc := ⟨.hbm, 164, rfl⟩
abbrev main_v80 : Ref sig .tc := ⟨.hbm, 165, rfl⟩
abbrev main_v81 : Ref sig .tc := ⟨.hbm, 166, rfl⟩
abbrev main_call9_c : Ref sig .tc := ⟨.hbm, 167, rfl⟩
abbrev main_call9_v0 : Ref sig .tc := ⟨.hbm, 168, rfl⟩
abbrev main_call9_v1 : Ref sig .tc := ⟨.hbm, 169, rfl⟩
abbrev main_call9_c_0 : Ref sig .tc := ⟨.hbm, 170, rfl⟩
abbrev main_call9_v2 : Ref sig .tc := ⟨.hbm, 171, rfl⟩
abbrev main_call9_v3 : Ref sig .tc := ⟨.hbm, 172, rfl⟩
abbrev main_call9_v4 : Ref sig .tc := ⟨.hbm, 173, rfl⟩
abbrev main_call9_v5 : Ref sig .tc := ⟨.hbm, 174, rfl⟩
abbrev main_call9_c_1 : Ref sig .tc := ⟨.hbm, 175, rfl⟩
abbrev main_call9_c_2 : Ref sig .tc := ⟨.hbm, 176, rfl⟩
abbrev main_call9_v6 : Ref sig .tc := ⟨.hbm, 177, rfl⟩
abbrev main_call9_v7 : Ref sig .tc := ⟨.hbm, 178, rfl⟩
abbrev main_call9_v8 : Ref sig .tc := ⟨.hbm, 179, rfl⟩
abbrev main_call9_v9 : Ref sig .tc := ⟨.hbm, 180, rfl⟩
abbrev main_call9_v10 : Ref sig .tc := ⟨.hbm, 181, rfl⟩
abbrev main_call9_v11 : Ref sig .tc := ⟨.hbm, 182, rfl⟩
abbrev main_call9_c_3 : Ref sig .tc := ⟨.hbm, 183, rfl⟩
abbrev main_call9_v12 : Ref sig .tc := ⟨.hbm, 184, rfl⟩
abbrev main_call9_v13 : Ref sig .tc := ⟨.hbm, 185, rfl⟩
abbrev main_call9_cst : Ref sig .tc := ⟨.hbm, 186, rfl⟩
abbrev main_call9_v14 : Ref sig .tc := ⟨.hbm, 187, rfl⟩
abbrev main_v82 : Ref sig .tc := ⟨.hbm, 188, rfl⟩
abbrev main_cst_16 : Ref sig .tc := ⟨.hbm, 189, rfl⟩
abbrev main_v83 : Ref sig .tc := ⟨.hbm, 190, rfl⟩
abbrev main_cst_17 : Ref sig .tc := ⟨.hbm, 191, rfl⟩
abbrev main_v84 : Ref sig .tc := ⟨.hbm, 192, rfl⟩
abbrev main_v85 : Ref sig .tc := ⟨.hbm, 193, rfl⟩
abbrev main_v86 : Ref sig .tc := ⟨.hbm, 194, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  bcast_S4096x1_S4096x64_0_1 : S4096x1.BroadcastsInDim S4096x64 (![0, 1] : Fin 2 → Fin S4096x64.rank)
  transposes_S4096x64_S64x4096_1_0 : S4096x64.Transposes [1, 0] S64x4096
  bcast_S_S4096x4096 : S_.BroadcastsInDim S4096x4096 (![] : Fin 0 → Fin S4096x4096.rank)
  concatenates_S4096x4096_S4096x4096_S4096x8192_d1 : Shape.Concatenates [S4096x4096, S4096x4096] S4096x8192 1
  transposes_S4096x4096_S4096x4096_1_0 : S4096x4096.Transposes [1, 0] S4096x4096
  concatenates_S4096x8192_S4096x8192_S8192x8192_d0 : Shape.Concatenates [S4096x8192, S4096x8192] S8192x8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  gather_S100000x64_S4096x1_S4096x64_1_0_n_n_0_1_164_wf : GatherDims.WF S100000x64 S4096x1 S4096x64 [1] [0] [] [0] [] 1 ![1, 64]
  dot_S4096x64_S64x4096_S4096x4096_1_0_0_1_n_n_wf : DotDims.WF S4096x64 S64x4096 S4096x4096 [1] [0] [0] [1] [] []
  gather_S8192x8192_S8192x1x1_S8192x1_n_1_0_0_1_2_11_wf : GatherDims.WF S8192x8192 S8192x1x1 S8192x1 [] [1] [0] [1] [0] 2 ![1, 1]

variable [Facts₀]

def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.RefFoldBase.lean ====
/-
  Cutting the reference program's list of host operations into pieces.

  The program is one list of 189 host operations, folded over the buffer contents one operation at a time. The fold
  over a list joined from two is the second's fold over the first's, so the fold over the first `a + n` operations is
  the fold of the `n` operations from position `a` over what the first `a` leave. Where an operation belongs to a
  called function its operands and result pass through the buffers' own types; carried there and back, or carried at a
  buffer of the value's own type, contents are unchanged.
-/
import proofs.«427174_j46875273069282_1_alg».proof.Proof.RefRun

set_option maxRecDepth 8192

noncomputable section

namespace Cert.ReferenceIdeal.Fold

open Cert.ReferenceIdeal Cert.ReferenceIdeal.Gen Idealize.ShloMosaic Idealize.ShloMosaic.TcCoe Idealize.SL.Sem
open Idealize.ShloMosaic.StableHlo

variable {F : FTy → Type} [FloatOps F]

/-! ## Cutting the list -/

/-- The fold over a list joined from two is the second's fold over the first's. -/
theorem after_app (l₁ l₂ : List (HloOp τ sig (Elt F))) (V : Valuation τ sig (Elt F)) :
    after (l₁ ++ l₂) V = after l₂ (after l₁ V) := by
  induction l₁ generalizing V with
  | nil => rfl
  | cons op l₁ ih => rw [List.cons_append, after_cons, after_cons, ih]

/-- The operations from position `a` on, `n` of them. -/
abbrev seg (a n : Nat) : List (HloOp τ sig (Elt F)) := ((ValueP.ops (F := F)).drop a).take n

/-- The buffer contents after the first `k` operations. -/
def upTo (k : Nat) (V : Valuation τ sig (Elt F)) : Valuation τ sig (Elt F) := after ((ValueP.ops (F := F)).take k) V

theorem upTo_zero (V : Valuation τ sig (Elt F)) : upTo (F := F) 0 V = V := rfl

/-- The first `a + n` operations are the first `a`, then the next `n`. -/
theorem upTo_step (a n k : Nat) (h : a + n = k) (V : Valuation τ sig (Elt F)) :
    upTo (F := F) k V = after (seg (F := F) a n) (upTo (F := F) a V) := by
  subst h
  unfold upTo
  rw [← after_app, List.take_add]

/-- All the operations are the first 188, then the last. -/
theorem after_ops (V : Valuation τ sig (Elt F)) :
    after (ValueP.ops (F := F)) V = after ((ValueP.ops (F := F)).drop 188) (upTo (F := F) 188 V) := by
  unfold upTo
  rw [← after_app, List.take_append_drop]

/-! ## Contents at a buffer's own type -/

/-- Contents carried to a buffer's own type and back are the contents. -/
theorem ofBuf_toBuf {T : BufTy} (x : TRef sig T) (v : T.Contents (Elt F)) : x.ofBuf (x.toBuf v) = v := by
  obtain ⟨r, h, h1, h2⟩ := x
  subst h
  rfl

/-- At a buffer of the value's own type, carrying contents to the buffer's type changes nothing. -/
theorem ofBuf_self (r : Ref sig .tc) (h1 : r.ty = r.ty) (h2 : r.space ≠ .host) (h3 : r.isScoped = false)
    (v : r.ty.Contents (Elt F)) : (TRef.of (T := r.ty) r h1 h2 h3).ofBuf v = v := rfl

theorem toBuf_self (r : Ref sig .tc) (h1 : r.ty = r.ty) (h2 : r.space ≠ .host) (h3 : r.isScoped = false)
    (v : r.ty.Contents (Elt F)) : (TRef.of (T := r.ty) r h1 h2 h3).toBuf v = v := rfl

end Cert.ReferenceIdeal.Fold

end
-- ==== Proof.RefFold.lean ====
/-
  The reference program's operations, folded over the launch contents, compute the reference's last stage.

  The program is one list of 189 host operations. Its dataflow is narrow: the first 32 operations make the two
  normalised user matrices; the next 18 their three products, two of them with the diagonal masked; seven more join
  the products into the 8192 × 8192 matrix of scaled similarities; sixteen take the row-wise log-softmax; nine make
  the positions to read in each row and fourteen read the log-softmax there; five average and negate what was read.
  The item branch repeats the same operations on the two gathered item matrices, and the last operation adds the two
  losses. The list is cut at those places; each piece is folded over ANY buffer contents holding the earlier stages,
  and here the pieces are chained from the launch contents.
-/
import proofs.«427174_j46875273069282_1_alg».proof.Proof.RefFoldPieces

set_option maxRecDepth 8192

noncomputable section

namespace Cert.ReferenceIdeal.Fold

open Cert.ReferenceIdeal Cert.ReferenceIdeal.Gen Idealize.ShloMosaic Idealize.ShloMosaic.TcCoe Idealize.SL.Sem
open Idealize.ShloMosaic.StableHlo

variable {F : FTy → Type} [FloatOps F]

/-! ## What the pieces leave alone, and the last operation -/

section Pieces

variable (V : Valuation τ sig (Elt F))
variable {x0 x1 : (⟨S4096, .i32⟩ : BufTy).Contents (Elt F)} {x2 x3 x4 x5 : (⟨S100000x64, .f32⟩ : BufTy).Contents (Elt F)}

/-- The nine operations that make the positions to read leave the log-softmax where it is. -/
theorem keep_v40 : after (seg (F := F) 73 9) V (Proc.devRef .tc main_v40) = V (Proc.devRef .tc main_v40) := by
  simp only [seg, ValueP.ops, List.drop_succ_cons, List.drop_zero, List.take_succ_cons, List.take_zero]
  after_results_simp

theorem keep_v80 : after (seg (F := F) 160 9) V (Proc.devRef .tc main_v80) = V (Proc.devRef .tc main_v80) := by
  simp only [seg, ValueP.ops, List.drop_succ_cons, List.drop_zero, List.take_succ_cons, List.take_zero]
  after_results_simp

/-- The item branch's 87 operations leave the user branch's loss where it is. -/
theorem keep_v45 : after (seg (F := F) 101 87) V (Proc.devRef .tc main_v45) = V (Proc.devRef .tc main_v45) := by
  simp only [seg, ValueP.ops, List.drop_succ_cons, List.drop_zero, List.take_succ_cons, List.take_zero]
  after_results_simp

/-- The user branch's 101 operations leave the item branch's arguments where they are. -/
theorem keep_arg1 : upTo (F := F) 101 V (Proc.devRef .tc main_arg1) = V (Proc.devRef .tc main_arg1) := by
  unfold upTo
  simp only [ValueP.ops, List.take_succ_cons, List.take_zero]
  after_results_simp

theorem keep_arg3 : upTo (F := F) 101 V (Proc.devRef .tc main_arg3) = V (Proc.devRef .tc main_arg3) := by
  unfold upTo
  simp only [ValueP.ops, List.take_succ_cons, List.take_zero]
  after_results_simp

theorem keep_arg5 : upTo (F := F) 101 V (Proc.devRef .tc main_arg5) = V (Proc.devRef .tc main_arg5) := by
  unfold upTo
  simp only [ValueP.ops, List.take_succ_cons, List.take_zero]
  after_results_simp

/-- The last operation adds the two branches' losses. -/
theorem last_v86
    (hu : V (Proc.devRef .tc main_v45) = ReadP.val_main_v45 (F := F) x0 x2 x4)
    (hi : V (Proc.devRef .tc main_v85) = ReadP.val_main_v85 (F := F) x1 x3 x5) :
    after ((ValueP.ops (F := F)).drop 188) V (Proc.devRef .tc main_v86) = ReadP.val_main_v86 (F := F) x0 x1 x2 x3 x4 x5 := by
  simp only [ValueP.ops, List.drop_succ_cons, List.drop_zero]
  after_results_simp
  rw [hu, hi]
  rfl

end Pieces

/-! ## The chain -/

/-- The fold of all 189 operations over the launch contents holds, at the result buffer, the reference's last stage
    of the six arguments. -/
theorem fold_main_v86 (m : (ℓ : Loc nD τ sig) → Buf (Elt F) ℓ) (c : Dev nD) :
    after (ValueP.ops (F := F)) (launchContents m c) (Proc.devRef .tc main_v86)
      = ReadP.val_main_v86 (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  -- the user branch
  have f16 : upTo (F := F) 32 (launchContents m c) (Proc.devRef .tc main_v16) = _ :=
    (congrFun (upTo_step 0 32 32 rfl _) _).trans (uA_v16 (launchContents m c))
  have f19 : upTo (F := F) 32 (launchContents m c) (Proc.devRef .tc main_v19) = _ :=
    (congrFun (upTo_step 0 32 32 rfl _) _).trans (uA_v19 (launchContents m c))
  have f25 := (congrFun (upTo_step (F := F) 32 18 50 rfl (launchContents m c)) (Proc.devRef .tc main_v25)).trans (uB_v25 _ f16 f19)
  have f31 := (congrFun (upTo_step (F := F) 32 18 50 rfl (launchContents m c)) (Proc.devRef .tc main_v31)).trans (uB_v31 _ f16)
  have f32 := (congrFun (upTo_step (F := F) 32 18 50 rfl (launchContents m c)) (Proc.devRef .tc main_v32)).trans (uB_v32 _ f19)
  have f38 := (congrFun (upTo_step (F := F) 50 7 57 rfl (launchContents m c)) (Proc.devRef .tc main_v38)).trans (uC_v38 _ f25 f31 f32)
  have f40 := (congrFun (upTo_step (F := F) 57 16 73 rfl (launchContents m c)) (Proc.devRef .tc main_v40)).trans (uD_v40 _ f38)
  have f39 := (congrFun (upTo_step (F := F) 57 16 73 rfl (launchContents m c)) (Proc.devRef .tc main_v39)).trans (uD_v39 _)
  have f5 := (congrFun (upTo_step (F := F) 73 9 82 rfl (launchContents m c)) (Proc.devRef .tc main_call5_v5)).trans (uE_call5_v5 _ f39)
  have f40' := (congrFun (upTo_step (F := F) 73 9 82 rfl (launchContents m c)) (Proc.devRef .tc main_v40)).trans ((keep_v40 _).trans f40)
  have f42 := (congrFun (upTo_step (F := F) 82 14 96 rfl (launchContents m c)) (Proc.devRef .tc main_v42)).trans (uF_v42 _ f5 f40')
  have f45 := (congrFun (upTo_step (F := F) 96 5 101 rfl (launchContents m c)) (Proc.devRef .tc main_v45)).trans (uG_v45 _ f42)
  -- the item branch
  have a1 : upTo (F := F) 101 (launchContents m c) (Proc.devRef .tc main_arg1) = m ((c.tc : Thread nD τ).loc main_arg1) := keep_arg1 _
  have a3 : upTo (F := F) 101 (launchContents m c) (Proc.devRef .tc main_arg3) = m ((c.tc : Thread nD τ).loc main_arg3) := keep_arg3 _
  have a5 : upTo (F := F) 101 (launchContents m c) (Proc.devRef .tc main_arg5) = m ((c.tc : Thread nD τ).loc main_arg5) := keep_arg5 _
  have f52 := (congrFun (upTo_step (F := F) 101 18 119 rfl (launchContents m c)) (Proc.devRef .tc main_v52)).trans (iA_v52 _)
  have f59 := (congrFun (upTo_step (F := F) 101 18 119 rfl (launchContents m c)) (Proc.devRef .tc main_v59)).trans (iA_v59 _)
  rw [a1, a3] at f52
  rw [a1, a5] at f59
  have f65 := (congrFun (upTo_step (F := F) 119 18 137 rfl (launchContents m c)) (Proc.devRef .tc main_v65)).trans (iB_v65 _ f52 f59)
  have f71 := (congrFun (upTo_step (F := F) 119 18 137 rfl (launchContents m c)) (Proc.devRef .tc main_v71)).trans (iB_v71 _ f52)
  have f72 := (congrFun (upTo_step (F := F) 119 18 137 rfl (launchContents m c)) (Proc.devRef .tc main_v72)).trans (iB_v72 _ f59)
  have f78 := (congrFun (upTo_step (F := F) 137 7 144 rfl (launchContents m c)) (Proc.devRef .tc main_v78)).trans (iC_v78 _ f65 f71 f72)
  have f80 := (congrFun (upTo_step (F := F) 144 16 160 rfl (launchContents m c)) (Proc.devRef .tc main_v80)).trans (iD_v80 _ f78)
  have f79 := (congrFun (upTo_step (F := F) 144 16 160 rfl (launchContents m c)) (Proc.devRef .tc main_v79)).trans (iD_v79 _)
  have g5 := (congrFun (upTo_step (F := F) 160 9 169 rfl (launchContents m c)) (Proc.devRef .tc main_call9_v5)).trans (iE_call9_v5 _ f79)
  have f80' := (congrFun (upTo_step (F := F) 160 9 169 rfl (launchContents m c)) (Proc.devRef .tc main_v80)).trans ((keep_v80 _).trans f80)
  have f82 := (congrFun (upTo_step (F := F) 169 14 183 rfl (launchContents m c)) (Proc.devRef .tc main_v82)).trans (iF_v82 _ g5 f80')
  have f85 := (congrFun (upTo_step (F := F) 183 5 188 rfl (launchContents m c)) (Proc.devRef .tc main_v85)).trans (iG_v85 _ f82)
  -- the user branch's loss is still there
  have k45 := ((congrFun (upTo_step (F := F) 101 87 188 rfl (launchContents m c)) (Proc.devRef .tc main_v45)).trans (keep_v45 _)).trans f45
  exact (congrFun (after_ops (launchContents m c)) _).trans (last_v86 _ k45 f85)

end Cert.ReferenceIdeal.Fold

end
-- ==== Proof.Spec.lean ====
/-
  The mathematics both programs compute, over the real numbers.

  A branch takes two matrices `a b` of 4096 rows of 64 reals. Stack them as `Q = [a; b]` and `K = [b; a]` (8192 rows
  each). Row `r` of `Q` meets every row `j` of `K` in the scaled inner product `lgt Q K r j = ⟨Q r, K j⟩ · scale`, where
  `scale` is the reciprocal of the binary value of the single-precision number nearest to 0.2. Row `r`'s partner
  column `partner r` (the row itself, shifted by half the height) holds the row's similarity with itself, because
  `K (partner r) = Q r`; the target column is `r` itself.

  * The reference masks the partner column out, takes the log-softmax of the row and reads it at column `r`:
    `refRow`, with the row maximum and the sum of exponentials taken over every column but the partner.
  * The kernel sweeps every column (maximum and sum of exponentials over all of them), subtracts the partner's
    exponential, which it recomputes as `exp (⟨Q r, Q r⟩ · scale - maximum)`, and adds the maximum back: `kerRow`.

  Both then average over the 8192 rows (the kernel tile by tile, 16 tiles of 512 rows); the reference negates the
  mean of the log-probabilities, the kernel averages the losses directly.
-/
import Idealize.ShloMosaic.PureOps.Ideal
import Idealize.ShloMosaic.Lib.ValueIdx

noncomputable section

open scoped BigOperators

namespace Cert.InfoNCE

open Idealize.ShloMosaic Idealize.ShloMosaic.ValueIdx

/-- The factor both programs scale a similarity by: `1 / f` for `f = 13421773 / 67108864`, the binary value of the
    single-precision number nearest to 0.2. -/
def scale : ℝ := 67108864 / 13421773

/-- A matrix of `n` rows of 64 reals. -/
abbrev RMat (n : Nat) := Fin n → Fin 64 → ℝ

/-- The inner product of two rows. -/
def rdot (a b : Fin 64 → ℝ) : ℝ := ∑ d : Fin 64, a d * b d

/-- The scaled similarity of row `r` of `Q` with row `j` of `K`. -/
def lgt (Q K : RMat 8192) (r j : Fin 8192) : ℝ := rdot (Q r) (K j) * scale

/-- Two matrices of 4096 rows, one above the other. -/
def stack (a b : RMat 4096) : RMat 8192 :=
  fun r => if h : r.val < 4096 then a ⟨r.val, h⟩ else b ⟨r.val - 4096, by omega⟩

/-- The column holding row `r`'s similarity with itself: the row index shifted by half the height. -/
def partner (r : Fin 8192) : Fin 8192 :=
  if h : r.val < 4096 then ⟨r.val + 4096, by omega⟩ else ⟨r.val - 4096, by omega⟩

/-- Row `i` of tile `t`, as a row of the whole matrix. -/
def rowOf (t : Fin 16) (i : Fin 512) : Fin 8192 := ⟨512 * t.val + i.val, by omega⟩

/-- What the kernel computes for one row `q` of a tile against all of `K`, with target column `tgt`: the maximum of
    the row's scaled similarities, plus the logarithm of their shifted exponentials' sum less the shifted exponential
    of the row's scaled similarity with itself, minus the target's scaled similarity. -/
def kerRowB (q : Fin 64 → ℝ) (K : RMat 8192) (tgt : Fin 8192) : ℝ :=
  (Finset.univ.sup' Finset.univ_nonempty (fun j => rdot q (K j) * scale)
    + Real.log ((∑ j : Fin 8192, Real.exp (rdot q (K j) * scale
          - Finset.univ.sup' Finset.univ_nonempty (fun j => rdot q (K j) * scale)))
        - Real.exp (rdot q q * scale - Finset.univ.sup' Finset.univ_nonempty (fun j => rdot q (K j) * scale))))
    - rdot q (K tgt) * scale

/-- The kernel's value for row `r` of `Q`. -/
def kerRow (Q K : RMat 8192) (r : Fin 8192) : ℝ := kerRowB (Q r) K r

/-- The kernel's partial sum over tile `t`. -/
def kerTile (Q K : RMat 8192) (t : Fin 16) : ℝ := ∑ i : Fin 512, kerRow Q K (rowOf t i)

/-- The kernel's loss of a branch: the tiles' partial sums, added and divided by the number of rows. -/
def kerBranch (Q K : RMat 8192) : ℝ := (∑ t : Fin 16, kerTile Q K t) / 8192

/-- Every column but row `r`'s partner. -/
def others (r : Fin 8192) : Finset (Fin 8192) := Finset.univ.erase (partner r)

theorem self_mem_others (r : Fin 8192) : r ∈ others r := by
  unfold others partner
  refine Finset.mem_erase.mpr ⟨?_, Finset.mem_univ _⟩
  intro h
  have := congrArg Fin.val h
  split at this <;> simp at this <;> omega

theorem others_nonempty (r : Fin 8192) : (others r).Nonempty := ⟨r, self_mem_others r⟩

/-- The reference's log-probability of the target column in row `r`: the log-softmax over every column but the
    partner, read at column `r`. -/
def refRow (Q K : RMat 8192) (r : Fin 8192) : ℝ :=
  (lgt Q K r r - (others r).sup' (others_nonempty r) (lgt Q K r))
    - Real.log (∑ j ∈ others r, Real.exp (lgt Q K r j - (others r).sup' (others_nonempty r) (lgt Q K r)))

/-- The reference's loss of a branch: minus the mean of the rows' log-probabilities. -/
def refBranch (Q K : RMat 8192) : ℝ := -((∑ r : Fin 8192, refRow Q K r) / 8192)

/-! ## Arrays of extended reals that hold real numbers -/

/-- Every entry of the array is a real number. -/
def IsReal {s : Shape} (x : s.Idx → EReal) : Prop := ∀ i, x i ≠ ⊤ ∧ x i ≠ ⊥

/-- The real matrix an array of `n` rows of 64 extended reals holds. -/
def toR {n : Nat} (x : (⟨2, ![n, 64]⟩ : Shape).Idx → EReal) : RMat n := fun r d => (x (ix2 r d)).toReal

theorem coe_toR {n : Nat} {x : (⟨2, ![n, 64]⟩ : Shape).Idx → EReal} (hx : IsReal x) (r : Fin n) (d : Fin 64) :
    ((toR x r d : ℝ) : EReal) = x (ix2 r d) := EReal.coe_toReal (hx _).1 (hx _).2

/-- Two arrays of 4096 rows of 64 extended reals, one above the other. -/
def stackE (A B : (⟨2, ![4096, 64]⟩ : Shape).Idx → EReal) : (⟨2, ![8192, 64]⟩ : Shape).Idx → EReal :=
  fun i => if h : (i 0).val < 4096 then A (ix2 ⟨(i 0).val, h⟩ (i 1))
    else B (ix2 ⟨(i 0).val - 4096, by have := (i 0).isLt; simp at this; omega⟩ (i 1))

theorem toR_stackE (A B : (⟨2, ![4096, 64]⟩ : Shape).Idx → EReal) : toR (stackE A B) = stack (toR A) (toR B) := by
  funext r d
  unfold toR stackE stack
  by_cases h : r.val < 4096
  · simp only [dif_pos h]
  · simp only [dif_neg h]

theorem isReal_stackE {A B : (⟨2, ![4096, 64]⟩ : Shape).Idx → EReal} (hA : IsReal A) (hB : IsReal B) :
    IsReal (stackE A B) := by
  intro i
  unfold stackE
  by_cases h : (i 0).val < 4096
  · simp only [dif_pos h]; exact hA _
  · simp only [dif_neg h]; exact hB _

/-! ## One row of the kernel's sweep, over the extended reals

  The kernel never forms a row's 8192 scaled similarities at once: it walks the 16 blocks of 512 columns, carrying the
  running maximum `m` (from `-∞`) and the running sum `l` (from `0`) of exponentials shifted by the running maximum;
  at each block the old sum is rescaled by `exp (m - m')`. -/

/-- One block of the sweep: `s` are the block's 512 scaled similarities; `(m, l)` the running maximum and sum. -/
def stepE (s : Fin 512 → EReal) (ml : EReal × EReal) : EReal × EReal :=
  (max ml.1 (Finset.univ.fold max (⊥ : EReal) s),
   ml.2 * Ideal.exp (ml.1 - max ml.1 (Finset.univ.fold max (⊥ : EReal) s))
     + ∑ k : Fin 512, Ideal.exp (s k - max ml.1 (Finset.univ.fold max (⊥ : EReal) s)))

/-- Column `k` of block `b`, as a column of the whole row. -/
def colOf (b : Fin 16) (k : Fin 512) : Fin 8192 := ⟨512 * b.val + k.val, by omega⟩

/-- The 16 blocks in the order the kernel visits them. -/
def blocks : List (Fin 16) := [0, 1, 2, 3, 4, 5, 6, 7, 8, 9, 10, 11, 12, 13, 14, 15]

/-- The running maximum and sum after all 16 blocks of a row `x` of scaled similarities. -/
def sweepE (x : Fin 8192 → EReal) : EReal × EReal :=
  blocks.foldl (fun ml b => stepE (fun k => x (colOf b k)) ml) (⊥, 0)

/-- What the kernel makes of a row: `m + log (l - exp (self - m)) - target`, with `(m, l)` the sweep's result, `self`
    the row's scaled similarity with itself and `target` the target column's. -/
def rowE (x : Fin 8192 → EReal) (self target : EReal) : EReal :=
  ((sweepE x).1 + Ideal.log ((sweepE x).2 - Ideal.exp (self - (sweepE x).1))) - target

/-! ## One tile of the kernel, over the extended reals -/

/-- The scaled similarity of row `r` of a tile's block `x0` of `Q` with row `j` of `K` (`x1`), as the kernel forms it. -/
def lgE (x0 : (⟨2, ![512, 64]⟩ : Shape).Idx → EReal) (x1 : (⟨2, ![8192, 64]⟩ : Shape).Idx → EReal) (r : Fin 512)
    (j : Fin 8192) : EReal :=
  (∑ d : Fin 64, x0 (ix2 r d) * x1 (ix2 j d)) * ((scale : ℝ) : EReal)

/-- Row `r`'s scaled similarity with itself. -/
def selfE (x0 : (⟨2, ![512, 64]⟩ : Shape).Idx → EReal) (r : Fin 512) : EReal :=
  (∑ d : Fin 64, x0 (ix2 r d) * x0 (ix2 r d)) * ((scale : ℝ) : EReal)

/-- The partial sum the kernel stores for tile `t`: the rows' values `rowE`, the target column of row `r` being the
    row's own position `rowOf t r` in the whole matrix. -/
def tileE (x0 : (⟨2, ![512, 64]⟩ : Shape).Idx → EReal) (x1 : (⟨2, ![8192, 64]⟩ : Shape).Idx → EReal) (t : Fin 16) : EReal :=
  ∑ r : Fin 512, rowE (lgE x0 x1 r) (selfE x0 r) (lgE x0 x1 r (rowOf t r))

end Cert.InfoNCE

end
-- ==== Proof.PreDecode.lean ====
/-
  From the precondition to real numbers.

  The precondition says, of each of the four tables, that every entry `x` has `|x| < +∞`, and, of the rows gathered from
  the two user tables at the wrapped user indices, that each row's sum of squares is positive. Over the extended reals
  `|x| < +∞` holds exactly of the real numbers (`|⊤| = |⊥| = ⊤`), so the tables hold real numbers. A gather only moves
  entries, so the rows gathered from the item tables are rows of reals: two of the four arrays. A row of reals has a real
  sum of squares `s`; the precondition makes it positive, so its square root is a nonzero real, and each entry divided by
  it is the entry times a real reciprocal, a real number: the two normalised user arrays.
-/
import proofs.«427174_j46875273069282_1_alg».proof.Pre_finite_inputs
import proofs.«427174_j46875273069282_1_alg».proof.Proof.Gen.Pre_finite_inputs
import proofs.«427174_j46875273069282_1_alg».proof.Proof.RefStages
import proofs.«427174_j46875273069282_1_alg».proof.Proof.Spec
import Idealize.ShloMosaic.Lib.ReduceAll
import Idealize.ShloMosaic.PureOps.Ideal.Laws

noncomputable section

open scoped BigOperators

namespace Cert.PreDecode

open Idealize.ShloMosaic Idealize.ShloMosaic.ValueIdx Cert.InfoNCE

/-- The rank-0 shape has one index. -/
instance : Subsingleton (⟨0, ![]⟩ : Shape).Idx := ⟨fun a b => funext fun d => d.elim0⟩

/-! ## Scalars -/

/-- The single-precision pattern `0x7F800000` denotes `+∞`. -/
theorem inf_bits : Ideal.ofBits .f32 0x7F800000#32 = ⊤ := by
  simp [Ideal.ofBits, Ideal.ieee]

/-- `|x| < +∞` holds only of a real number. -/
theorem real_of_abs_lt (x : EReal) (h : Ideal.cmp .olt (max x (-x)) (Ideal.ofBits .f32 0x7F800000#32) = 1#1) :
    x ≠ ⊤ ∧ x ≠ ⊥ := by
  rw [inf_bits] at h
  induction x using EReal.rec with
  | bot => simp [Ideal.cmp] at h
  | top => simp [Ideal.cmp] at h
  | coe r => exact ⟨EReal.coe_ne_top r, EReal.coe_ne_bot r⟩

/-- `s > 0` as the comparison against the zero pattern says it. -/
theorem pos_of_cmp_gt (s : EReal) (h : Ideal.cmp .ogt s (Ideal.ofBits .f32 0x00000000#32) = 1#1) : 0 < s := by
  rw [Ideal.ofBits_zero_f32] at h
  by_contra hn
  simp [Ideal.cmp, hn] at h

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Zero plus a finite sum of squares of real numbers is a real number. -/
theorem sumsq_real {ι : Type} [Fintype ι] (g : ι → EReal) (hg : ∀ k, g k ≠ ⊤ ∧ g k ≠ ⊥) :
    (0 + ∑ k, g k * g k : EReal) = ((∑ k, (g k).toReal * (g k).toReal : ℝ) : EReal) := by
  rw [zero_add, coe_sum]
  refine Finset.sum_congr rfl fun k _ => ?_
  rw [EReal.coe_mul, EReal.coe_toReal (hg k).1 (hg k).2]

/-- A real number divided by the square root of a positive real number is a real number. -/
theorem div_sqrt_real (x : EReal) (s : ℝ) (hx : x ≠ ⊤ ∧ x ≠ ⊥) (hs : (0 : EReal) < (s : EReal)) :
    Ideal.div x (Ideal.sqrt (s : EReal)) ≠ ⊤ ∧ Ideal.div x (Ideal.sqrt (s : EReal)) ≠ ⊥ := by
  have hs' : 0 < s := by exact_mod_cast hs
  have hn : Real.sqrt s ≠ 0 := (Real.sqrt_pos.2 hs').ne'
  rw [Ideal.sqrt_coe, if_neg (not_lt.2 hs'.le), Ideal.div_coe hn, ← EReal.coe_toReal hx.1 hx.2, ← EReal.coe_mul]
  exact ⟨EReal.coe_ne_top _, EReal.coe_ne_bot _⟩

/-! ## The precondition, decoded -/

section Pre
open Cert.Pre_finite_inputs Cert.Pre_finite_inputs.Facts

/-- The wrapped index column the precondition gathers at: a negative index has the table's height added. -/
def preIdx (x0 : IVec S4096 32) : IVec S4096x1 32 :=
  broadcastInDim S4096x1 ![0] bcast_S4096_S4096x1_0
    (select (cmpi CmpIPredicate.slt x0 (broadcastInDim S4096 ![] bcast_S_S4096 (constantI S_ 32 0#32)))
      (addi x0 (broadcastInDim S4096 ![] bcast_S_S4096 (constantI S_ 32 100000#32))) x0)

/-- The rows the precondition gathers from a table. -/
def preG (x0 : IVec S4096 32) (x : FVec Ideal S100000x64 .f32) : FVec Ideal S4096x64 .f32 :=
  Host.gather gather_S100000x64_S4096x1_S4096x64_1_0_n_n_0_1_164 x (preIdx x0)

/-- The gathered rows' sums of squares, as the precondition forms them. -/
def preSq (x0 : IVec S4096 32) (x : FVec Ideal S100000x64 .f32) : FVec Ideal S4096 .f32 :=
  Host.reduceAdd (mulf (preG x0 x) (preG x0 x)) (constant S_ .f32 0x00000000#32) reducesTo_S4096x64_S4096_d1 h_S_

theorem table_real (x : FVec Ideal S100000x64 .f32)
    (e : Host.reduce IntOp.andi
        (cmpf CmpFPredicate.olt (Host.absf x) (broadcastInDim S100000x64 ![] bcast_S_S100000x64 (constant S_ .f32 0x7F800000#32)))
        (constantI S_ 1 1#1) reducesTo_S100000x64_S_d0_1 h_S_ ix0 = 1#1) : IsReal x := fun i =>
  real_of_abs_lt (x i) (Host.reduce_andi_all _ _ _ _ ix0 e i)

theorem rows_pos (s : FVec Ideal S4096 .f32)
    (e : Host.reduce IntOp.andi
        (cmpf CmpFPredicate.ogt s (broadcastInDim S4096 ![] bcast_S_S4096 (constant S_ .f32 0x00000000#32)))
        (constantI S_ 1 1#1) reducesTo_S4096_S_d0 h_S_ ix0 = 1#1) (b : S4096.Idx) : 0 < s b :=
  pos_of_cmp_gt (s b) (Host.reduce_andi_all _ _ _ _ ix0 e b)

/-- What the precondition says: the four tables hold real numbers, and every row gathered from either user table
    has a positive sum of squares. -/
theorem decode (x0 x1 : IVec S4096 32) (x2 x3 x4 x5 : FVec Ideal S100000x64 .f32)
    (h : Cert.Pre_finite_inputs.fn (F := Ideal) x0 x1 x2 x3 x4 x5 = fun _ => 1#1) :
    IsReal x2 ∧ IsReal x3 ∧ IsReal x4 ∧ IsReal x5 ∧ (∀ b, 0 < preSq x0 x2 b) ∧ (∀ b, 0 < preSq x0 x4 b) := by
  have h0 := congrFun h ValueIdx.ix0
  dsimp only [Cert.Pre_finite_inputs.fn, fn_part1, fn_part2] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨e1, e2⟩ := IntOp.andi_eq_one.1 h0
  exact ⟨table_real x2 e1, table_real x3 e2, table_real x4 e3, table_real x5 e4,
    rows_pos (preSq x0 x2) e5, rows_pos (preSq x0 x4) e6⟩

end Pre

/-! ## Gathered rows -/

/-- A gather only moves entries: out of a table of real numbers it takes real numbers, whatever the indices. -/
theorem isReal_gather {s si t : Shape} {w : Nat} (d : GatherDims s si t) (x : s.Idx → EReal) (idx : IVec si w)
    (hx : IsReal x) : IsReal (Host.gather d x idx) := fun j => hx (d.operandIdx j idx)

/-! ## The reference's normalised rows -/

section Ref
open Cert.ReferenceIdeal Cert.ReferenceIdeal.Gen Cert.ReferenceIdeal.ReadP

/-- Row `b`'s sum of squares in the reference's first normalisation. -/
theorem sq0_apply (x0 : (⟨Cert.ReferenceIdeal.S4096, .i32⟩ : BufTy).Contents (Elt Ideal))
    (x2 : (⟨Cert.ReferenceIdeal.S100000x64, .f32⟩ : BufTy).Contents (Elt Ideal)) (b : Cert.ReferenceIdeal.S4096.Idx) :
    val_main_call0_v1 (F := Ideal) x0 x2 b
      = 0 + ∑ k : Fin 64, val_main_v6 (F := Ideal) x0 x2 (idx_main_call0_v1 b k) * val_main_v6 (F := Ideal) x0 x2 (idx_main_call0_v1 b k) := by
  rw [val_main_call0_v1_apply]
  exact congrArg (· + _) Ideal.ofBits_zero_f32

theorem isReal_v16 (x0 : (⟨Cert.ReferenceIdeal.S4096, .i32⟩ : BufTy).Contents (Elt Ideal))
    (x2 : (⟨Cert.ReferenceIdeal.S100000x64, .f32⟩ : BufTy).Contents (Elt Ideal)) (hx : IsReal x2)
    (hpos : ∀ b, 0 < val_main_call0_v1 (F := Ideal) x0 x2 b) : IsReal (val_main_v16 (F := Ideal) x0 x2) := by
  intro i
  have hg : IsReal (val_main_v6 (F := Ideal) x0 x2) := isReal_gather _ _ _ hx
  have hp := hpos (idx_main_call0_v2 (idx_main_v15 i))
  rw [val_main_v16_apply, val_main_v15_apply, val_main_v14_apply, val_main_call0_v2_apply]
  rw [sq0_apply, sumsq_real _ (fun k => hg _)] at hp ⊢
  exact div_sqrt_real _ _ (hg i) hp

/-- Row `b`'s sum of squares in the reference's second normalisation. -/
theorem sq1_apply (x0 : (⟨Cert.ReferenceIdeal.S4096, .i32⟩ : BufTy).Contents (Elt Ideal))
    (x4 : (⟨Cert.ReferenceIdeal.S100000x64, .f32⟩ : BufTy).Contents (Elt Ideal)) (b : Cert.ReferenceIdeal.S4096.Idx) :
    val_main_call1_v1 (F := Ideal) x0 x4 b
      = 0 + ∑ k : Fin 64, val_main_v13 (F := Ideal) x0 x4 (idx_main_call1_v1 b k) * val_main_v13 (F := Ideal) x0 x4 (idx_main_call1_v1 b k) := by
  rw [val_main_call1_v1_apply]
  exact congrArg (· + _) Ideal.ofBits_zero_f32

theorem isReal_v19 (x0 : (⟨Cert.ReferenceIdeal.S4096, .i32⟩ : BufTy).Contents (Elt Ideal))
    (x4 : (⟨Cert.ReferenceIdeal.S100000x64, .f32⟩ : BufTy).Contents (Elt Ideal)) (hx : IsReal x4)
    (hpos : ∀ b, 0 < val_main_call1_v1 (F := Ideal) x0 x4 b) : IsReal (val_main_v19 (F := Ideal) x0 x4) := by
  intro i
  have hg : IsReal (val_main_v13 (F := Ideal) x0 x4) := isReal_gather _ _ _ hx
  have hp := hpos (idx_main_call1_v2 (idx_main_v18 i))
  rw [val_main_v19_apply, val_main_v18_apply, val_main_v17_apply, val_main_call1_v2_apply]
  rw [sq1_apply, sumsq_real _ (fun k => hg _)] at hp ⊢
  exact div_sqrt_real _ _ (hg i) hp

/-- The precondition forms the first user table's row sums of squares exactly as the reference does. -/
theorem preSq_eq0 (x0 : IVec Cert.Pre_finite_inputs.S4096 32) (x2 : FVec Ideal Cert.Pre_finite_inputs.S100000x64 .f32) :
    preSq x0 x2 = val_main_call0_v1 (F := Ideal) x0 x2 := rfl

/-- And the second user table's. -/
theorem preSq_eq1 (x0 : IVec Cert.Pre_finite_inputs.S4096 32) (x4 : FVec Ideal Cert.Pre_finite_inputs.S100000x64 .f32) :
    preSq x0 x4 = val_main_call1_v1 (F := Ideal) x0 x4 := rfl

end Ref

/-! ## From the precondition to the four arrays the two branches start from -/

open Cert.ReferenceIdeal Cert.ReferenceIdeal.ReadP in
/-- Under the precondition, the two normalised user arrays and the two gathered item arrays hold real numbers:
    the tables do; a gather moves entries; and a row of reals with a positive sum of squares, divided by the
    square root of that sum, is a row of reals. -/
theorem real_of_pre (x0 x1 : IVec Cert.Pre_finite_inputs.S4096 32)
    (x2 x3 x4 x5 : FVec Ideal Cert.Pre_finite_inputs.S100000x64 .f32)
    (h : Cert.Pre_finite_inputs.fn (F := Ideal) x0 x1 x2 x3 x4 x5 = fun _ => 1#1) :
    IsReal (ReadP.val_main_v16 (F := Ideal) x0 x2) ∧ IsReal (ReadP.val_main_v19 (F := Ideal) x0 x4)
      ∧ IsReal (ReadP.val_main_v52 (F := Ideal) x1 x3) ∧ IsReal (ReadP.val_main_v59 (F := Ideal) x1 x5) := by
  obtain ⟨r2, r3, r4, r5, p2, p4⟩ := decode x0 x1 x2 x3 x4 x5 h
  exact ⟨isReal_v16 x0 x2 r2 (fun b => preSq_eq0 x0 x2 ▸ p2 b), isReal_v19 x0 x4 r4 (fun b => preSq_eq1 x0 x4 ▸ p4 b),
    isReal_gather _ _ _ r3, isReal_gather _ _ _ r5⟩

end Cert.PreDecode

end
-- ==== Proof.RealMath.lean ====
/-
  The real-number identity between the kernel's loss of a branch and the reference's.

  For a fixed row `r` write `x j` for the scaled similarity with column `j`, `p` for the partner column, `M` for the
  maximum of `x` over all columns and `M'` for the maximum over every column but `p`. For the stacked pair the
  partner column of `K` holds the row of `Q` itself, so the term the kernel subtracts is `exp (x p - M)` and its
  bracket is the sum of `exp (x j - M)` over the other columns. Adding a constant back to the logarithm of a sum of
  exponentials shifted by that constant gives the logarithm of the unshifted sum, whatever the constant; so the
  kernel's row value and the reference's differ only in sign. Summing over the tiles is summing over the rows.
-/
import proofs.«427174_j46875273069282_1_alg».proof.Proof.Spec
import Mathlib.Analysis.SpecialFunctions.Log.Basic
import Mathlib.Algebra.BigOperators.Group.Finset.Basic
import Mathlib.Data.Fintype.BigOperators

noncomputable section

open scoped BigOperators

namespace Cert.InfoNCE

/-- The partner row of the swapped stack is the row itself. -/
theorem stack_partner (a b : RMat 4096) (r : Fin 8192) :
    stack b a (partner r) = stack a b r := by
  unfold stack partner
  by_cases h : r.val < 4096
  · have h' : ¬ (r.val + 4096 < 4096) := by omega
    simp only [h, h', dite_true, dite_false]
    exact congrArg a (Fin.ext (by show r.val + 4096 - 4096 = r.val; omega))
  · have h' : r.val - 4096 < 4096 := by omega
    simp only [h, h', dite_true, dite_false]

/-- Adding `c` to the logarithm of a sum of exponentials shifted by `c` gives the logarithm of the unshifted sum. -/
theorem add_log_sum_exp_sub {ι : Type} (s : Finset ι) (hs : s.Nonempty) (x : ι → ℝ) (c : ℝ) :
    c + Real.log (∑ j ∈ s, Real.exp (x j - c)) = Real.log (∑ j ∈ s, Real.exp (x j)) := by
  have hpos : 0 < ∑ j ∈ s, Real.exp (x j) := Finset.sum_pos (fun j _ => Real.exp_pos _) hs
  have h : ∑ j ∈ s, Real.exp (x j - c) = (∑ j ∈ s, Real.exp (x j)) * Real.exp (-c) := by
    rw [Finset.sum_mul]
    refine Finset.sum_congr rfl (fun j _ => ?_)
    rw [sub_eq_add_neg, Real.exp_add]
  rw [h, Real.log_mul hpos.ne' (Real.exp_pos _).ne', Real.log_exp]
  ring

/-- The sum over all columns less the partner's term is the sum over the other columns. -/
theorem sum_sub_partner (f : Fin 8192 → ℝ) (r : Fin 8192) :
    (∑ j : Fin 8192, f j) - f (partner r) = ∑ j ∈ others r, f j := by
  unfold others
  rw [Finset.sum_erase_eq_sub (Finset.mem_univ _)]

/-- The row identity over an abstract row of similarities, whatever the two shifts `M` and `M'`. -/
theorem row_identity (x : Fin 8192 → ℝ) (r t : Fin 8192) (M M' : ℝ) :
    (M + Real.log ((∑ j : Fin 8192, Real.exp (x j - M)) - Real.exp (x (partner r) - M))) - x t
      = -((x t - M') - Real.log (∑ j ∈ others r, Real.exp (x j - M'))) := by
  rw [sum_sub_partner (fun j => Real.exp (x j - M)) r]
  have h1 := add_log_sum_exp_sub (others r) (others_nonempty r) x M
  have h2 := add_log_sum_exp_sub (others r) (others_nonempty r) x M'
  rw [h1]
  linarith

/-- The kernel's row value is minus the reference's, when the partner column of `K` holds the row of `Q`. -/
theorem kerRow_eq_neg_refRow (Q K : RMat 8192) (r : Fin 8192) (hp : K (partner r) = Q r) :
    kerRow Q K r = -(refRow Q K r) := by
  have h := row_identity (fun j => rdot (Q r) (K j) * scale) r r
    (Finset.univ.sup' Finset.univ_nonempty (fun j => rdot (Q r) (K j) * scale))
    ((others r).sup' (others_nonempty r) (lgt Q K r))
  rw [hp] at h
  exact h

/-- The kernel's bracket is positive for the stacked pair: it is the sum over the other columns. -/
theorem bracket_pos (a b : RMat 4096) (r : Fin 8192) :
    0 < (∑ j : Fin 8192, Real.exp (lgt (stack a b) (stack b a) r j
          - Finset.univ.sup' Finset.univ_nonempty (lgt (stack a b) (stack b a) r)))
        - Real.exp (rdot (stack a b r) (stack a b r) * scale
          - Finset.univ.sup' Finset.univ_nonempty (lgt (stack a b) (stack b a) r)) := by
  have hx : rdot (stack a b r) (stack a b r) * scale = lgt (stack a b) (stack b a) r (partner r) := by
    unfold lgt
    rw [stack_partner]
  rw [hx, sum_sub_partner (fun j => Real.exp (lgt (stack a b) (stack b a) r j
          - Finset.univ.sup' Finset.univ_nonempty (lgt (stack a b) (stack b a) r))) r]
  exact Finset.sum_pos (fun j _ => Real.exp_pos _) (others_nonempty r)

/-- The rows of the sixteen tiles are the rows of the matrix, each once. -/
def tileEquiv : Fin 16 × Fin 512 ≃ Fin 8192 where
  toFun p := rowOf p.1 p.2
  invFun r := (⟨r.val / 512, by omega⟩, ⟨r.val % 512, by omega⟩)
  left_inv := by
    rintro ⟨t, i⟩
    ext <;> simp only [rowOf] <;> omega
  right_inv := by
    intro r
    ext
    simp only [rowOf]
    omega

/-- Summing tile by tile is summing over the rows. -/
theorem sum_tiles (f : Fin 8192 → ℝ) :
    ∑ t : Fin 16, ∑ i : Fin 512, f (rowOf t i) = ∑ r : Fin 8192, f r :=
  (Fintype.sum_prod_type' (fun (t : Fin 16) (i : Fin 512) => f (rowOf t i))).symm.trans
    (Fintype.sum_equiv tileEquiv _ _ (fun _ => rfl))

/-- The kernel's loss of a branch is the reference's. -/
theorem branch_eq (a b : RMat 4096) :
    kerBranch (stack a b) (stack b a) = refBranch (stack a b) (stack b a) := by
  unfold kerBranch refBranch kerTile
  rw [sum_tiles (kerRow (stack a b) (stack b a)), ← neg_div, ← Finset.sum_neg_distrib]
  congr 1
  refine Finset.sum_congr rfl (fun r _ => ?_)
  exact kerRow_eq_neg_refRow _ _ r (stack_partner a b r)

end Cert.InfoNCE
-- ==== Proof.SweepMath.lean ====
import proofs.«427174_j46875273069282_1_alg».proof.Proof.Spec
import Mathlib.Data.EReal.Operations
import Mathlib.Data.Finset.Lattice.Fold
import Mathlib.Algebra.BigOperators.Group.Finset.Basic
import Mathlib.Analysis.SpecialFunctions.Log.Basic

/-!
  The block-by-block sweep of one row equals the whole-row maximum and sum.

  Over a set `C` of columns already swept, the running state is `(-∞, 0)` when `C` is empty and otherwise
  `(max over C, sum over C of exp (x j - max over C))`, both real. One more block `B`, disjoint from `C`, turns this
  state into the same expression over `C ∪ B`: the maximum of a union is the larger of the two maxima, and the old sum,
  multiplied by `exp (m - m')`, becomes the sum of `exp (x j - m')` because `exp (a - m) * exp (m - m') = exp (a - m')`.
  The 16 blocks are pairwise disjoint and cover every column, so after the last block `C` is the whole row.
-/

noncomputable section

open scoped BigOperators

namespace Cert.InfoNCE

open Idealize.ShloMosaic

/-! ## Coercions of finite sums and maxima -/

/-- The coercion of a finite sum of reals is the sum of the coercions. -/
theorem coe_sum_ereal {ι : Type} (C : Finset ι) (f : ι → ℝ) :
    ((∑ j ∈ C, f j : ℝ) : EReal) = ∑ j ∈ C, (f j : EReal) := by
  classical
  induction C using Finset.induction_on with
  | empty => simp
  | insert a s ha ih => rw [Finset.sum_insert ha, Finset.sum_insert ha, EReal.coe_add, ih]

/-- A sum of exponentials of real differences is the real sum of real exponentials. -/
theorem sum_exp_coe {ι : Type} (C : Finset ι) (f : ι → ℝ) (M : ℝ) :
    ∑ j ∈ C, Ideal.exp ((f j : EReal) - (M : EReal)) = ((∑ j ∈ C, Real.exp (f j - M) : ℝ) : EReal) := by
  rw [coe_sum_ereal]
  refine Finset.sum_congr rfl fun j _ => ?_
  rw [← EReal.coe_sub, Ideal.exp_coe]

/-- The coercion of the larger of two reals. -/
theorem coe_max_ereal (a b : ℝ) : ((max a b : ℝ) : EReal) = max (a : EReal) (b : EReal) :=
  EReal.coe_strictMono.monotone.map_max

/-- The fold of `max` from `-∞` over real entries is the coercion of their maximum. -/
theorem fold_max_coe (s : Fin 512 → ℝ) :
    Finset.univ.fold max (⊥ : EReal) (fun k => (s k : EReal))
      = ((Finset.univ.sup' Finset.univ_nonempty s : ℝ) : EReal) := by
  have h1 : Finset.univ.fold max (⊥ : EReal) (fun k => (s k : EReal))
      = Finset.univ.sup (fun k => (s k : EReal)) := rfl
  rw [h1, ← Finset.sup'_eq_sup Finset.univ_nonempty]
  exact (Finset.apply_sup'_eq_sup'_comp Finset.univ_nonempty (fun r : ℝ => (r : EReal)) coe_max_ereal).symm

/-! ## One block from either kind of state -/

/-- The first block: from `(-∞, 0)` the state becomes the block's maximum and its shifted sum. -/
theorem stepE_bot (s : Fin 512 → ℝ) :
    stepE (fun k => (s k : EReal)) (⊥, 0)
      = (((Finset.univ.sup' Finset.univ_nonempty s : ℝ) : EReal),
         ((∑ k, Real.exp (s k - Finset.univ.sup' Finset.univ_nonempty s) : ℝ) : EReal)) := by
  unfold stepE
  simp only
  rw [fold_max_coe, max_eq_right bot_le, zero_mul, zero_add, sum_exp_coe]

/-- A later block: from a real state `(m, l)` the state becomes the larger maximum and the rescaled sum. -/
theorem stepE_coe (s : Fin 512 → ℝ) (m l : ℝ) :
    stepE (fun k => (s k : EReal)) ((m : EReal), (l : EReal))
      = (((max m (Finset.univ.sup' Finset.univ_nonempty s) : ℝ) : EReal),
         ((l * Real.exp (m - max m (Finset.univ.sup' Finset.univ_nonempty s))
            + ∑ k, Real.exp (s k - max m (Finset.univ.sup' Finset.univ_nonempty s)) : ℝ) : EReal)) := by
  unfold stepE
  simp only
  rw [fold_max_coe, ← coe_max_ereal, ← EReal.coe_sub, Ideal.exp_coe, sum_exp_coe, ← EReal.coe_mul, ← EReal.coe_add]

/-- Shifting a sum of exponentials from `m` to `M`. -/
theorem rescale_sum {ι : Type} (C : Finset ι) (f : ι → ℝ) (m M : ℝ) :
    (∑ j ∈ C, Real.exp (f j - m)) * Real.exp (m - M) = ∑ j ∈ C, Real.exp (f j - M) := by
  rw [Finset.sum_mul]
  refine Finset.sum_congr rfl fun j _ => ?_
  rw [← Real.exp_add]
  congr 1
  ring

/-! ## The columns of a block -/

/-- The 512 columns of block `b`. -/
def blockCols (b : Fin 16) : Finset (Fin 8192) := Finset.univ.image (colOf b)

theorem colOf_injective (b : Fin 16) : Function.Injective (colOf b) := by
  intro k k' h
  have := congrArg Fin.val h
  simp only [colOf] at this
  exact Fin.ext (by omega)

theorem blockCols_nonempty (b : Fin 16) : (blockCols b).Nonempty :=
  Finset.univ_nonempty.image _

theorem sup'_blockCols (x : Fin 8192 → ℝ) (b : Fin 16) :
    (blockCols b).sup' (blockCols_nonempty b) x
      = Finset.univ.sup' Finset.univ_nonempty (fun k => x (colOf b k)) := by
  exact Finset.sup'_image (s := Finset.univ) (f := colOf b) (blockCols_nonempty b) x

theorem sum_blockCols (f : Fin 8192 → ℝ) (b : Fin 16) :
    ∑ j ∈ blockCols b, f j = ∑ k, f (colOf b k) :=
  Finset.sum_image fun _ _ _ _ h => colOf_injective b h

/-- Different blocks share no column. -/
theorem blockCols_disjoint {b b' : Fin 16} (h : b ≠ b') : Disjoint (blockCols b) (blockCols b') := by
  rw [Finset.disjoint_left]
  intro j hj hj'
  obtain ⟨k, -, rfl⟩ := Finset.mem_image.mp hj
  obtain ⟨k', -, hk'⟩ := Finset.mem_image.mp hj'
  have := congrArg Fin.val hk'
  simp only [colOf] at this
  exact h (Fin.ext (by omega))

/-! ## The invariant -/

/-- The state after the columns `C`: `(-∞, 0)` on no column, else the maximum and the shifted sum over `C`. -/
def SweepInv (x : Fin 8192 → ℝ) (C : Finset (Fin 8192)) (ml : EReal × EReal) : Prop :=
  (C = ∅ → ml = (⊥, 0)) ∧
  ∀ hC : C.Nonempty,
    ml = (((C.sup' hC x : ℝ) : EReal), ((∑ j ∈ C, Real.exp (x j - C.sup' hC x) : ℝ) : EReal))

theorem sup'_of_eq {s t : Finset (Fin 8192)} (h : s = t) (hs : s.Nonempty) (ht : t.Nonempty)
    (f : Fin 8192 → ℝ) : s.sup' hs f = t.sup' ht f := by
  subst h
  rfl

/-- One more block, disjoint from the columns already swept, keeps the invariant. -/
theorem SweepInv.step {x : Fin 8192 → ℝ} {C : Finset (Fin 8192)} {ml : EReal × EReal}
    (h : SweepInv x C ml) (b : Fin 16) (hd : Disjoint C (blockCols b)) :
    SweepInv x (C ∪ blockCols b) (stepE (fun k => (x (colOf b k) : EReal)) ml) := by
  have hne : (C ∪ blockCols b).Nonempty := (blockCols_nonempty b).mono Finset.subset_union_right
  refine ⟨fun h0 => absurd h0 hne.ne_empty, fun hU => ?_⟩
  rcases C.eq_empty_or_nonempty with hC | hC
  · have hM : (C ∪ blockCols b).sup' hU x
        = Finset.univ.sup' Finset.univ_nonempty (fun k => x (colOf b k)) := by
      rw [← sup'_blockCols]
      exact sup'_of_eq (by rw [hC, Finset.empty_union]) _ _ _
    rw [h.1 hC, stepE_bot, hM, hC, Finset.empty_union, sum_blockCols]
  · have hM : (C ∪ blockCols b).sup' hU x
        = max (C.sup' hC x) (Finset.univ.sup' Finset.univ_nonempty (fun k => x (colOf b k))) := by
      rw [← sup'_blockCols]
      exact Finset.sup'_union hC (blockCols_nonempty b) x
    rw [h.2 hC, stepE_coe, hM, Finset.sum_union hd, sum_blockCols, rescale_sum]

/-- Any list of distinct blocks, none of them swept yet, keeps the invariant. -/
theorem SweepInv.foldl (x : Fin 8192 → ℝ) :
    ∀ (bs : List (Fin 16)) (C : Finset (Fin 8192)) (ml : EReal × EReal),
      SweepInv x C ml → bs.Nodup → (∀ b ∈ bs, Disjoint C (blockCols b)) →
      SweepInv x (C ∪ bs.toFinset.biUnion blockCols)
        (bs.foldl (fun ml b => stepE (fun k => (x (colOf b k) : EReal)) ml) ml)
  | [], C, ml, h, _, _ => by simpa using h
  | b :: bs, C, ml, h, hnd, hd => by
    have hb := List.nodup_cons.mp hnd
    have hstep := h.step b (hd b (List.mem_cons_self ..))
    have hd' : ∀ b' ∈ bs, Disjoint (C ∪ blockCols b) (blockCols b') := by
      intro b' hb'
      rw [Finset.disjoint_union_left]
      refine ⟨hd b' (List.mem_cons_of_mem _ hb'), blockCols_disjoint ?_⟩
      rintro rfl
      exact hb.1 hb'
    have hrec := SweepInv.foldl x bs (C ∪ blockCols b) _ hstep hb.2 hd'
    have hset : C ∪ (b :: bs).toFinset.biUnion blockCols
        = C ∪ blockCols b ∪ bs.toFinset.biUnion blockCols := by
      rw [List.toFinset_cons, Finset.biUnion_insert, Finset.union_assoc]
    rw [hset, List.foldl_cons]
    exact hrec

/-! ## The whole row -/

theorem blocks_nodup : blocks.Nodup := by decide

theorem mem_blocks (b : Fin 16) : b ∈ blocks := by
  revert b
  decide

/-- The 16 blocks' columns are all 8192 columns. -/
theorem cols_univ : (∅ : Finset (Fin 8192)) ∪ blocks.toFinset.biUnion blockCols = Finset.univ := by
  rw [Finset.empty_union]
  ext j
  simp only [Finset.mem_biUnion, List.mem_toFinset, Finset.mem_univ, iff_true]
  refine ⟨⟨j.val / 512, by omega⟩, mem_blocks _, ?_⟩
  refine Finset.mem_image.mpr ⟨⟨j.val % 512, Nat.mod_lt _ (by norm_num)⟩, Finset.mem_univ _, ?_⟩
  apply Fin.ext
  simp only [colOf]
  omega

/-- The sweep of a real row ends at the row's maximum and its shifted sum of exponentials. -/
theorem sweepE_real (x : Fin 8192 → ℝ) :
    sweepE (fun j => (x j : EReal))
      = (((Finset.univ.sup' Finset.univ_nonempty x : ℝ) : EReal),
         ((∑ j, Real.exp (x j - Finset.univ.sup' Finset.univ_nonempty x) : ℝ) : EReal)) := by
  have h0 : SweepInv x ∅ (⊥, 0) := ⟨fun _ => rfl, fun h => absurd h Finset.not_nonempty_empty⟩
  have h := SweepInv.foldl x blocks ∅ (⊥, 0) h0 blocks_nodup (fun b _ => Finset.disjoint_empty_left _)
  rw [cols_univ] at h
  exact h.2 Finset.univ_nonempty

/-- What the kernel makes of a real row, when the logarithm's argument is positive: the real expression. -/
theorem rowE_real (x : Fin 8192 → ℝ) (s t : ℝ)
    (hpos : 0 < (∑ j : Fin 8192, Real.exp (x j - Finset.univ.sup' Finset.univ_nonempty x))
              - Real.exp (s - Finset.univ.sup' Finset.univ_nonempty x)) :
    rowE (fun j => ((x j : ℝ) : EReal)) (s : EReal) (t : EReal)
      = (((Finset.univ.sup' Finset.univ_nonempty x
            + Real.log ((∑ j : Fin 8192, Real.exp (x j - Finset.univ.sup' Finset.univ_nonempty x))
                - Real.exp (s - Finset.univ.sup' Finset.univ_nonempty x))) - t : ℝ) : EReal) := by
  unfold rowE
  rw [sweepE_real]
  simp only
  rw [← EReal.coe_sub, Ideal.exp_coe, ← EReal.coe_sub, Ideal.log_coe, if_neg (not_le.mpr hpos),
    ← EReal.coe_add, ← EReal.coe_sub]

end Cert.InfoNCE

end
-- ==== Proof.Glue.lean ====
/-
  From the kernel's extended-real quantities to the real-number specification, for a branch whose two matrices hold
  real numbers.

  A tile's block of `Q = [a; b]` and the whole of `K = [b; a]` hold real numbers, so every scaled similarity the
  kernel forms is the coercion of the real `lgt Q K r j` (a finite sum of products of reals, times the real scale).
  For the stacked pair the logarithm's argument is positive (`bracket_pos`: it is the sum over the other columns),
  so a row's sweep is the coercion of the real `kerRow` (`rowE_real`), a tile's sum the coercion of `kerTile`, and
  the host's "add the sixteen tiles to 0 and divide by 8192" the coercion of `kerBranch`.
-/
import proofs.«427174_j46875273069282_1_alg».proof.Proof.Spec
import proofs.«427174_j46875273069282_1_alg».proof.Proof.RealMath
import proofs.«427174_j46875273069282_1_alg».proof.Proof.SweepMath

noncomputable section

open scoped BigOperators

namespace Cert.InfoNCE

open Idealize.ShloMosaic Idealize.ShloMosaic.ValueIdx

/-- A scaled similarity of real rows is the coercion of the real one. -/
theorem lgE_real (x0 : (⟨2, ![512, 64]⟩ : Shape).Idx → EReal) (x1 : (⟨2, ![8192, 64]⟩ : Shape).Idx → EReal)
    (q : Fin 512 → Fin 64 → ℝ) (K : RMat 8192) (h0 : ∀ r d, x0 (ix2 r d) = ((q r d : ℝ) : EReal))
    (h1 : ∀ j d, x1 (ix2 j d) = ((K j d : ℝ) : EReal)) (r : Fin 512) (j : Fin 8192) :
    lgE x0 x1 r j = ((rdot (q r) (K j) * scale : ℝ) : EReal) := by
  unfold lgE rdot
  rw [EReal.coe_mul, coe_sum_ereal]
  congr 1
  refine Finset.sum_congr rfl (fun d _ => ?_)
  rw [h0, h1, EReal.coe_mul]

/-- A row's scaled similarity with itself likewise. -/
theorem selfE_real (x0 : (⟨2, ![512, 64]⟩ : Shape).Idx → EReal) (q : Fin 512 → Fin 64 → ℝ)
    (h0 : ∀ r d, x0 (ix2 r d) = ((q r d : ℝ) : EReal)) (r : Fin 512) :
    selfE x0 r = ((rdot (q r) (q r) * scale : ℝ) : EReal) := by
  unfold selfE rdot
  rw [EReal.coe_mul, coe_sum_ereal]
  congr 1
  refine Finset.sum_congr rfl (fun d _ => ?_)
  rw [h0, EReal.coe_mul]

/-- The partial sum the kernel stores for tile `t` of the stacked pair is the real `kerTile`. -/
theorem tileE_real (x0 : (⟨2, ![512, 64]⟩ : Shape).Idx → EReal) (x1 : (⟨2, ![8192, 64]⟩ : Shape).Idx → EReal)
    (a b : RMat 4096) (t : Fin 16)
    (h0 : ∀ r d, x0 (ix2 r d) = ((stack a b (rowOf t r) d : ℝ) : EReal))
    (h1 : ∀ j d, x1 (ix2 j d) = ((stack b a j d : ℝ) : EReal)) :
    tileE x0 x1 t = ((kerTile (stack a b) (stack b a) t : ℝ) : EReal) := by
  unfold tileE kerTile
  rw [coe_sum_ereal]
  refine Finset.sum_congr rfl (fun r _ => ?_)
  have hl : lgE x0 x1 r = fun j => ((lgt (stack a b) (stack b a) (rowOf t r) j : ℝ) : EReal) :=
    funext fun j => lgE_real x0 x1 (fun r => stack a b (rowOf t r)) (stack b a) h0 h1 r j
  have hs : selfE x0 r = ((rdot (stack a b (rowOf t r)) (stack a b (rowOf t r)) * scale : ℝ) : EReal) :=
    selfE_real x0 (fun r => stack a b (rowOf t r)) h0 r
  have ht : lgE x0 x1 r (rowOf t r) = ((lgt (stack a b) (stack b a) (rowOf t r) (rowOf t r) : ℝ) : EReal) :=
    congrFun hl (rowOf t r)
  rw [ht, hl, hs]
  exact rowE_real _ _ _ (bracket_pos a b (rowOf t r))

/-- Adding the sixteen tiles' partial sums to zero and dividing by the number of rows gives the branch's loss. -/
theorem div_sum_tiles (Q K : RMat 8192) :
    Ideal.div (0 + ∑ t : Fin 16, ((kerTile Q K t : ℝ) : EReal)) ((8192 : ℝ) : EReal)
      = ((kerBranch Q K : ℝ) : EReal) := by
  rw [zero_add, ← coe_sum_ereal, Ideal.div_coe (by norm_num : (8192 : ℝ) ≠ 0), ← EReal.coe_mul]
  unfold kerBranch
  congr 1
  ring

end Cert.InfoNCE

end
-- ==== Proof.Regions.lean ====
/-
  Each pallas_call's arrays, read off its pipeline: which rows of `Q` a grid point's first block holds, that its
  second block is all of `K`, and what the output array holds at entry (t, 0, 0) after the run.

  The grid has 16 points. Point `t` stages rows 512·t … 512·t + 511 of the 8192 × 64 array `Q` (block index (t, 0),
  block 512 × 64), the whole 8192 × 64 array `K` (block index (0, 0)), and writes back block (t, 0, 0) of the
  16 × 1 × 128 output (block 1 × 1 × 128). The output's blocks are disjoint and every point writes its own, so after
  the last point entry (t, 0, 0) holds what point `t` stored there.
-/
import proofs.«427174_j46875273069282_1_alg».proof.Proof.Gen.KernelIdeal.Frame
import proofs.«427174_j46875273069282_1_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## pallas_call 0 -/

/-- The printed index maps of pallas_call 0, decided over its 16 points. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Point `t`'s block of `Q` holds rows 512·t … 512·t + 511. -/
theorem qblk0 (c : Dev nD) (t : Fin cfg0.N) (r : Fin 512) (d : Fin 64) :
    iblk0 V c 0 t (ix2 r d) = V c (Pipeline.arrRef spec0 0) (ix2 (⟨512 * t.val + r.val, by have ht : t.val < 16 := lt_of_lt_of_eq t.isLt N_0; omega⟩ : Fin 8192) d) := by
  unfold iblk0
  rw [View.read_apply]
  obtain ⟨e0, e1, -⟩ := idx0 t
  refine congrArg (V c (Pipeline.arrRef spec0 0)) ?_
  funext a; apply Fin.ext
  match a with
  | ⟨0, _⟩ => show win0_0.index t (0 : Fin 2) * 512 + 1 * r.val = 512 * t.val + r.val; omega
  | ⟨1, _⟩ => show win0_0.index t (1 : Fin 2) * 64 + 1 * d.val = d.val; omega

/-- Point `t`'s block of `K` is all of `K`. -/
theorem kblk0 (c : Dev nD) (t : Fin cfg0.N) (j : Fin 8192) (d : Fin 64) :
    iblk0 V c 1 t (ix2 j d) = V c (Pipeline.arrRef spec0 1) (ix2 j d) := by
  unfold iblk0
  rw [View.read_apply]
  obtain ⟨-, -, e2, e3, -⟩ := idx0 t
  refine congrArg (V c (Pipeline.arrRef spec0 1)) ?_
  funext a; apply Fin.ext
  match a with
  | ⟨0, _⟩ => show win0_1.index t (0 : Fin 2) * 8192 + 1 * j.val = j.val; omega
  | ⟨1, _⟩ => show win0_1.index t (1 : Fin 2) * 64 + 1 * d.val = d.val; omega

/-- An index of the output array is in point `t`'s block iff each coordinate is in the block's range on its axis. -/
theorem mem_oblk0 (t : Fin cfg0.N) (i : S16x1x128.Idx) :
    i ∈ ((cfg0.win 2).blk t).view.set ↔ ∀ a : Fin 3, win0_2.index t a * S1x1x128.size a ≤ (i a).val ∧ (i a).val < win0_2.index t a * S1x1x128.size a + S1x1x128.size a := by
  show i ∈ ((View.whole main_v38).slice (win0_2.rect t)).set ↔ _
  rw [View.set_slice_whole, Rect.mem_set_unit]
  exact Iff.rfl

/-- If every point `t` stores the constant `T t` in its output block, the output array ends with `T t` at entry
    (t, 0, 0). -/
theorem out_entry0 (c : Dev nD) (T : Fin 16 → EReal)
    (hT : ∀ t : Fin cfg0.N, outsAt0 V c t = fun _ => T ⟨t.val, lt_of_lt_of_eq t.isLt N_0⟩) (t : Fin 16) :
    (dat0 V c).arrAt 2 cfg0.N (ix3 t (0 : Fin 1) (0 : Fin 128)) = T t := by
  have hG : ∀ p : Fin cfg0.N, (cfg0.win 2).flush p = true →
      (dat0 V c).flushed 2 p = ((cfg0.win 2).blk p).view.read (Elt Ideal)
        (fun i : S16x1x128.Idx => T ⟨(i 0).val, (i 0).isLt⟩) := by
    intro p _
    show (cfg0.win 2).cut (grid0.coords p) ((dat0 V c).after 2 p) = _
    rw [after0_2, hT p]
    obtain ⟨-, -, -, -, e4, -⟩ := idx0 p
    funext y
    rw [View.read_apply]
    show T ⟨p.val, _⟩ = T ⟨_, _⟩
    refine congrArg T (Fin.ext ?_)
    show p.val = win0_2.index p (0 : Fin 3) * 1 + 1 * (y 0).val
    have hy : (y 0).val < 1 := (y 0).isLt
    omega
  let p : Fin cfg0.N := ⟨t.val, lt_of_lt_of_eq t.isLt N_0.symm⟩
  have hi : ix3 t (0 : Fin 1) (0 : Fin 128) ∈ ((cfg0.win 2).blk p).view.set := by
    rw [mem_oblk0]
    obtain ⟨-, -, -, -, e4, e5, e6⟩ := idx0 p
    intro a
    match a with
    | ⟨0, _⟩ => show win0_2.index p (0 : Fin 3) * 1 ≤ t.val ∧ t.val < win0_2.index p (0 : Fin 3) * 1 + 1; have hp : p.val = t.val := rfl; omega
    | ⟨1, _⟩ => show win0_2.index p (1 : Fin 3) * 1 ≤ 0 ∧ 0 < win0_2.index p (1 : Fin 3) * 1 + 1; omega
    | ⟨2, _⟩ => show win0_2.index p (2 : Fin 3) * 128 ≤ 0 ∧ 0 < win0_2.index p (2 : Fin 3) * 128 + 128; omega
  exact (dat0 V c).arrAt_apply_of_mem 2 _ hG cfg0.N p _ p.isLt (flush0_2 p) hi

end Cert.KernelIdeal.Regions

end
-- ==== Proof.Regions1.lean ====
/-
  Each pallas_call's arrays, read off its pipeline: which rows of `Q` a grid point's first block holds, that its
  second block is all of `K`, and what the output array holds at entry (t, 0, 0) after the run.

  The grid has 16 points. Point `t` stages rows 512·t … 512·t + 511 of the 8192 × 64 array `Q` (block index (t, 0),
  block 512 × 64), the whole 8192 × 64 array `K` (block index (0, 0)), and writes back block (t, 0, 0) of the
  16 × 1 × 128 output (block 1 × 1 × 128). The output's blocks are disjoint and every point writes its own, so after
  the last point entry (t, 0, 0) holds what point `t` stored there.
-/
import proofs.«427174_j46875273069282_1_alg».proof.Proof.Gen.KernelIdeal.Frame
import proofs.«427174_j46875273069282_1_alg».proof.Proof.Spec
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## pallas_call 1 -/

/-- The printed index maps of pallas_call 1, decided over its 16 points. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 3) = t.val ∧ win1_2.index t (1 : Fin 3) = 0 ∧ win1_2.index t (2 : Fin 3) = 0 :=
  (by decide +kernel : ∀ t : Fin grid1.N, _)

/-- Point `t`'s block of `Q` holds rows 512·t … 512·t + 511. -/
theorem qblk1 (c : Dev nD) (t : Fin cfg1.N) (r : Fin 512) (d : Fin 64) :
    iblk1 V c 0 t (ix2 r d) = V c (Pipeline.arrRef spec1 0) (ix2 (⟨512 * t.val + r.val, by have ht : t.val < 16 := lt_of_lt_of_eq t.isLt N_1; omega⟩ : Fin 8192) d) := by
  unfold iblk1
  rw [View.read_apply]
  obtain ⟨e0, e1, -⟩ := idx1 t
  refine congrArg (V c (Pipeline.arrRef spec1 0)) ?_
  funext a; apply Fin.ext
  match a with
  | ⟨0, _⟩ => show win1_0.index t (0 : Fin 2) * 512 + 1 * r.val = 512 * t.val + r.val; omega
  | ⟨1, _⟩ => show win1_0.index t (1 : Fin 2) * 64 + 1 * d.val = d.val; omega

/-- Point `t`'s block of `K` is all of `K`. -/
theorem kblk1 (c : Dev nD) (t : Fin cfg1.N) (j : Fin 8192) (d : Fin 64) :
    iblk1 V c 1 t (ix2 j d) = V c (Pipeline.arrRef spec1 1) (ix2 j d) := by
  unfold iblk1
  rw [View.read_apply]
  obtain ⟨-, -, e2, e3, -⟩ := idx1 t
  refine congrArg (V c (Pipeline.arrRef spec1 1)) ?_
  funext a; apply Fin.ext
  match a with
  | ⟨0, _⟩ => show win1_1.index t (0 : Fin 2) * 8192 + 1 * j.val = j.val; omega
  | ⟨1, _⟩ => show win1_1.index t (1 : Fin 2) * 64 + 1 * d.val = d.val; omega

/-- An index of the output array is in point `t`'s block iff each coordinate is in the block's range on its axis. -/
theorem mem_oblk1 (t : Fin cfg1.N) (i : S16x1x128.Idx) :
    i ∈ ((cfg1.win 2).blk t).view.set ↔ ∀ a : Fin 3, win1_2.index t a * S1x1x128.size a ≤ (i a).val ∧ (i a).val < win1_2.index t a * S1x1x128.size a + S1x1x128.size a := by
  show i ∈ ((View.whole main_v42).slice (win1_2.rect t)).set ↔ _
  rw [View.set_slice_whole, Rect.mem_set_unit]
  exact Iff.rfl

/-- If every point `t` stores the constant `T t` in its output block, the output array ends with `T t` at entry
    (t, 0, 0). -/
theorem out_entry1 (c : Dev nD) (T : Fin 16 → EReal)
    (hT : ∀ t : Fin cfg1.N, outsAt1 V c t = fun _ => T ⟨t.val, lt_of_lt_of_eq t.isLt N_1⟩) (t : Fin 16) :
    (dat1 V c).arrAt 2 cfg1.N (ix3 t (0 : Fin 1) (0 : Fin 128)) = T t := by
  have hG : ∀ p : Fin cfg1.N, (cfg1.win 2).flush p = true →
      (dat1 V c).flushed 2 p = ((cfg1.win 2).blk p).view.read (Elt Ideal)
        (fun i : S16x1x128.Idx => T ⟨(i 0).val, (i 0).isLt⟩) := by
    intro p _
    show (cfg1.win 2).cut (grid1.coords p) ((dat1 V c).after 2 p) = _
    rw [after1_2, hT p]
    obtain ⟨-, -, -, -, e4, -⟩ := idx1 p
    funext y
    rw [View.read_apply]
    show T ⟨p.val, _⟩ = T ⟨_, _⟩
    refine congrArg T (Fin.ext ?_)
    show p.val = win1_2.index p (0 : Fin 3) * 1 + 1 * (y 0).val
    have hy : (y 0).val < 1 := (y 0).isLt
    omega
  let p : Fin cfg1.N := ⟨t.val, lt_of_lt_of_eq t.isLt N_1.symm⟩
  have hi : ix3 t (0 : Fin 1) (0 : Fin 128) ∈ ((cfg1.win 2).blk p).view.set := by
    rw [mem_oblk1]
    obtain ⟨-, -, -, -, e4, e5, e6⟩ := idx1 p
    intro a
    match a with
    | ⟨0, _⟩ => show win1_2.index p (0 : Fin 3) * 1 ≤ t.val ∧ t.val < win1_2.index p (0 : Fin 3) * 1 + 1; have hp : p.val = t.val := rfl; omega
    | ⟨1, _⟩ => show win1_2.index p (1 : Fin 3) * 1 ≤ 0 ∧ 0 < win1_2.index p (1 : Fin 3) * 1 + 1; omega
    | ⟨2, _⟩ => show win1_2.index p (2 : Fin 3) * 128 ≤ 0 ∧ 0 < win1_2.index p (2 : Fin 3) * 128 + 128; omega
  exact (dat1 V c).arrAt_apply_of_mem 2 _ hG cfg1.N p _ p.isLt (flush1_2 p) hi

end Cert.KernelIdeal.Regions

end
-- ==== Proof.TileValue.lean ====
/-
  What one grid point of the kernel stores, at the ideal values.

  A grid point holds a tile `x0` of 512 rows of `Q` and the whole of `K` (`x1`, 8192 rows). The body walks the 16
  blocks of 512 rows of `K`: for each it forms the 512 × 512 scaled inner products of the tile's rows with the
  block's rows, and carries per row a running maximum and a running sum of shifted exponentials. It then reads the
  512 rows of `K` at the tile's own position, forms each row's scaled inner product with itself and with its target
  row, turns the sweep's result into the row's value, and stores the sum of the 512 values at every entry of its
  1 × 1 × 128 block.

  The module states one block of the sweep on whole vectors (`simV`, `maxV`, `sumV`, `stepV`), shows that what the
  body stores is the 16-fold composition of that block followed by the row formula and the total sum (`out0_stored`,
  `out1_stored`: the same function for both calls), reads each of these operations at one row (`stepV_apply` is the
  specification's `stepE` on the row's 512 scaled similarities with the block), and concludes that the stored value
  is the specification's `tileE` (`out0_value`, `out1_value`; at a grid point `outsAt0_value`, `outsAt1_value`).
-/
import proofs.«427174_j46875273069282_1_alg».proof.Proof.Gen.KernelIdeal.Frame
import proofs.«427174_j46875273069282_1_alg».proof.Proof.Spec
import Idealize.ShloMosaic.Lib.Pipeline.Value
import Idealize.ShloMosaic.Lib.ValueLayout
import Idealize.ShloMosaic.PureOps.Ideal.Laws
import Idealize.ShloMosaic.PureOps.IdealRules

set_option maxRecDepth 16384

noncomputable section

namespace Cert.KernelIdeal.Tile

open Idealize.ShloMosaic Idealize.ShloMosaic.ValueIdx Idealize.ShloMosaic.Tactic
open Cert.KernelIdeal

variable {F : FTy → Type} [FloatOps F] [Named F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## One block of the sweep, on whole vectors -/

/-- The block's 512 × 512 scaled similarities: the tile's rows against a block of 512 rows of `K`. -/
def simV (q : FVec F S512x64 .f32) (kb : Vec F S512x64 .f32) : FVec F S512x512 .f32 :=
  mulf (matmul dot_S512x64_S64x512_S512x512_1_0_0_1_n_n (some .fp32) q
      (transpose S64x512 [1, 0] (shapeCast S512x64 kb Gen.shapeCasts_S512x64_S512x64) Gen.transposes_S512x64_p1_0_S64x512)
      (constant S512x512 .f32 0x00000000#32))
    (broadcast S512x512 (Named.named κ "inv_temperature" 0x40A00000#32))

/-- The running maximum after a block with similarities `s`. -/
def maxV (m : FVec F S512x1 .f32) (s : FVec F S512x512 .f32) : FVec F S512x1 .f32 :=
  maximumf m (shapeCast S512x1 (multiReduction .maximumf [1] S512 s 0xFF800000#32 Gen.reduces_S512x512_S512 (.inl rfl) rfl)
    Gen.shapeCasts_S512_S512x1)

/-- The running sum after a block: the old sum rescaled from the old maximum `m` to the new one `m'`, plus the
    block's exponentials shifted by `m'`. -/
def sumV (m l m' : FVec F S512x1 .f32) (s : FVec F S512x512 .f32) : FVec F S512x1 .f32 :=
  addf (mulf l (exp (subf m m')))
    (shapeCast S512x1 (multiReduction .add [1] S512 (exp (subf s (broadcastTo S512x512 m' Gen.broadcasts_S512x1_S512x512)))
      0x00000000#32 Gen.reduces_S512x512_S512 (.inl rfl) rfl) Gen.shapeCasts_S512_S512x1)

/-- One block of the sweep: the new running maximum and sum. -/
def stepV (q : FVec F S512x64 .f32) (kb : Vec F S512x64 .f32) (ml : FVec F S512x1 .f32 × FVec F S512x1 .f32) :
    FVec F S512x1 .f32 × FVec F S512x1 .f32 :=
  (maxV ml.1 (simV q kb), sumV ml.1 ml.2 (maxV ml.1 (simV q kb)) (simV q kb))

/-- The sweep's start: maximum `-∞`, sum `0`. -/
def startV : FVec F S512x1 .f32 × FVec F S512x1 .f32 :=
  (broadcast S512x1 (Scalar.ofBits .f32 0xFF800000#32), broadcast S512x1 (Scalar.ofBits .f32 0x00000000#32))

/-- A row sum of a 512 × 64 vector, as a column. -/
def rowSumV (x : FVec F S512x64 .f32) : FVec F S512x1 .f32 :=
  shapeCast S512x1 (multiReduction .add [1] S512 x 0x00000000#32 Gen.reduces_S512x64_S512 (.inl rfl) rfl) Gen.shapeCasts_S512_S512x1

/-- The rows' values from the sweep's result `(m, l)`, the tile `q` and the rows `kd` of `K` at the tile's own
    position. -/
def rowV (q : FVec F S512x64 .f32) (ml : FVec F S512x1 .f32 × FVec F S512x1 .f32) (kd : Vec F S512x64 .f32) :
    FVec F S512x1 .f32 :=
  subf (addf ml.1 (log (subf ml.2 (exp (subf
      (mulf (rowSumV (mulf q q)) (broadcast S512x1 (Named.named κ "inv_temperature" 0x40A00000#32))) ml.1)))))
    (mulf (rowSumV (mulf q (shapeCast S512x64 kd Gen.shapeCasts_S512x64_S512x64)))
      (broadcast S512x1 (Named.named κ "inv_temperature" 0x40A00000#32)))

/-- The 16 blocks of `K` in the order the kernel visits them, swept from the start. -/
def sweepV (q : FVec F S512x64 .f32) (kb : Fin 16 → Vec F S512x64 .f32) : FVec F S512x1 .f32 × FVec F S512x1 .f32 :=
  stepV q (kb 15) (stepV q (kb 14) (stepV q (kb 13) (stepV q (kb 12) (stepV q (kb 11) (stepV q (kb 10) (stepV q (kb 9)
    (stepV q (kb 8) (stepV q (kb 7) (stepV q (kb 6) (stepV q (kb 5) (stepV q (kb 4) (stepV q (kb 3) (stepV q (kb 2)
      (stepV q (kb 1) (stepV q (kb 0) startV)))))))))))))))

/-- The rectangle of block `b` of `K` lies inside the array. -/
theorem blk_inb (b : Fin 16) : ∀ a, (![512 * b.val, 0] : Fin 2 → Nat) a + S512x64.size a ≤ S8192x64.size a := by
  intro a
  have := b.isLt
  match a with
  | ⟨0, _⟩ => show 512 * b.val + 512 ≤ 8192; omega
  | ⟨1, _⟩ => show 0 + 64 ≤ 64; omega

/-- Block `b` of `K`: its rows `512 b … 512 b + 511`, as the kernel loads them. -/
def kblocks (x1 : Vec F S8192x64 .f32) (b : Fin 16) : Vec F S512x64 .f32 :=
  View.ld x1 (Rect.unit (s := S8192x64) ![512 * b.val, 0] S512x64.size (blk_inb b))

set_option maxHeartbeats 4000000 in
/-- What a grid point stores, as the rows' values summed: the tile's block `x0` swept against the 16 blocks of `x1`,
    then read against the rows of `x1` at the tile's own offset. -/
theorem out0_stored (c : Dev nD) (i : grid0.Coords) (arg1 : Memref sig .tc .vmem S512x64 .f32) (harg1 : arg1.IsWhole) (arg2 : Memref sig .tc .vmem S8192x64 .f32) (harg2 : arg2.IsWhole) (arg3 : Memref sig .tc .vmem S1x1x128 .f32) (harg3 : arg3.IsWhole) (x0 : Vec F S512x64 .f32) (x1 : Vec F S8192x64 .f32) :
    Gen.out0_A_2 (F := F) c i arg1 harg1 arg2 harg2 arg3 harg3 x0 x1
      = Gen.k0_pay1 (rowV (Gen.k0_pay2 x0)
          (sweepV (Gen.k0_pay2 x0) (kblocks x1))
          (View.ld x1 (Rect.unit (s := S8192x64) (k0_off1 i) S512x64.size (Gen.k0_off1_inb i)))) := by
  unfold Gen.out0_A_2
  rw [View.read_writes_eq_canon _ _ _ (Gen.cover0_A_2 c i arg1 harg1 arg2 harg2 arg3 harg3 x0 x1)]
  unfold Gen.kernelRun0_A
  dsimp only
  sl_unfold_words
  rw [View.canon_unit_zero (S := S1x1x128) hz3]
  simp only [View.readAt_eq_ld, harg1.read_unread, harg2.read_unread, View.ld_unit_zero (S := S512x64) hz2]
  rfl

/-! ## The block's operations read at a row, at the ideal values -/

section Rows

open Cert.InfoNCE

/-- The named scale factor is the specification's `scale`. -/
theorem named_scale :
    Named.named (F := Ideal) κ "inv_temperature" (φ := .f32) 0x40A00000#32 = ((scale : ℝ) : EReal) :=
  (IdealRules.named_const.ideal_named_scalar _ _ _ _ rfl :
    Named.named (F := Ideal) κ "inv_temperature" (φ := .f32) 0x40A00000#32 = ((67108864 / 13421773 : ℝ) : EReal))

/-- The word of `-∞` is `⊥`. -/
theorem ofBits_ninf : Ideal.ofBits .f32 0xFF800000#32 = (⊥ : EReal) := by simp [Ideal.ofBits, Ideal.ieee]

/-- Row `k` of the rectangle of 512 rows of `x1` at row offset `n = 512 b` is row `colOf b k` of `x1`. -/
theorem ld_block (x1 : Vec Ideal S8192x64 .f32) (n : Nat) (inb : ∀ a, (![n, 0] : Fin 2 → Nat) a + S512x64.size a ≤ S8192x64.size a)
    (b : Fin 16) (hn : n = 512 * b.val) (k : Fin 512) (d : Fin 64) :
    View.ld x1 (Rect.unit (s := S8192x64) ![n, 0] S512x64.size inb) (ix2 k d) = x1 (ix2 (colOf b k) d) := by
  show x1 _ = x1 _
  refine congrArg x1 (funext fun a => Fin.ext ?_)
  match a with
  | ⟨0, _⟩ => show n + 1 * k.val = 512 * b.val + k.val; omega
  | ⟨1, _⟩ => show 0 + 1 * d.val = d.val; omega

theorem lhs_sim_0 (i : S512x512.Idx) (q : dot_S512x64_S64x512_S512x512_1_0_0_1_n_n.contr.Idx) :
    (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem lhs_sim_1 (i : S512x512.Idx) (q : dot_S512x64_S64x512_S512x512_1_0_0_1_n_n.contr.Idx) :
    (dot_S512x64_S64x512_S512x512_1_0_0_1_n_n.lhsIdx i q 1).val = (q ⟨0, by decide⟩).val :=
  dot_S512x64_S64x512_S512x512_1_0_0_1_n_n.lhsIdx_val_of_single rfl i q
theorem rhs_sim_0 (i : S512x512.Idx) (q : dot_S512x64_S64x512_S512x512_1_0_0_1_n_n.contr.Idx) :
    (dot_S512x64_S64x512_S512x512_1_0_0_1_n_n.rhsIdx i q 0).val = (q ⟨0, by decide⟩).val :=
  dot_S512x64_S64x512_S512x512_1_0_0_1_n_n.rhsIdx_val_of_single rfl i q
theorem rhs_sim_1 (i : S512x512.Idx) (q : dot_S512x64_S64x512_S512x512_1_0_0_1_n_n.contr.Idx) :
    (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- The product of the tile with a transposed block, into a zero accumulator, at `(r, k)`: the inner product of
    row `r` with column `k`. -/
theorem matmul_sim_apply (q : FVec Ideal S512x64 .f32) (w : FVec Ideal S64x512 .f32) (r k : Fin 512) :
    matmul dot_S512x64_S64x512_S512x512_1_0_0_1_n_n (some .fp32) q w (constant (F := Ideal) S512x512 .f32 0x00000000#32) (ix2 r k)
      = ∑ d : Fin 64, q (ix2 r d) * w (ix2 d k) := by
  simp only [matmul]
  rw [Ideal.matmul_constant_zero_apply, ← Equiv.sum_comp (contrEquiv1 dot_S512x64_S64x512_S512x512_1_0_0_1_n_n 64 rfl rfl).symm]
  refine Finset.sum_congr rfl fun d _ => ?_
  have hk := contrEquiv1_symm_val dot_S512x64_S64x512_S512x512_1_0_0_1_n_n 64 rfl rfl d
  have el : dot_S512x64_S64x512_S512x512_1_0_0_1_n_n.lhsIdx (ix2 r k) ((contrEquiv1 dot_S512x64_S64x512_S512x512_1_0_0_1_n_n 64 rfl rfl).symm d) = ix2 r d := funext fun a => Fin.ext (by
    match a with
    | ⟨0, _⟩ => exact lhs_sim_0 _ _
    | ⟨1, _⟩ => exact (lhs_sim_1 _ _).trans hk)
  have er : dot_S512x64_S64x512_S512x512_1_0_0_1_n_n.rhsIdx (ix2 r k) ((contrEquiv1 dot_S512x64_S64x512_S512x512_1_0_0_1_n_n 64 rfl rfl).symm d) = ix2 d k := funext fun a => Fin.ext (by
    match a with
    | ⟨0, _⟩ => exact (rhs_sim_0 _ _).trans hk
    | ⟨1, _⟩ => exact rhs_sim_1 _ _)
  rw [el, er]

/-- The block's scaled similarity of row `r` of the tile with row `k` of the block. -/
theorem simV_apply (q : FVec Ideal S512x64 .f32) (kb : Vec Ideal S512x64 .f32) (r k : Fin 512) :
    simV (F := Ideal) q kb (ix2 r k) = (∑ d : Fin 64, q (ix2 r d) * kb (ix2 k d)) * ((scale : ℝ) : EReal) := by
  unfold simV
  rw [mulf_apply, broadcast_apply, named_scale, matmul_sim_apply]
  refine congrArg (· * ((scale : ℝ) : EReal)) (Finset.sum_congr rfl fun d _ => ?_)
  rw [transpose_ix2_apply, shapeCast_self]

/-- A vector of 512 entries cast to a column reads, at row `r`, its entry `r`. -/
theorem col_apply (v : FVec Ideal S512 .f32) (r : Fin 512) :
    shapeCast S512x1 v Gen.shapeCasts_S512_S512x1 (ix2 r 0) = v (ix1 r) :=
  shapeCast_apply v Gen.shapeCasts_S512_S512x1 (ix2 r 0) (ix1 r) (by
    rw [Shape.rowMajor_val_one, Shape.rowMajor_val_two]
    show r.val = r.val * 1 + 0
    omega)

/-- The running maximum after a block, at row `r`. -/
theorem maxV_apply (m : FVec Ideal S512x1 .f32) (s : FVec Ideal S512x512 .f32) (r : Fin 512) :
    maxV (F := Ideal) m s (ix2 r 0)
      = max (m (ix2 r 0)) (Finset.univ.fold max (⊥ : EReal) (fun k : Fin 512 => s (ix2 r k))) := by
  unfold maxV
  rw [maximumf_apply]
  refine congrArg (max (m (ix2 r 0))) ?_
  refine (col_apply _ r).trans ?_
  refine (Ideal.multiReduction_maximumf_single s 0xFF800000#32 Gen.reduces_S512x512_S512 (.inl rfl) rfl (ix1 r)).trans ?_
  rw [Ideal.ofBits_def, ofBits_ninf]
  refine congrArg (Finset.univ.fold max (⊥ : EReal)) (funext fun k => congrArg s (funext fun a => ?_))
  match a with
  | ⟨0, _⟩ => rfl
  | ⟨1, _⟩ => rfl

/-- The running sum after a block, at row `r`. -/
theorem sumV_apply (m l m' : FVec Ideal S512x1 .f32) (s : FVec Ideal S512x512 .f32) (r : Fin 512) :
    sumV (F := Ideal) m l m' s (ix2 r 0)
      = l (ix2 r 0) * Ideal.exp (m (ix2 r 0) - m' (ix2 r 0)) + ∑ k : Fin 512, Ideal.exp (s (ix2 r k) - m' (ix2 r 0)) := by
  unfold sumV
  rw [addf_apply, mulf_apply]
  refine congrArg₂ (· + ·) rfl ?_
  refine (col_apply _ r).trans ?_
  refine (Ideal.multiReduction_add_single _ 0x00000000#32 Gen.reduces_S512x512_S512 (.inl rfl) rfl (ix1 r)).trans ?_
  refine Finset.sum_congr rfl fun k _ => ?_
  have e : Gen.reduces_S512x512_S512.lift (ix1 r) k = ix2 r k := funext fun a => by
    match a with
    | ⟨0, _⟩ => rfl
    | ⟨1, _⟩ => rfl
  rw [e]
  show Ideal.exp (s (ix2 r k) - broadcastTo S512x512 m' Gen.broadcasts_S512x1_S512x512 (ix2 r k)) = _
  rw [broadcastTo_apply m' Gen.broadcasts_S512x1_S512x512 (ix2 r k) (ix2 r 0) (fun a => by
    match a with
    | ⟨0, _⟩ => rfl
    | ⟨1, _⟩ => rfl)]

/-- One block of the sweep at row `r` is the specification's step on the row's 512 scaled similarities with the block. -/
theorem stepV_apply (q : FVec Ideal S512x64 .f32) (kb : Vec Ideal S512x64 .f32)
    (ml : FVec Ideal S512x1 .f32 × FVec Ideal S512x1 .f32) (r : Fin 512) :
    ((stepV (F := Ideal) q kb ml).1 (ix2 r 0), (stepV (F := Ideal) q kb ml).2 (ix2 r 0))
      = stepE (fun k => (∑ d : Fin 64, q (ix2 r d) * kb (ix2 k d)) * ((scale : ℝ) : EReal)) (ml.1 (ix2 r 0), ml.2 (ix2 r 0)) := by
  unfold stepV stepE
  dsimp only
  rw [sumV_apply, maxV_apply]
  simp only [simV_apply]

end Rows

section Tile

open Cert.InfoNCE

/-- The sweep starts at `(-∞, 0)` in every row. -/
theorem start_apply (r : Fin 512) :
    ((startV (F := Ideal)).1 (ix2 r 0), (startV (F := Ideal)).2 (ix2 r 0)) = ((⊥ : EReal), (0 : EReal)) := by
  show (Ideal.ofBits .f32 0xFF800000#32, Ideal.ofBits .f32 0x00000000#32) = ((⊥ : EReal), (0 : EReal))
  rw [ofBits_ninf, Ideal.ofBits_zero_f32]

/-- The 16 blocks swept at row `r`: the specification's sweep of the row's 8192 scaled similarities, when block `b`
    holds the rows `512 b …` of `x1`. -/
theorem sweepV_apply (q : FVec Ideal S512x64 .f32) (x1 : Vec Ideal S8192x64 .f32) (kb : Fin 16 → Vec Ideal S512x64 .f32)
    (hkb : ∀ (b : Fin 16) (k : Fin 512) (d : Fin 64), kb b (ix2 k d) = x1 (ix2 (colOf b k) d)) (r : Fin 512) :
    ((sweepV (F := Ideal) q kb).1 (ix2 r 0), (sweepV (F := Ideal) q kb).2 (ix2 r 0)) = sweepE (lgE q x1 r) := by
  unfold sweepV sweepE lgE
  simp only [blocks, List.foldl, stepV_apply, hkb, start_apply]

/-- A row sum of a 512 × 64 vector at row `r`. -/
theorem rowSumV_apply (x : FVec Ideal S512x64 .f32) (r : Fin 512) :
    rowSumV (F := Ideal) x (ix2 r 0) = ∑ d : Fin 64, x (ix2 r d) := by
  unfold rowSumV
  refine (col_apply _ r).trans ?_
  refine (Ideal.multiReduction_add_single x 0x00000000#32 Gen.reduces_S512x64_S512 (.inl rfl) rfl (ix1 r)).trans ?_
  refine Finset.sum_congr rfl fun d _ => congrArg x (funext fun a => ?_)
  match a with
  | ⟨0, _⟩ => rfl
  | ⟨1, _⟩ => rfl

/-- The rows' values at row `r`. -/
theorem rowV_apply (q : FVec Ideal S512x64 .f32) (ml : FVec Ideal S512x1 .f32 × FVec Ideal S512x1 .f32)
    (kd : Vec Ideal S512x64 .f32) (r : Fin 512) :
    rowV (F := Ideal) q ml kd (ix2 r 0)
      = (ml.1 (ix2 r 0) + Ideal.log (ml.2 (ix2 r 0)
            - Ideal.exp ((∑ d : Fin 64, q (ix2 r d) * q (ix2 r d)) * ((scale : ℝ) : EReal) - ml.1 (ix2 r 0))))
        - (∑ d : Fin 64, q (ix2 r d) * kd (ix2 r d)) * ((scale : ℝ) : EReal) := by
  unfold rowV
  rw [subf_apply, addf_apply, mulf_apply, rowSumV_apply, broadcast_apply, named_scale]
  show (ml.1 (ix2 r 0) + Ideal.log (ml.2 (ix2 r 0) - Ideal.exp (rowSumV (F := Ideal) (mulf q q) (ix2 r 0)
      * broadcast S512x1 (Named.named (F := Ideal) κ "inv_temperature" (φ := .f32) 0x40A00000#32) (ix2 r 0) - ml.1 (ix2 r 0)))) - _ = _
  rw [rowSumV_apply, broadcast_apply, named_scale]
  simp only [mulf_apply, shapeCast_self]

/-- The index set of a 1 × 512 × 1 array is its middle coordinate's range. -/
def midEquiv : Fin 512 ≃ S1x512x1.Idx where
  toFun r := ix3 (0 : Fin 1) r (0 : Fin 1)
  invFun j := ⟨(j 1).val, (j 1).isLt⟩
  left_inv _ := rfl
  right_inv j := funext fun a => Fin.ext (by
    match a with
    | ⟨0, _⟩ => have h : (j 0).val < 1 := (j 0).isLt; show 0 = (j 0).val; omega
    | ⟨1, _⟩ => rfl
    | ⟨2, _⟩ => have h : (j 2).val < 1 := (j 2).isLt; show 0 = (j 2).val; omega)

/-- What is stored from the column of the rows' values: their total, at every entry of the 1 × 1 × 128 block. -/
theorem k0_pay1_apply (v : FVec Ideal S512x1 .f32) (y : S1x1x128.Idx) :
    Gen.k0_pay1 (F := Ideal) v y = ∑ r : Fin 512, v (ix2 r 0) := by
  unfold Gen.k0_pay1
  show shapeCast S1x1x1 (multiReduction .add [1, 2] S1 (shapeCast S1x512x1 v Gen.shapeCasts_S512x1_S1x512x1) 0x00000000#32
      Gen.reduces_S1x512x1_S1 (.inl rfl) rfl) Gen.shapeCasts_S1_S1x1x1 (fun a => ⟨(![0, 0, 0] : Fin 3 → Nat) a, Gen.inpos_S1x1x1_p0_0_0 a⟩) = _
  refine (shapeCast_apply _ Gen.shapeCasts_S1_S1x1x1 _ (ix1 (0 : Fin 1)) (by
    rw [Shape.rowMajor_val_one, Shape.rowMajor_val_three]; rfl)).trans ?_
  refine (Ideal.multiReduction_add_total _ 0x00000000#32 Gen.reduces_S1x512x1_S1 (fun b => by
    match b with
    | ⟨0, _⟩ => rfl) (.inl rfl) rfl (ix1 (0 : Fin 1))).trans ?_
  rw [← Equiv.sum_comp midEquiv]
  refine Finset.sum_congr rfl fun r _ => ?_
  exact shapeCast_apply v Gen.shapeCasts_S512x1_S1x512x1 (ix3 (0 : Fin 1) r (0 : Fin 1)) (ix2 r 0) (by
    rw [Shape.rowMajor_val_two, Shape.rowMajor_val_three]
    show r.val * 1 + 0 = (0 * 512 + r.val) * 1 + 0
    omega)

/-- The tile a grid point works on. -/
abbrev tileOf (i : grid0.Coords) : Fin 16 := ⟨(i 0).val, (i 0).isLt⟩

/-- The rows of `x1` loaded at the tile's own offset: row `r` is row `rowOf t r` of `x1`. -/
theorem ld_diag (x1 : Vec Ideal S8192x64 .f32) (i : grid0.Coords) (r : Fin 512) (d : Fin 64) :
    View.ld x1 (Rect.unit (s := S8192x64) (k0_off1 i) S512x64.size (Gen.k0_off1_inb i)) (ix2 r d)
      = x1 (ix2 (rowOf (tileOf i) r) d) := by
  show x1 _ = x1 _
  refine congrArg x1 (funext fun a => Fin.ext ?_)
  have e := Gen.k0_off1_eq i
  match a with
  | ⟨0, _⟩ =>
    show k0_off1 i 0 + 1 * r.val = 512 * (i 0).val + r.val
    rw [e]; show 512 * (i 0).val + 1 * r.val = _; omega
  | ⟨1, _⟩ =>
    show k0_off1 i 1 + 1 * d.val = d.val
    rw [e]; show 0 + 1 * d.val = _; omega

/-- **What one grid point of the first call stores**: the specification's partial sum of its tile, at every entry of the
    block. -/
theorem out0_value (c : Dev nD) (i : grid0.Coords) (arg1 : Memref sig .tc .vmem S512x64 .f32) (harg1 : arg1.IsWhole) (arg2 : Memref sig .tc .vmem S8192x64 .f32) (harg2 : arg2.IsWhole) (arg3 : Memref sig .tc .vmem S1x1x128 .f32) (harg3 : arg3.IsWhole) (x0 : Vec Ideal S512x64 .f32) (x1 : Vec Ideal S8192x64 .f32) :
    Gen.out0_A_2 (F := Ideal) c i arg1 harg1 arg2 harg2 arg3 harg3 x0 x1 = fun _ => tileE x0 x1 (tileOf i) := by
  rw [out0_stored]
  funext y
  rw [k0_pay1_apply]
  unfold tileE rowE
  refine Finset.sum_congr rfl fun r _ => ?_
  rw [rowV_apply]
  have hs := sweepV_apply (Gen.k0_pay2 (F := Ideal) x0) x1 (kblocks x1)
    (fun b k d => ld_block x1 (512 * b.val) (blk_inb b) b rfl k d) r
  have h1 := congrArg Prod.fst hs
  have h2 := congrArg Prod.snd hs
  dsimp only at h1 h2
  rw [h1, h2]
  have hq : Gen.k0_pay2 (F := Ideal) x0 = x0 := shapeCast_self x0 Gen.shapeCasts_S512x64_S512x64
  rw [hq]
  refine congrArg₂ (· - ·) rfl ?_
  unfold lgE
  refine congrArg (· * ((scale : ℝ) : EReal)) (Finset.sum_congr rfl fun d _ => ?_)
  rw [ld_diag]

end Tile

section Points0

open Idealize.ShloMosaic.TcCoe
open Cert.InfoNCE

variable (V : (c : Dev nD) → (b : Ref sig .tc) → Buf (Elt Ideal) ((c : Thread nD τ).loc b))

/-- The tile's block of `Q` at grid point `t` of the first call, as an array of 512 × 64 extended reals. -/
abbrev qblk0 (c : Dev nD) (t : Fin cfg0.N) : Vec Ideal S512x64 .f32 := Gen.iblk0 V c 0 t
/-- The whole of `K`, as the first call's second window holds it at grid point `t`. -/
abbrev kblk0 (c : Dev nD) (t : Fin cfg0.N) : Vec Ideal S8192x64 .f32 := Gen.iblk0 V c 1 t

/-- The grid has one axis: a point's coordinate is its number. -/
theorem coords0_val : ∀ t : Fin grid0.N, (grid0.coords t 0).val = t.val := by decide +kernel

/-- **What grid point `t` of the first call stores**: the partial sum of tile `t`. -/
theorem outsAt0_value (c : Dev nD) (t : Fin cfg0.N) :
    Gen.outsAt0 (F := Ideal) V c t
      = fun _ => tileE (qblk0 V c t) (kblk0 V c t) ⟨t.val, by have h : t.val < grid0.N := t.isLt; have := Gen.N_0; omega⟩ := by
  unfold Gen.outsAt0
  refine (out0_value c (grid0.coords t) (Gen.ms0_0 t) (Gen.hs0_0 t) (Gen.ms0_1 t) (Gen.hs0_1 t) (Gen.ms0_2 t) (Gen.hs0_2 t)
    (qblk0 V c t) (kblk0 V c t)).trans ?_
  funext _
  exact congrArg (tileE (qblk0 V c t) (kblk0 V c t)) (Fin.ext (coords0_val t))

end Points0

/-! ## The second call: the same kernel on the other pair of matrices -/

set_option maxHeartbeats 4000000 in
/-- What a grid point of the second call stores, as the rows' values summed. -/
theorem out1_stored (c : Dev nD) (i : grid1.Coords) (arg1 : Memref sig .tc .vmem S512x64 .f32) (harg1 : arg1.IsWhole) (arg2 : Memref sig .tc .vmem S8192x64 .f32) (harg2 : arg2.IsWhole) (arg3 : Memref sig .tc .vmem S1x1x128 .f32) (harg3 : arg3.IsWhole) (x0 : Vec F S512x64 .f32) (x1 : Vec F S8192x64 .f32) :
    Gen.out1_A_2 (F := F) c i arg1 harg1 arg2 harg2 arg3 harg3 x0 x1
      = Gen.k1_pay1 (rowV (Gen.k1_pay2 x0)
          (sweepV (Gen.k1_pay2 x0) (kblocks x1))
          (View.ld x1 (Rect.unit (s := S8192x64) (k1_off1 i) S512x64.size (Gen.k1_off1_inb i)))) := by
  unfold Gen.out1_A_2
  rw [View.read_writes_eq_canon _ _ _ (Gen.cover1_A_2 c i arg1 harg1 arg2 harg2 arg3 harg3 x0 x1)]
  unfold Gen.kernelRun1_A
  dsimp only
  sl_unfold_words
  rw [View.canon_unit_zero (S := S1x1x128) hz3]
  simp only [View.readAt_eq_ld, harg1.read_unread, harg2.read_unread, View.ld_unit_zero (S := S512x64) hz2]
  rfl

section Tile1

open Cert.InfoNCE

/-- The second call's store, from the column of the rows' values: their total. -/
theorem k1_pay1_apply (v : FVec Ideal S512x1 .f32) (y : S1x1x128.Idx) :
    Gen.k1_pay1 (F := Ideal) v y = ∑ r : Fin 512, v (ix2 r 0) := k0_pay1_apply v y

/-- The tile a grid point of the second call works on. -/
abbrev tileOf1 (i : grid1.Coords) : Fin 16 := ⟨(i 0).val, (i 0).isLt⟩

/-- The rows of `x1` the second call loads at the tile's own offset. -/
theorem ld_diag1 (x1 : Vec Ideal S8192x64 .f32) (i : grid1.Coords) (r : Fin 512) (d : Fin 64) :
    View.ld x1 (Rect.unit (s := S8192x64) (k1_off1 i) S512x64.size (Gen.k1_off1_inb i)) (ix2 r d)
      = x1 (ix2 (rowOf (tileOf1 i) r) d) := by
  show x1 _ = x1 _
  refine congrArg x1 (funext fun a => Fin.ext ?_)
  have e := Gen.k1_off1_eq i
  match a with
  | ⟨0, _⟩ =>
    show k1_off1 i 0 + 1 * r.val = 512 * (i 0).val + r.val
    rw [e]; show 512 * (i 0).val + 1 * r.val = _; omega
  | ⟨1, _⟩ =>
    show k1_off1 i 1 + 1 * d.val = d.val
    rw [e]; show 0 + 1 * d.val = _; omega

/-- **What one grid point of the second call stores**: the specification's partial sum of its tile. -/
theorem out1_value (c : Dev nD) (i : grid1.Coords) (arg1 : Memref sig .tc .vmem S512x64 .f32) (harg1 : arg1.IsWhole) (arg2 : Memref sig .tc .vmem S8192x64 .f32) (harg2 : arg2.IsWhole) (arg3 : Memref sig .tc .vmem S1x1x128 .f32) (harg3 : arg3.IsWhole) (x0 : Vec Ideal S512x64 .f32) (x1 : Vec Ideal S8192x64 .f32) :
    Gen.out1_A_2 (F := Ideal) c i arg1 harg1 arg2 harg2 arg3 harg3 x0 x1 = fun _ => tileE x0 x1 (tileOf1 i) := by
  rw [out1_stored]
  funext y
  rw [k1_pay1_apply]
  unfold tileE rowE
  refine Finset.sum_congr rfl fun r _ => ?_
  rw [rowV_apply]
  have hs := sweepV_apply (Gen.k1_pay2 (F := Ideal) x0) x1 (kblocks x1)
    (fun b k d => ld_block x1 (512 * b.val) (blk_inb b) b rfl k d) r
  have h1 := congrArg Prod.fst hs
  have h2 := congrArg Prod.snd hs
  dsimp only at h1 h2
  rw [h1, h2]
  have hq : Gen.k1_pay2 (F := Ideal) x0 = x0 := shapeCast_self x0 Gen.shapeCasts_S512x64_S512x64
  rw [hq]
  refine congrArg₂ (· - ·) rfl ?_
  unfold lgE
  refine congrArg (· * ((scale : ℝ) : EReal)) (Finset.sum_congr rfl fun d _ => ?_)
  rw [ld_diag1]

end Tile1

section Points1

open Idealize.ShloMosaic.TcCoe
open Cert.InfoNCE

variable (V : (c : Dev nD) → (b : Ref sig .tc) → Buf (Elt Ideal) ((c : Thread nD τ).loc b))

/-- The tile's block of `Q` at grid point `t` of the second call. -/
abbrev qblk1 (c : Dev nD) (t : Fin cfg1.N) : Vec Ideal S512x64 .f32 := Gen.iblk1 V c 0 t
/-- The whole of `K`, as the second call's second window holds it at grid point `t`. -/
abbrev kblk1 (c : Dev nD) (t : Fin cfg1.N) : Vec Ideal S8192x64 .f32 := Gen.iblk1 V c 1 t

theorem coords1_val : ∀ t : Fin grid1.N, (grid1.coords t 0).val = t.val := by decide +kernel

/-- **What grid point `t` of the second call stores**: the partial sum of tile `t`. -/
theorem outsAt1_value (c : Dev nD) (t : Fin cfg1.N) :
    Gen.outsAt1 (F := Ideal) V c t
      = fun _ => tileE (qblk1 V c t) (kblk1 V c t) ⟨t.val, by have h : t.val < grid1.N := t.isLt; have := Gen.N_1; omega⟩ := by
  unfold Gen.outsAt1
  refine (out1_value c (grid1.coords t) (Gen.ms1_0 t) (Gen.hs1_0 t) (Gen.ms1_1 t) (Gen.hs1_1 t) (Gen.ms1_2 t) (Gen.hs1_2 t)
    (qblk1 V c t) (kblk1 V c t)).trans ?_
  funext _
  exact congrArg (tileE (qblk1 V c t) (kblk1 V c t)) (Fin.ext (coords1_val t))

end Points1

end Cert.KernelIdeal.Tile

end
-- ==== Proof.KernelBranch.lean ====
/-
  One pallas_call's contribution to the kernel's result, for real matrices.

  Suppose the region is entered with its first array `Q = [A; B]` and its second `K = [B; A]`, where `A` and `B` hold
  real numbers. Point `t` stages rows 512·t … 512·t + 511 of `Q` and all of `K` and stores the tile's partial sum, which
  for this stacked pair is the real `kerTile`; after the run the output's entry (t, 0, 0) holds it; adding the sixteen
  entries to 0 and dividing by 8192 gives `kerBranch`.
-/
import proofs.«427174_j46875273069282_1_alg».proof.Proof.Gen.KernelIdeal.Frame
import proofs.«427174_j46875273069282_1_alg».proof.Proof.Spec
import proofs.«427174_j46875273069282_1_alg».proof.Proof.Glue
import proofs.«427174_j46875273069282_1_alg».proof.Proof.Regions
import proofs.«427174_j46875273069282_1_alg».proof.Proof.Regions1
import proofs.«427174_j46875273069282_1_alg».proof.Proof.TileValue

set_option maxRecDepth 16384

noncomputable section

namespace Cert.KernelIdeal.Branch

open Cert.KernelIdeal Cert.KernelIdeal.Gen
open Idealize.ShloMosaic Idealize.ShloMosaic.TcCoe Idealize.ShloMosaic.ValueIdx
open Idealize.SL Idealize.SL.Sem
open Cert.InfoNCE

variable (V : (c : Dev nD) → (b : Ref sig .tc) → Buf (Elt Ideal) ((c : Thread nD τ).loc b))

/-- pallas_call 0's output array after the run, as an array of extended reals. -/
abbrev out0 (c : Dev nD) : (⟨3, ![16, 1, 128]⟩ : Shape).Idx → EReal := (dat0 V c).arrAt 2 cfg0.N

/-- pallas_call 0: the sixteen output entries, added to zero and divided by 8192, are the branch's loss. -/
theorem branch0 (c : Dev nD) (A B : (⟨2, ![4096, 64]⟩ : Shape).Idx → EReal) (hA : IsReal A) (hB : IsReal B)
    (hQ : V c (Pipeline.arrRef spec0 0) = stackE A B) (hK : V c (Pipeline.arrRef spec0 1) = stackE B A) :
    Ideal.div (0 + ∑ t : Fin 16, out0 V c (ix3 t (0 : Fin 1) (0 : Fin 128))) ((8192 : ℝ) : EReal)
      = ((kerBranch (stack (toR A) (toR B)) (stack (toR B) (toR A)) : ℝ) : EReal) := by
  have hent : ∀ t : Fin 16, out0 V c (ix3 t (0 : Fin 1) (0 : Fin 128))
      = ((kerTile (stack (toR A) (toR B)) (stack (toR B) (toR A)) t : ℝ) : EReal) := by
    intro t
    let p : Fin cfg0.N := ⟨t.val, lt_of_lt_of_eq t.isLt N_0.symm⟩
    show (dat0 V c).arrAt 2 cfg0.N (ix3 t (0 : Fin 1) (0 : Fin 128)) = _
    rw [Regions.out_entry0 V c (fun s => tileE (Tile.qblk0 V c ⟨s.val, lt_of_lt_of_eq s.isLt N_0.symm⟩)
        (Tile.kblk0 V c ⟨s.val, lt_of_lt_of_eq s.isLt N_0.symm⟩) s) (fun q => Tile.outsAt0_value V c q) t]
    refine tileE_real _ _ (toR A) (toR B) t (fun r d => ?_) (fun j d => ?_)
    · refine (Regions.qblk0 V c p r d).trans ?_
      rw [hQ, ← coe_toR (isReal_stackE hA hB), toR_stackE]; rfl
    · refine (Regions.kblk0 V c p j d).trans ?_
      rw [hK, ← coe_toR (isReal_stackE hB hA), toR_stackE]
  simp only [hent]
  exact div_sum_tiles _ _

end Cert.KernelIdeal.Branch

end
-- ==== Proof.KernelBranch1.lean ====
/-
  One pallas_call's contribution to the kernel's result, for real matrices.

  Suppose the region is entered with its first array `Q = [A; B]` and its second `K = [B; A]`, where `A` and `B` hold
  real numbers. Point `t` stages rows 512·t … 512·t + 511 of `Q` and all of `K` and stores the tile's partial sum, which
  for this stacked pair is the real `kerTile`; after the run the output's entry (t, 0, 0) holds it; adding the sixteen
  entries to 0 and dividing by 8192 gives `kerBranch`.
-/
import proofs.«427174_j46875273069282_1_alg».proof.Proof.Gen.KernelIdeal.Frame
import proofs.«427174_j46875273069282_1_alg».proof.Proof.Spec
import proofs.«427174_j46875273069282_1_alg».proof.Proof.Glue
import proofs.«427174_j46875273069282_1_alg».proof.Proof.Regions
import proofs.«427174_j46875273069282_1_alg».proof.Proof.Regions1
import proofs.«427174_j46875273069282_1_alg».proof.Proof.TileValue

set_option maxRecDepth 16384

noncomputable section

namespace Cert.KernelIdeal.Branch

open Cert.KernelIdeal Cert.KernelIdeal.Gen
open Idealize.ShloMosaic Idealize.ShloMosaic.TcCoe Idealize.ShloMosaic.ValueIdx
open Idealize.SL Idealize.SL.Sem
open Cert.InfoNCE

variable (V : (c : Dev nD) → (b : Ref sig .tc) → Buf (Elt Ideal) ((c : Thread nD τ).loc b))

/-- pallas_call 1's output array after the run, as an array of extended reals. -/
abbrev out1 (c : Dev nD) : (⟨3, ![16, 1, 128]⟩ : Shape).Idx → EReal := (dat1 V c).arrAt 2 cfg1.N

/-- pallas_call 1: the sixteen output entries, added to zero and divided by 8192, are the branch's loss. -/
theorem branch1 (c : Dev nD) (A B : (⟨2, ![4096, 64]⟩ : Shape).Idx → EReal) (hA : IsReal A) (hB : IsReal B)
    (hQ : V c (Pipeline.arrRef spec1 0) = stackE A B) (hK : V c (Pipeline.arrRef spec1 1) = stackE B A) :
    Ideal.div (0 + ∑ t : Fin 16, out1 V c (ix3 t (0 : Fin 1) (0 : Fin 128))) ((8192 : ℝ) : EReal)
      = ((kerBranch (stack (toR A) (toR B)) (stack (toR B) (toR A)) : ℝ) : EReal) := by
  have hent : ∀ t : Fin 16, out1 V c (ix3 t (0 : Fin 1) (0 : Fin 128))
      = ((kerTile (stack (toR A) (toR B)) (stack (toR B) (toR A)) t : ℝ) : EReal) := by
    intro t
    let p : Fin cfg1.N := ⟨t.val, lt_of_lt_of_eq t.isLt N_1.symm⟩
    show (dat1 V c).arrAt 2 cfg1.N (ix3 t (0 : Fin 1) (0 : Fin 128)) = _
    rw [Regions.out_entry1 V c (fun s => tileE (Tile.qblk1 V c ⟨s.val, lt_of_lt_of_eq s.isLt N_1.symm⟩)
        (Tile.kblk1 V c ⟨s.val, lt_of_lt_of_eq s.isLt N_1.symm⟩) s) (fun q => Tile.outsAt1_value V c q) t]
    refine tileE_real _ _ (toR A) (toR B) t (fun r d => ?_) (fun j d => ?_)
    · refine (Regions.qblk1 V c p r d).trans ?_
      rw [hQ, ← coe_toR (isReal_stackE hA hB), toR_stackE]; rfl
    · refine (Regions.kblk1 V c p j d).trans ?_
      rw [hK, ← coe_toR (isReal_stackE hB hA), toR_stackE]
  simp only [hent]
  exact div_sum_tiles _ _

end Cert.KernelIdeal.Branch

end
-- ==== Proof.KernelHost.lean ====
/-
  What the idealized kernel program's host operations compute around its two pipelined calls.

  Before the first call the program gathers the two user tables at the (wrapped) index vector, divides each gathered
  matrix by the square roots of its rows' sums of squares, gathers the two item tables likewise (without the
  division), and stacks the four matrices in pairs: the first call reads `[u1n; u2n]` and `[u2n; u1n]`, the second
  `[i1; i2]` and `[i2; i1]`. After each call it adds the sixteen tiles' partial sums (the first entry of each tile's
  row of 128) from zero, divides by 8192, and adds the two quotients.
-/
import proofs.«427174_j46875273069282_1_alg».proof.Proof.Gen.KernelIdeal.Frame
import proofs.«427174_j46875273069282_1_alg».proof.Proof.RefStages
import proofs.«427174_j46875273069282_1_alg».proof.Proof.Spec
import Idealize.ShloMosaic.Lib.Pipeline.Value
import Idealize.ShloMosaic.Lib.StableHlo.Run
import Idealize.ShloMosaic.Lib.ValueIdx
import Idealize.ShloMosaic.PureOps.Ideal.Laws
import Idealize.ShloMosaic.Lib.IdealHost

set_option maxRecDepth 16384

noncomputable section

namespace Cert.KernelIdeal.Host

open Idealize.ShloMosaic Idealize.ShloMosaic.TcCoe Idealize.ShloMosaic.Tactic Idealize.ShloMosaic.ValueIdx
open Idealize.ShloMosaic.StableHlo
open Idealize.SL.Sem
open Cert.KernelIdeal Cert.KernelIdeal.Gen
open scoped BigOperators

/-- Two matrices of 4096 rows joined along the rows, read at an index: the upper rows are the first matrix's, the
    lower rows the second's, 4096 rows up. -/
theorem concat_eq_stackE (A B : S4096x64.Idx → EReal) :
    (concatenate S8192x64 0 [⟨S4096x64, A⟩, ⟨S4096x64, B⟩] concatenates_S4096x64_S4096x64_S8192x64_d0
      : S8192x64.Idx → EReal) = Cert.InfoNCE.stackE A B := by
  funext j
  unfold Cert.InfoNCE.stackE
  by_cases h : (j 0).val < 4096
  · rw [dif_pos h]
    refine concatenate_pair_apply_left 0 A B _ j rfl _ (fun b => ?_)
    match b with
    | ⟨0, _⟩ => rfl
    | ⟨1, _⟩ => rfl
  · rw [dif_neg h]
    refine concatenate_pair_apply_right 0 A B _ j rfl rfl _ (fun b hb => ?_) ?_
    · match b with
      | ⟨0, _⟩ => exact absurd rfl hb
      | ⟨1, _⟩ => rfl
    · show (j 0).val - 4096 + 4096 = (j 0).val
      omega

/-! ## The host operations' terms -/

section Terms

variable {F : FTy → Type} [FloatOps F]

/-- An index vector with its negative entries moved up by the tables' height (100000), as a column. -/
def wrapIdx (x : (⟨S4096, .i32⟩ : BufTy).Contents (Elt F)) : (⟨S4096x1, .i32⟩ : BufTy).Contents (Elt F) :=
  broadcastInDim S4096x1 ![0] bcast_S4096_S4096x1_0
    (select (cmpi .slt x (broadcastInDim S4096 ![] bcast_S_S4096 (constantI S_ 32 0#32)))
      (addi x (broadcastInDim S4096 ![] bcast_S_S4096 (constantI S_ 32 100000#32))) x)

/-- The rows of a table at the wrapped indices. -/
def gath (tbl : (⟨S100000x64, .f32⟩ : BufTy).Contents (Elt F)) (x : (⟨S4096, .i32⟩ : BufTy).Contents (Elt F)) :
    (⟨S4096x64, .f32⟩ : BufTy).Contents (Elt F) :=
  Host.gather gather_S100000x64_S4096x1_S4096x64_1_0_n_n_0_1_164 tbl (wrapIdx (F := F) x)

/-- The square roots of a matrix's rows' sums of squares, as a column. -/
def rowNorm (g : (⟨S4096x64, .f32⟩ : BufTy).Contents (Elt F)) : (⟨S4096x1, .f32⟩ : BufTy).Contents (Elt F) :=
  Host.sqrt (broadcastInDim S4096x1 ![0] bcast_S4096_S4096x1_0
    (Host.reduceAdd (mulf g g) (constant S_ .f32 0x00000000#32) reducesTo_S4096x64_S4096_d1 h_S_))

/-- A matrix divided, row by row, by a column. -/
def divCol (g : (⟨S4096x64, .f32⟩ : BufTy).Contents (Elt F)) (n : (⟨S4096x1, .f32⟩ : BufTy).Contents (Elt F)) :
    (⟨S4096x64, .f32⟩ : BufTy).Contents (Elt F) :=
  Host.divf g (broadcastInDim S4096x64 ![0, 1] bcast_S4096x1_S4096x64_0_1 n)

/-- Two matrices of 4096 rows, one above the other. -/
def cat (a b : (⟨S4096x64, .f32⟩ : BufTy).Contents (Elt F)) : (⟨S8192x64, .f32⟩ : BufTy).Contents (Elt F) :=
  concatenate S8192x64 0 [⟨S4096x64, a⟩, ⟨S4096x64, b⟩] concatenates_S4096x64_S4096x64_S8192x64_d0

/-- The sixteen tiles' partial sums (the first entry of each tile's row of 128), added from zero. -/
def tileTotal (X : (⟨S16x1x128, .f32⟩ : BufTy).Contents (Elt F)) : (⟨S_, .f32⟩ : BufTy).Contents (Elt F) :=
  Host.reduceAdd (shapeCast S16 (extractStridedSlice S16x1x1 ![0, 0, 0] X slices_S16x1x128_S16x1x1_0_0_0) shapeCasts_S16x1x1_S16)
    (constant S_ .f32 0x00000000#32) reducesTo_S16_S_d0 h_S_

/-! ## The same terms as the reference program's stages

  The reference gathers and normalises with the same operations in the same order, so its stages are these terms. -/

theorem gath_eq_v6 (x0 : (⟨S4096, .i32⟩ : BufTy).Contents (Elt F)) (x2 : (⟨S100000x64, .f32⟩ : BufTy).Contents (Elt F)) :
    gath (F := F) x2 x0 = Cert.ReferenceIdeal.ReadP.val_main_v6 (F := F) x0 x2 := rfl

theorem gath_eq_v13 (x0 : (⟨S4096, .i32⟩ : BufTy).Contents (Elt F)) (x4 : (⟨S100000x64, .f32⟩ : BufTy).Contents (Elt F)) :
    gath (F := F) x4 x0 = Cert.ReferenceIdeal.ReadP.val_main_v13 (F := F) x0 x4 := rfl

theorem nrm_eq_v16 (x0 : (⟨S4096, .i32⟩ : BufTy).Contents (Elt F)) (x2 : (⟨S100000x64, .f32⟩ : BufTy).Contents (Elt F)) :
    divCol (F := F) (gath (F := F) x2 x0) (rowNorm (F := F) (gath (F := F) x2 x0))
      = Cert.ReferenceIdeal.ReadP.val_main_v16 (F := F) x0 x2 := rfl

theorem nrm_eq_v19 (x0 : (⟨S4096, .i32⟩ : BufTy).Contents (Elt F)) (x4 : (⟨S100000x64, .f32⟩ : BufTy).Contents (Elt F)) :
    divCol (F := F) (gath (F := F) x4 x0) (rowNorm (F := F) (gath (F := F) x4 x0))
      = Cert.ReferenceIdeal.ReadP.val_main_v19 (F := F) x0 x4 := rfl

theorem gath_eq_v52 (x1 : (⟨S4096, .i32⟩ : BufTy).Contents (Elt F)) (x3 : (⟨S100000x64, .f32⟩ : BufTy).Contents (Elt F)) :
    gath (F := F) x3 x1 = Cert.ReferenceIdeal.ReadP.val_main_v52 (F := F) x1 x3 := rfl

theorem gath_eq_v59 (x1 : (⟨S4096, .i32⟩ : BufTy).Contents (Elt F)) (x5 : (⟨S100000x64, .f32⟩ : BufTy).Contents (Elt F)) :
    gath (F := F) x5 x1 = Cert.ReferenceIdeal.ReadP.val_main_v59 (F := F) x1 x5 := rfl

/-! ## Each stretch of host operations over any buffer contents -/

variable [Named F] (V : Valuation τ sig (Elt F))

theorem s0_v6 : StableHlo.after (hostOps0 (F := F)) V (Proc.devRef .tc main_v6)
    = gath (F := F) (V (Proc.devRef .tc main_arg2)) (V (Proc.devRef .tc main_arg0)) := by
  after_results
  rfl

theorem s0_v13 : StableHlo.after (hostOps0 (F := F)) V (Proc.devRef .tc main_v13)
    = gath (F := F) (V (Proc.devRef .tc main_arg4)) (V (Proc.devRef .tc main_arg0)) := by
  after_results
  rfl

set_option maxHeartbeats 2000000 in
theorem s4_v34 : StableHlo.after (hostOps0_4 (F := F)) V (Proc.devRef .tc main_v34)
    = cat (F := F) (V (Proc.devRef .tc main_v16)) (divCol (F := F) (V (Proc.devRef .tc main_v13)) (V (Proc.devRef .tc main_v17))) := by
  after_results
  rfl

set_option maxHeartbeats 2000000 in
theorem s4_v35 : StableHlo.after (hostOps0_4 (F := F)) V (Proc.devRef .tc main_v35)
    = cat (F := F) (divCol (F := F) (V (Proc.devRef .tc main_v13)) (V (Proc.devRef .tc main_v17))) (V (Proc.devRef .tc main_v16)) := by
  after_results
  rfl

set_option maxHeartbeats 2000000 in
theorem s4_v36 : StableHlo.after (hostOps0_4 (F := F)) V (Proc.devRef .tc main_v36)
    = cat (F := F) (gath (F := F) (V (Proc.devRef .tc main_arg3)) (V (Proc.devRef .tc main_arg1)))
        (gath (F := F) (V (Proc.devRef .tc main_arg5)) (V (Proc.devRef .tc main_arg1))) := by
  after_results
  rfl

set_option maxHeartbeats 2000000 in
theorem s4_v37 : StableHlo.after (hostOps0_4 (F := F)) V (Proc.devRef .tc main_v37)
    = cat (F := F) (gath (F := F) (V (Proc.devRef .tc main_arg5)) (V (Proc.devRef .tc main_arg1)))
        (gath (F := F) (V (Proc.devRef .tc main_arg3)) (V (Proc.devRef .tc main_arg1))) := by
  after_results
  rfl

theorem s5_v36 : StableHlo.after (hostOps1 (F := F)) V (Proc.devRef .tc main_v36) = V (Proc.devRef .tc main_v36) := by
  after_results

theorem s5_v37 : StableHlo.after (hostOps1 (F := F)) V (Proc.devRef .tc main_v37) = V (Proc.devRef .tc main_v37) := by
  after_results

theorem s5_v41 : StableHlo.after (hostOps1 (F := F)) V (Proc.devRef .tc main_v41)
    = tileTotal (F := F) (V (Proc.devRef .tc main_v38)) := by
  after_results
  rfl

theorem s6_v48 : StableHlo.after (hostOps2 (F := F)) V (Proc.devRef .tc main_v48)
    = addf (Host.divf (V (Proc.devRef .tc main_v41)) (constant S_ .f32 0x46000000#32))
        (Host.divf (tileTotal (F := F) (V (Proc.devRef .tc main_v42))) (constant S_ .f32 0x46000000#32)) := by
  after_results
  rfl

end Terms

/-! ## The contents at the first call's entry -/

variable (m : (ℓ : Loc nD τ sig) → Buf (Elt Ideal) ℓ) (ρ : Dev nD → PrngReg)

theorem W4_v16 (c : Dev nD) : Gen.W4 m ρ c (Proc.devRef .tc main_v16)
    = divCol (F := Ideal) (gath (F := Ideal) (m ((c : Thread nD τ).loc main_arg2)) (m ((c : Thread nD τ).loc main_arg0)))
        (rowNorm (F := Ideal) (gath (F := Ideal) (m ((c : Thread nD τ).loc main_arg2)) (m ((c : Thread nD τ).loc main_arg0)))) := by
  dsimp only [Gen.W4, Gen.W3, Gen.W2, Gen.W1]
  simp only [Gen.hostOps0, Gen.hostOps0_1, Gen.hostOps0_2, Gen.hostOps0_3]
  after_results_simp
  rfl

theorem W4_v13 (c : Dev nD) : Gen.W4 m ρ c (Proc.devRef .tc main_v13)
    = gath (F := Ideal) (m ((c : Thread nD τ).loc main_arg4)) (m ((c : Thread nD τ).loc main_arg0)) := by
  dsimp only [Gen.W4, Gen.W3, Gen.W2, Gen.W1]
  simp only [Gen.hostOps0, Gen.hostOps0_1, Gen.hostOps0_2, Gen.hostOps0_3]
  after_results_simp
  rfl

theorem W4_v17 (c : Dev nD) : Gen.W4 m ρ c (Proc.devRef .tc main_v17)
    = rowNorm (F := Ideal) (gath (F := Ideal) (m ((c : Thread nD τ).loc main_arg4)) (m ((c : Thread nD τ).loc main_arg0))) := by
  dsimp only [Gen.W4, Gen.W3, Gen.W2, Gen.W1]
  simp only [Gen.hostOps0, Gen.hostOps0_1, Gen.hostOps0_2, Gen.hostOps0_3]
  after_results_simp
  rfl

theorem W4_arg1 (c : Dev nD) : Gen.W4 m ρ c (Proc.devRef .tc main_arg1) = m ((c : Thread nD τ).loc main_arg1) := by
  dsimp only [Gen.W4, Gen.W3, Gen.W2, Gen.W1]
  simp only [Gen.hostOps0, Gen.hostOps0_1, Gen.hostOps0_2, Gen.hostOps0_3]
  after_results_simp

theorem W4_arg3 (c : Dev nD) : Gen.W4 m ρ c (Proc.devRef .tc main_arg3) = m ((c : Thread nD τ).loc main_arg3) := by
  dsimp only [Gen.W4, Gen.W3, Gen.W2, Gen.W1]
  simp only [Gen.hostOps0, Gen.hostOps0_1, Gen.hostOps0_2, Gen.hostOps0_3]
  after_results_simp

theorem W4_arg5 (c : Dev nD) : Gen.W4 m ρ c (Proc.devRef .tc main_arg5) = m ((c : Thread nD τ).loc main_arg5) := by
  dsimp only [Gen.W4, Gen.W3, Gen.W2, Gen.W1]
  simp only [Gen.hostOps0, Gen.hostOps0_1, Gen.hostOps0_2, Gen.hostOps0_3]
  after_results_simp

/-- The first user table's rows at the wrapped indices, each divided by its norm. -/
abbrev u1n (c : Dev nD) : S4096x64.Idx → EReal :=
  divCol (F := Ideal) (gath (F := Ideal) (m ((c : Thread nD τ).loc main_arg2)) (m ((c : Thread nD τ).loc main_arg0)))
    (rowNorm (F := Ideal) (gath (F := Ideal) (m ((c : Thread nD τ).loc main_arg2)) (m ((c : Thread nD τ).loc main_arg0))))
/-- The second user table's, likewise. -/
abbrev u2n (c : Dev nD) : S4096x64.Idx → EReal :=
  divCol (F := Ideal) (gath (F := Ideal) (m ((c : Thread nD τ).loc main_arg4)) (m ((c : Thread nD τ).loc main_arg0)))
    (rowNorm (F := Ideal) (gath (F := Ideal) (m ((c : Thread nD τ).loc main_arg4)) (m ((c : Thread nD τ).loc main_arg0))))
/-- The first item table's rows at the second index vector, wrapped. -/
abbrev i1 (c : Dev nD) : S4096x64.Idx → EReal :=
  gath (F := Ideal) (m ((c : Thread nD τ).loc main_arg3)) (m ((c : Thread nD τ).loc main_arg1))
/-- The second item table's, likewise. -/
abbrev i2 (c : Dev nD) : S4096x64.Idx → EReal :=
  gath (F := Ideal) (m ((c : Thread nD τ).loc main_arg5)) (m ((c : Thread nD τ).loc main_arg1))

theorem W5_v34 (c : Dev nD) : Gen.W5 m ρ c (Proc.devRef .tc main_v34) = Cert.InfoNCE.stackE (u1n m c) (u2n m c) := by
  show StableHlo.after hostOps0_4 (Gen.W4 m ρ c) (Proc.devRef .tc main_v34) = _
  rw [s4_v34, W4_v16, W4_v13, W4_v17]
  exact concat_eq_stackE _ _

theorem W5_v35 (c : Dev nD) : Gen.W5 m ρ c (Proc.devRef .tc main_v35) = Cert.InfoNCE.stackE (u2n m c) (u1n m c) := by
  show StableHlo.after hostOps0_4 (Gen.W4 m ρ c) (Proc.devRef .tc main_v35) = _
  rw [s4_v35, W4_v16, W4_v13, W4_v17]
  exact concat_eq_stackE _ _

theorem W5_v36 (c : Dev nD) : Gen.W5 m ρ c (Proc.devRef .tc main_v36) = Cert.InfoNCE.stackE (i1 m c) (i2 m c) := by
  show StableHlo.after hostOps0_4 (Gen.W4 m ρ c) (Proc.devRef .tc main_v36) = _
  rw [s4_v36, W4_arg1, W4_arg3, W4_arg5]
  exact concat_eq_stackE _ _

theorem W5_v37 (c : Dev nD) : Gen.W5 m ρ c (Proc.devRef .tc main_v37) = Cert.InfoNCE.stackE (i2 m c) (i1 m c) := by
  show StableHlo.after hostOps0_4 (Gen.W4 m ρ c) (Proc.devRef .tc main_v37) = _
  rw [s4_v37, W4_arg1, W4_arg3, W4_arg5]
  exact concat_eq_stackE _ _

/-! ## The contents at the two calls' entries -/

/-- The first call's first operand holds the reference's two normalised user matrices, the first above the second. -/
theorem entry0_Q (c : Dev nD) : Gen.V5 m ρ c (Pipeline.arrRef spec0 0)
    = Cert.InfoNCE.stackE
        (Cert.ReferenceIdeal.ReadP.val_main_v16 (F := Ideal) (m ((c : Thread nD τ).loc main_arg0)) (m ((c : Thread nD τ).loc main_arg2)))
        (Cert.ReferenceIdeal.ReadP.val_main_v19 (F := Ideal) (m ((c : Thread nD τ).loc main_arg0)) (m ((c : Thread nD τ).loc main_arg4))) :=
  (W5_v34 m ρ c).trans (congrArg₂ Cert.InfoNCE.stackE (nrm_eq_v16 _ _) (nrm_eq_v19 _ _))

/-- Its second operand holds them the other way round. -/
theorem entry0_K (c : Dev nD) : Gen.V5 m ρ c (Pipeline.arrRef spec0 1)
    = Cert.InfoNCE.stackE
        (Cert.ReferenceIdeal.ReadP.val_main_v19 (F := Ideal) (m ((c : Thread nD τ).loc main_arg0)) (m ((c : Thread nD τ).loc main_arg4)))
        (Cert.ReferenceIdeal.ReadP.val_main_v16 (F := Ideal) (m ((c : Thread nD τ).loc main_arg0)) (m ((c : Thread nD τ).loc main_arg2))) :=
  (W5_v35 m ρ c).trans (congrArg₂ Cert.InfoNCE.stackE (nrm_eq_v19 _ _) (nrm_eq_v16 _ _))

/-- The second call's first operand holds the reference's two gathered item matrices, the first above the second: no
    host operation between the calls and no array of the first call touches it. -/
theorem entry1_Q (c : Dev nD) : Gen.V7 m ρ c (Pipeline.arrRef spec1 0)
    = Cert.InfoNCE.stackE
        (Cert.ReferenceIdeal.ReadP.val_main_v52 (F := Ideal) (m ((c : Thread nD τ).loc main_arg1)) (m ((c : Thread nD τ).loc main_arg3)))
        (Cert.ReferenceIdeal.ReadP.val_main_v59 (F := Ideal) (m ((c : Thread nD τ).loc main_arg1)) (m ((c : Thread nD τ).loc main_arg5))) := by
  show StableHlo.after hostOps1 (Gen.W6 m ρ c) (Proc.devRef .tc main_v36) = _
  rw [s5_v36, Gen.W6_of_ne m ρ c main_v36 (by decide)]
  exact (W5_v36 m ρ c).trans (congrArg₂ Cert.InfoNCE.stackE (gath_eq_v52 _ _) (gath_eq_v59 _ _))

/-- Its second operand holds them the other way round. -/
theorem entry1_K (c : Dev nD) : Gen.V7 m ρ c (Pipeline.arrRef spec1 1)
    = Cert.InfoNCE.stackE
        (Cert.ReferenceIdeal.ReadP.val_main_v59 (F := Ideal) (m ((c : Thread nD τ).loc main_arg1)) (m ((c : Thread nD τ).loc main_arg5)))
        (Cert.ReferenceIdeal.ReadP.val_main_v52 (F := Ideal) (m ((c : Thread nD τ).loc main_arg1)) (m ((c : Thread nD τ).loc main_arg3))) := by
  show StableHlo.after hostOps1 (Gen.W6 m ρ c) (Proc.devRef .tc main_v37) = _
  rw [s5_v37, Gen.W6_of_ne m ρ c main_v37 (by decide)]
  exact (W5_v37 m ρ c).trans (congrArg₂ Cert.InfoNCE.stackE (gath_eq_v59 _ _) (gath_eq_v52 _ _))

/-! ## The result -/

/-- What the first call leaves in its output array. -/
abbrev out0 (c : Dev nD) : S16x1x128.Idx → EReal := (Gen.dat0 (Gen.V5 m ρ) c).arrAt 2 cfg0.N
/-- What the second call leaves in its output array. -/
abbrev out1 (c : Dev nD) : S16x1x128.Idx → EReal := (Gen.dat1 (Gen.V7 m ρ) c).arrAt 2 cfg1.N

/-- A sum over a vector's indices is the sum over its one coordinate. -/
theorem sum_idx1 {M : Type*} [AddCommMonoid M] {n : Nat} (f : (⟨1, ![n]⟩ : Shape).Idx → M) :
    ∑ i, f i = ∑ t : Fin n, f (ix1 t) :=
  Fintype.sum_equiv ⟨fun i => i 0, fun t => ix1 t, fun i => (eq_ix1 i).symm, fun t => rfl⟩ f (fun t => f (ix1 t))
    (fun i => congrArg f (eq_ix1 i))

/-- The single-precision word 0x46000000 is 8192. -/
theorem ofBits_8192 : Ideal.ofBits .f32 0x46000000#32 = ((8192 : ℝ) : EReal) := by
  simp [Ideal.ofBits, Ideal.ieee, -EReal.coe_mul]; norm_num

/-- The tiles' total, read: zero plus the sum of the sixteen tiles' first entries. -/
theorem tileTotal_apply (X : S16x1x128.Idx → EReal) (j : S_.Idx) :
    tileTotal (F := Ideal) X j = 0 + ∑ t : Fin 16, X (ix3 t 0 0) := by
  unfold tileTotal
  rw [hostReduceAdd_apply, Ideal.hostReduceAdd_total _ (fun b => b.elim0), constant_apply, Ideal.ofBits_zero_f32,
    sum_idx1]
  congr 1
  refine Finset.sum_congr rfl (fun t _ => ?_)
  rw [shapeCast_apply _ _ (ix1 t) (ix3 t 0 0) (by rw [Shape.rowMajor_val_three, Shape.rowMajor_val_one]; simp)]
  refine extractStridedSlice_apply _ _ _ _ (ix3 t 0 0) (fun a => ?_)
  match a with
  | ⟨0, _⟩ => simp
  | ⟨1, _⟩ => simp
  | ⟨2, _⟩ => simp

/-- The program's result: each call's sixteen partial sums added from zero and divided by 8192, the two quotients
    added. -/
theorem result (c : Dev nD) : Gen.W9 m ρ c (Proc.devRef .tc main_v48) = (fun _ =>
      Ideal.div (0 + ∑ t : Fin 16, out0 m ρ c (ix3 t 0 0)) ((8192 : ℝ) : EReal)
        + Ideal.div (0 + ∑ t : Fin 16, out1 m ρ c (ix3 t 0 0)) ((8192 : ℝ) : EReal) : S_.Idx → EReal) := by
  show StableHlo.after hostOps2 (Gen.W8 m ρ c) (Proc.devRef .tc main_v48) = _
  rw [s6_v48, Gen.W8_of_ne m ρ c main_v41 (by decide)]
  have e1 : Gen.W8 m ρ c (Proc.devRef .tc main_v42) = out1 m ρ c := Gen.W8_arr m ρ c 2
  have e0 : Gen.W7 m ρ c (Proc.devRef .tc main_v41) = tileTotal (F := Ideal) (out0 m ρ c) := by
    show StableHlo.after hostOps1 (Gen.W6 m ρ c) (Proc.devRef .tc main_v41) = _
    rw [s5_v41]
    exact congrArg (tileTotal (F := Ideal)) (Gen.W6_arr m ρ c 2)
  rw [e1, e0]
  funext j
  rw [addf_apply, hostDivf_apply, hostDivf_apply, constant_apply, ofBits_8192, tileTotal_apply, tileTotal_apply]

end Cert.KernelIdeal.Host

end
-- ==== Proof.RefBranch.lean ====
/-
  The reference program's loss of one branch, read index by index at the ideal instance.

  A branch is a function of two arrays `A B` of 4096 rows of 64 extended reals: the three products `A·Aᵀ`, `B·Bᵀ`,
  `A·Bᵀ`, the diagonal of the first two masked to `-∞`, the four blocks laid out as an 8192 × 8192 array, divided by
  the temperature, the log-softmax of every row, each row read at its own column, the mean negated. Written over
  `Q = [A; B]` and `K = [B; A]`, entry `(r, j)` of the 8192 × 8192 array is `⟨Q r, K j⟩` except in row `r`'s partner
  column, which holds `-∞`: its exponential is `0`, so the row's maximum and sum of exponentials run over every
  other column, which is the specification's `refRow`; the mean of the rows negated is `refBranch`.

  The composition is stated once, over variables `A B` (`branch`), and proved equal to `refBranch` for real inputs
  (`branch_value`); the user branch and the item branch of the printed program are both that composition.
-/
import proofs.«427174_j46875273069282_1_alg».proof.Proof.RefStages
import proofs.«427174_j46875273069282_1_alg».proof.Proof.Spec
import Idealize.ShloMosaic.Lib.Pipeline.Value
import Idealize.ShloMosaic.Lib.ValueIdx
import Idealize.ShloMosaic.Lib.StableHlo.Predicate
import Idealize.ShloMosaic.PureOps.Ideal.Laws

noncomputable section

open scoped BigOperators

namespace Cert.ReferenceIdeal.Branch

open Cert.ReferenceIdeal Cert.ReferenceIdeal.Gen Idealize.ShloMosaic Idealize.ShloMosaic.TcCoe Idealize.SL.Sem Idealize.ShloMosaic.StableHlo
open Idealize.ShloMosaic.ValueIdx Idealize.ShloMosaic.StableHlo.Predicate Cert.InfoNCE

/-! ## The similarities of two arrays of 4096 rows -/

/-- All inner products of the rows of `A` with the rows of `B`. -/
def sim (A B : FVec Ideal S4096x64 .f32) : FVec Ideal S4096x4096 .f32 :=
  Host.dotGeneral dot_S4096x64_S64x4096_S4096x4096_1_0_0_1_n_n none A
    (transpose S64x4096 [1, 0] B transposes_S4096x64_S64x4096_1_0)

theorem sim_apply (A B : FVec Ideal S4096x64 .f32) (r c : Fin 4096) :
    sim A B (ix2 r c) = ∑ k : Fin 64, A (ix2 r k) * B (ix2 c k) := by
  unfold sim
  simp only [Host.dotGeneral]
  rw [Ideal.dotGeneral_apply,
    ← Equiv.sum_comp (ValueIdx.contrEquiv1 dot_S4096x64_S64x4096_S4096x4096_1_0_0_1_n_n 64 rfl rfl).symm]
  refine Finset.sum_congr rfl fun k _ => ?_
  have hk := ValueIdx.contrEquiv1_symm_val dot_S4096x64_S64x4096_S4096x4096_1_0_0_1_n_n 64 rfl rfl k
  generalize (ValueIdx.contrEquiv1 dot_S4096x64_S64x4096_S4096x4096_1_0_0_1_n_n 64 rfl rfl).symm k = q at hk
  have el : dot_S4096x64_S64x4096_S4096x4096_1_0_0_1_n_n.lhsIdx (ix2 r c) q = ix2 r k :=
    funext fun a => Fin.ext (by
      match a with
      | ⟨0, _⟩ =>
        show (dot_S4096x64_S64x4096_S4096x4096_1_0_0_1_n_n.lhsIdx (ix2 r c) q 0).val = r.val
        unfold DotDims.lhsIdx
        rw [dif_neg (show ¬(0 : Fin S4096x64.rank) ∈ dot_S4096x64_S64x4096_S4096x4096_1_0_0_1_n_n.lhsBatch by decide),
          dif_pos (show (0 : Fin S4096x64.rank) ∈ dot_S4096x64_S64x4096_S4096x4096_1_0_0_1_n_n.lhsNonContracting by decide)]
        rfl
      | ⟨1, _⟩ =>
        exact (dot_S4096x64_S64x4096_S4096x4096_1_0_0_1_n_n.lhsIdx_val_of_single rfl (ix2 r c) q).trans hk)
  rw [el]
  refine congrArg (A (ix2 r k) * ·) ?_
  refine transpose_apply [1, 0] B transposes_S4096x64_S64x4096_1_0 _ (ix2 c k) (fun b => ?_)
  match b with
  | ⟨0, _⟩ =>
    exact ((dot_S4096x64_S64x4096_S4096x4096_1_0_0_1_n_n.rhsIdx_val_of_single rfl (ix2 r c) q).trans hk).symm
  | ⟨1, _⟩ =>
    show c.val = (dot_S4096x64_S64x4096_S4096x4096_1_0_0_1_n_n.rhsIdx (ix2 r c) q 1).val
    unfold DotDims.rhsIdx
    rw [dif_neg (show ¬(1 : Fin S64x4096.rank) ∈ dot_S4096x64_S64x4096_S4096x4096_1_0_0_1_n_n.rhsBatch by decide),
      dif_pos (show (1 : Fin S64x4096.rank) ∈ dot_S4096x64_S64x4096_S4096x4096_1_0_0_1_n_n.rhsNonContracting by decide)]
    rfl

/-! ## The diagonal mask -/

/-- The bit array that is set exactly on the diagonal. -/
def eye : IVec S4096x4096 1 :=
  cmpi .eq (addi (iotaInDim S4096x4096 32 0) (broadcastInDim S4096x4096 ![] bcast_S_S4096x4096 (constantI S_ 32 0#32)))
    (iotaInDim S4096x4096 32 1)

theorem eye_apply (r c : Fin 4096) : eye (ix2 r c) = 1#1 ↔ r.val = c.val := by
  have hb : (broadcastInDim S4096x4096 ![] bcast_S_S4096x4096 (constantI S_ 32 0#32)) (ix2 r c) = 0#32 :=
    broadcastInDim_apply _ bcast_S_S4096x4096 _ (ix2 r c) (fun a => a.elim0) (fun a => a.elim0)
  show IntOp.cmpi .eq (IntOp.addi (BitVec.ofNat 32 r.val)
      ((broadcastInDim S4096x4096 ![] bcast_S_S4096x4096 (constantI S_ 32 0#32)) (ix2 r c))) (BitVec.ofNat 32 c.val) = 1#1 ↔ _
  rw [hb, cmpi_eq_iff]
  have hr := r.isLt
  have hc := c.isLt
  constructor
  · intro h
    have := congrArg BitVec.toNat h
    simp [IntOp.addi, BitVec.toNat_ofNat] at this
    omega
  · intro h
    simp [IntOp.addi, h]

/-- The array `X` with its diagonal replaced by `-∞`. -/
def masked (X : FVec Ideal S4096x4096 .f32) : FVec Ideal S4096x4096 .f32 :=
  select eye (broadcastInDim S4096x4096 ![] bcast_S_S4096x4096 (constant S_ .f32 0xFF800000#32)) X

theorem ofBits_ninf : Ideal.ofBits .f32 0xFF800000#32 = (⊥ : EReal) := by simp [Ideal.ofBits, Ideal.ieee]

theorem masked_apply (X : FVec Ideal S4096x4096 .f32) (r c : Fin 4096) :
    masked X (ix2 r c) = if r.val = c.val then (⊥ : EReal) else X (ix2 r c) := by
  have hb : (broadcastInDim S4096x4096 ![] bcast_S_S4096x4096 (constant (F := Ideal) S_ .f32 0xFF800000#32)) (ix2 r c) = (⊥ : EReal) :=
    (broadcastInDim_apply _ bcast_S_S4096x4096 _ (ix2 r c) (fun a => a.elim0) (fun a => a.elim0)).trans ofBits_ninf
  show Scalar.select (eye (ix2 r c)) _ (X (ix2 r c)) = _
  rw [hb]
  by_cases h : r.val = c.val
  · rw [(eye_apply r c).mpr h, select_one, if_pos h]
  · rw [eq_zero_of_ne_one (fun h1 => h ((eye_apply r c).mp h1)), select_zero, if_neg h]

/-! ## The two concatenations, read at an index -/

theorem cat1_apply (X Y : FVec Ideal S4096x4096 .f32) (r : Fin 4096) (j : Fin 8192) :
    concatenate S4096x8192 1 [⟨S4096x4096, X⟩, ⟨S4096x4096, Y⟩] concatenates_S4096x4096_S4096x4096_S4096x8192_d1 (ix2 r j)
      = if h : j.val < 4096 then X (ix2 r ⟨j.val, h⟩) else Y (ix2 r ⟨j.val - 4096, by omega⟩) := by
  by_cases h : j.val < 4096
  · rw [dif_pos h]
    exact concatenate_pair_apply_left 1 X Y concatenates_S4096x4096_S4096x4096_S4096x8192_d1 (ix2 r j) rfl
      (ix2 r ⟨j.val, h⟩) (fun b => match b with | ⟨0, _⟩ => rfl | ⟨1, _⟩ => rfl)
  · rw [dif_neg h]
    exact concatenate_pair_apply_right 1 X Y concatenates_S4096x4096_S4096x4096_S4096x8192_d1 (ix2 r j) rfl rfl
      (ix2 r ⟨j.val - 4096, by omega⟩) (fun b hb => match b, hb with | ⟨0, _⟩, _ => rfl | ⟨1, _⟩, hb => absurd rfl hb)
      (by show (j.val - 4096) + 4096 = j.val; omega)

theorem cat0_apply (U V : FVec Ideal S4096x8192 .f32) (r j : Fin 8192) :
    concatenate S8192x8192 0 [⟨S4096x8192, U⟩, ⟨S4096x8192, V⟩] concatenates_S4096x8192_S4096x8192_S8192x8192_d0 (ix2 r j)
      = if h : r.val < 4096 then U (ix2 ⟨r.val, h⟩ j) else V (ix2 ⟨r.val - 4096, by omega⟩ j) := by
  by_cases h : r.val < 4096
  · rw [dif_pos h]
    exact concatenate_pair_apply_left 0 U V concatenates_S4096x8192_S4096x8192_S8192x8192_d0 (ix2 r j) rfl
      (ix2 ⟨r.val, h⟩ j) (fun b => match b with | ⟨0, _⟩ => rfl | ⟨1, _⟩ => rfl)
  · rw [dif_neg h]
    exact concatenate_pair_apply_right 0 U V concatenates_S4096x8192_S4096x8192_S8192x8192_d0 (ix2 r j) rfl rfl
      (ix2 ⟨r.val - 4096, by omega⟩ j) (fun b hb => match b, hb with | ⟨0, _⟩, hb => absurd rfl hb | ⟨1, _⟩, _ => rfl)
      (by show (r.val - 4096) + 4096 = r.val; omega)

/-! ## The 8192 × 8192 similarities before scaling -/

/-- The reference's square array: `[A·Bᵀ | mask(A·Aᵀ)]` above `[mask(B·Bᵀ) | (A·Bᵀ)ᵀ]`. -/
def logits (A B : FVec Ideal S4096x64 .f32) : FVec Ideal S8192x8192 .f32 :=
  concatenate S8192x8192 0
    [⟨S4096x8192, concatenate S4096x8192 1 [⟨S4096x4096, sim A B⟩, ⟨S4096x4096, masked (sim A A)⟩]
        concatenates_S4096x4096_S4096x4096_S4096x8192_d1⟩,
     ⟨S4096x8192, concatenate S4096x8192 1
        [⟨S4096x4096, masked (sim B B)⟩,
         ⟨S4096x4096, transpose S4096x4096 [1, 0] (sim A B) transposes_S4096x4096_S4096x4096_1_0⟩]
        concatenates_S4096x4096_S4096x4096_S4096x8192_d1⟩]
    concatenates_S4096x8192_S4096x8192_S8192x8192_d0

theorem stackE_lo (A B : FVec Ideal S4096x64 .f32) (r : Fin 8192) (d : Fin 64) (h : r.val < 4096) :
    stackE A B (ix2 r d) = A (ix2 ⟨r.val, h⟩ d) := by
  unfold stackE; exact dif_pos h

theorem stackE_hi (A B : FVec Ideal S4096x64 .f32) (r : Fin 8192) (d : Fin 64) (h : ¬ r.val < 4096) :
    stackE A B (ix2 r d) = B (ix2 ⟨r.val - 4096, by omega⟩ d) := by
  unfold stackE; exact dif_neg h

theorem partner_val (r : Fin 8192) :
    (partner r).val = if r.val < 4096 then r.val + 4096 else r.val - 4096 := by
  unfold partner; split <;> rfl

theorem eq_partner_iff (r j : Fin 8192) :
    j = partner r ↔ j.val = if r.val < 4096 then r.val + 4096 else r.val - 4096 := by
  rw [← partner_val, Fin.ext_iff]

theorem transposed_apply (X : FVec Ideal S4096x4096 .f32) (a b : Fin 4096) :
    transpose S4096x4096 [1, 0] X transposes_S4096x4096_S4096x4096_1_0 (ix2 a b) = X (ix2 b a) :=
  transpose_apply [1, 0] X transposes_S4096x4096_S4096x4096_1_0 (ix2 a b) (ix2 b a)
    (fun c => match c with | ⟨0, _⟩ => rfl | ⟨1, _⟩ => rfl)

/-- Entry `(r, j)`: `-∞` in the partner's column, else the inner product of row `r` of `[A; B]` with row `j` of `[B; A]`. -/
theorem logits_apply (A B : FVec Ideal S4096x64 .f32) (r j : Fin 8192) :
    logits A B (ix2 r j) = if j = partner r then (⊥ : EReal)
      else ∑ d : Fin 64, stackE A B (ix2 r d) * stackE B A (ix2 j d) := by
  unfold logits
  rw [cat0_apply]
  have hr' := r.isLt
  have hj' := j.isLt
  by_cases hr : r.val < 4096
  · have hp : j = partner r ↔ j.val = r.val + 4096 := by rw [eq_partner_iff, if_pos hr]
    rw [dif_pos hr, cat1_apply]
    by_cases hj : j.val < 4096
    · rw [dif_pos hj, sim_apply, if_neg (fun h => by have := hp.mp h; omega)]
      exact Finset.sum_congr rfl fun d _ => by rw [stackE_lo A B r d hr, stackE_lo B A j d hj]
    · rw [dif_neg hj, masked_apply]
      by_cases he : j.val = r.val + 4096
      · rw [if_pos (hp.mpr he), if_pos (by show r.val = j.val - 4096; omega)]
      · rw [if_neg (fun h => he (hp.mp h)), if_neg (by show ¬ r.val = j.val - 4096; omega), sim_apply]
        exact Finset.sum_congr rfl fun d _ => by rw [stackE_lo A B r d hr, stackE_hi B A j d hj]
  · have hp : j = partner r ↔ j.val = r.val - 4096 := by rw [eq_partner_iff, if_neg hr]
    rw [dif_neg hr, cat1_apply]
    by_cases hj : j.val < 4096
    · rw [dif_pos hj, masked_apply]
      by_cases he : j.val = r.val - 4096
      · rw [if_pos (hp.mpr he), if_pos (by show r.val - 4096 = j.val; omega)]
      · rw [if_neg (fun h => he (hp.mp h)), if_neg (by show ¬ r.val - 4096 = j.val; omega), sim_apply]
        exact Finset.sum_congr rfl fun d _ => by rw [stackE_hi A B r d hr, stackE_lo B A j d hj]
    · rw [dif_neg hj, if_neg (fun h => by have := hp.mp h; omega), transposed_apply, sim_apply]
      exact Finset.sum_congr rfl fun d _ => by rw [stackE_hi A B r d hr, stackE_hi B A j d hj, mul_comm]

/-! ## Scaling by the temperature -/

/-- The similarities divided by the single-precision number nearest to 0.2. -/
def scaled (A B : FVec Ideal S4096x64 .f32) : FVec Ideal S8192x8192 .f32 :=
  Host.divf (logits A B) (broadcastInDim S8192x8192 ![] bcast_S_S8192x8192 (constant S_ .f32 0x3E4CCCCD#32))

theorem ofBits_temp : Ideal.ofBits .f32 0x3E4CCCCD#32 = (((13421773 / 67108864 : ℝ)) : EReal) := by
  simp [Ideal.ofBits, Ideal.ieee, -EReal.coe_mul]; norm_num

/-- The coercion of a finite sum of reals is the sum of the coercions. -/
theorem coe_sum {ι : Type} (s : Finset ι) (e : ι → ℝ) : ((∑ j ∈ s, e j : ℝ) : EReal) = ∑ j ∈ s, (e j : EReal) := by
  classical
  induction s using Finset.induction_on with
  | empty => simp
  | insert a s ha ih => rw [Finset.sum_insert ha, Finset.sum_insert ha, EReal.coe_add, ih]

/-- Entry `(r, j)` of the scaled array over real inputs: `-∞` in the partner's column, else the real scaled similarity. -/
theorem scaled_apply (A B : FVec Ideal S4096x64 .f32) (hA : IsReal A) (hB : IsReal B) (r j : Fin 8192) :
    scaled A B (ix2 r j) = if j = partner r then (⊥ : EReal)
      else ((lgt (stack (toR A) (toR B)) (stack (toR B) (toR A)) r j : ℝ) : EReal) := by
  have hb : (broadcastInDim S8192x8192 ![] bcast_S_S8192x8192 (constant (F := Ideal) S_ .f32 0x3E4CCCCD#32)) (ix2 r j)
      = (((13421773 / 67108864 : ℝ)) : EReal) :=
    (broadcastInDim_apply _ bcast_S_S8192x8192 _ (ix2 r j) (fun a => a.elim0) (fun a => a.elim0)).trans ofBits_temp
  show Ideal.div (logits A B (ix2 r j)) _ = _
  rw [hb, logits_apply, Ideal.div_coe (by norm_num)]
  by_cases hp : j = partner r
  · rw [if_pos hp, if_pos hp]
    exact EReal.bot_mul_coe_of_pos (by norm_num)
  · rw [if_neg hp, if_neg hp]
    have hQ := isReal_stackE hA hB
    have hK := isReal_stackE hB hA
    have hs : ∑ d : Fin 64, stackE A B (ix2 r d) * stackE B A (ix2 j d)
        = ((rdot (toR (stackE A B) r) (toR (stackE B A) j) : ℝ) : EReal) := by
      unfold rdot
      rw [coe_sum]
      refine Finset.sum_congr rfl fun d _ => ?_
      rw [EReal.coe_mul, coe_toR hQ, coe_toR hK]
    rw [hs, toR_stackE, toR_stackE, ← EReal.coe_mul]
    unfold lgt scale
    norm_num

/-! ## The log-softmax of a square array, operation by operation -/

theorem bc_col {α : Type} (y : S8192.Idx → α) (r : Fin 8192) (z : Fin 1) :
    broadcastInDim S8192x1 ![0] bcast_S8192_S8192x1_0 y (ix2 r z) = y (ix1 r) :=
  broadcastInDim_apply _ bcast_S8192_S8192x1_0 y (ix2 r z) (ix1 r) (fun a => match a with
    | ⟨0, _⟩ => by show r.val = if (8192 : Nat) = 1 then 0 else r.val; rw [if_neg (by decide)])

theorem bc_row {α : Type} (y : S8192x1.Idx → α) (r j : Fin 8192) :
    broadcastInDim S8192x8192 ![0, 1] bcast_S8192x1_S8192x8192_0_1 y (ix2 r j) = y (ix2 r 0) :=
  broadcastInDim_apply _ bcast_S8192x1_S8192x8192_0_1 y (ix2 r j) (ix2 r 0) (fun a => match a with
    | ⟨0, _⟩ => by show r.val = if (8192 : Nat) = 1 then 0 else r.val; rw [if_neg (by decide)]
    | ⟨1, _⟩ => by show 0 = if (1 : Nat) = 1 then 0 else j.val; rw [if_pos rfl])

/-- Each row's maximum, from `-∞`. -/
def rowMax (X : FVec Ideal S8192x8192 .f32) : FVec Ideal S8192 .f32 :=
  maximumf (broadcastInDim S8192 ![] bcast_S_S8192 (constant S_ .f32 0xFF800000#32))
    (Host.reduce FloatOps.maximumf X (constant S_ .f32 0xFF800000#32) reducesTo_S8192x8192_S8192_d1 h_S_)

theorem rowMax_apply (X : FVec Ideal S8192x8192 .f32) (r : Fin 8192) :
    rowMax X (ix1 r) = Finset.univ.fold (FloatOps.maximumf (F := Ideal) (φ := .f32)) (⊥ : EReal)
      (fun k : Fin 8192 => X (ix2 r k)) := by
  have hb : (broadcastInDim S8192 ![] bcast_S_S8192 (constant (F := Ideal) S_ .f32 0xFF800000#32)) (ix1 r) = (⊥ : EReal) :=
    (broadcastInDim_apply _ bcast_S_S8192 _ (ix1 r) (fun a => a.elim0) (fun a => a.elim0)).trans ofBits_ninf
  have hi : (constant (F := Ideal) S_ .f32 0xFF800000#32) (Shape.Idx.first h_S_) = (⊥ : EReal) := ofBits_ninf
  unfold rowMax
  rw [maximumf_apply, hb, max_eq_right bot_le,
    Host.reduce_eq_fold_single FloatOps.maximumf X _ reducesTo_S8192x8192_S8192_d1 (by decide) h_S_ (ix1 r), hi]
  refine congrArg (fun f => Finset.univ.fold (FloatOps.maximumf (F := Ideal) (φ := .f32)) (⊥ : EReal) f) (funext fun k => ?_)
  exact congrArg X (funext fun a => Fin.ext (by match a with | ⟨0, _⟩ => rfl | ⟨1, _⟩ => rfl))

theorem host_log_apply {s : Shape} (v : FVec Ideal s .f32) (i : s.Idx) : Host.log v i = Ideal.log (v i) := rfl
theorem host_exp_apply {s : Shape} (v : FVec Ideal s .f32) (i : s.Idx) : Host.exp v i = Ideal.exp (v i) := rfl
theorem host_divf_apply {s : Shape} (a b : FVec Ideal s .f32) (i : s.Idx) : Host.divf a b i = Ideal.div (a i) (b i) := rfl
theorem host_negf_apply {s : Shape} (a : FVec Ideal s .f32) (i : s.Idx) : Host.negf a i = -(a i) := rfl

/-- Each entry less its row's maximum. -/
def shifted (X : FVec Ideal S8192x8192 .f32) : FVec Ideal S8192x8192 .f32 :=
  subf X (broadcastInDim S8192x8192 ![0, 1] bcast_S8192x1_S8192x8192_0_1
    (broadcastInDim S8192x1 ![0] bcast_S8192_S8192x1_0 (rowMax X)))

theorem shifted_apply (X : FVec Ideal S8192x8192 .f32) (r j : Fin 8192) :
    shifted X (ix2 r j) = X (ix2 r j) - rowMax X (ix1 r) := by
  unfold shifted
  rw [subf_apply, bc_row, bc_col]

/-- Each row's sum of the shifted entries' exponentials. -/
def rowSum (X : FVec Ideal S8192x8192 .f32) : FVec Ideal S8192 .f32 :=
  Host.reduceAdd (Host.exp (shifted X)) (constant S_ .f32 0x00000000#32) reducesTo_S8192x8192_S8192_d1 h_S_

theorem rowSum_apply (X : FVec Ideal S8192x8192 .f32) (r : Fin 8192) :
    rowSum X (ix1 r) = ∑ k : Fin 8192, Ideal.exp (shifted X (ix2 r k)) := by
  have hi : (constant (F := Ideal) S_ .f32 0x00000000#32) (Shape.Idx.first h_S_) = (0 : EReal) := Ideal.ofBits_zero_f32
  unfold rowSum
  simp only [Host.reduceAdd, Ideal.hostReduceAdd_def]
  rw [Ideal.hostReduceAdd_single reducesTo_S8192x8192_S8192_d1 (by decide), hi, zero_add]
  refine Finset.sum_congr rfl fun k _ => ?_
  rw [host_exp_apply]
  exact congrArg (fun i => Ideal.exp (shifted X i))
    (funext fun a => Fin.ext (by match a with | ⟨0, _⟩ => rfl | ⟨1, _⟩ => rfl))

/-- Each row's logarithm of that sum. -/
def rowLse (X : FVec Ideal S8192x8192 .f32) : FVec Ideal S8192x1 .f32 :=
  Host.log (broadcastInDim S8192x1 ![0] bcast_S8192_S8192x1_0 (rowSum X))

theorem rowLse_apply (X : FVec Ideal S8192x8192 .f32) (r : Fin 8192) (z : Fin 1) :
    rowLse X (ix2 r z) = Ideal.log (rowSum X (ix1 r)) := by
  unfold rowLse
  rw [host_log_apply, bc_col]

/-- The log-softmax of every row. -/
def logSoftmax (X : FVec Ideal S8192x8192 .f32) : FVec Ideal S8192x8192 .f32 :=
  subf (shifted X) (broadcastInDim S8192x8192 ![0, 1] bcast_S8192x1_S8192x8192_0_1 (rowLse X))

theorem logSoftmax_apply (X : FVec Ideal S8192x8192 .f32) (r j : Fin 8192) :
    logSoftmax X (ix2 r j) = shifted X (ix2 r j) - rowLse X (ix2 r 0) := by
  unfold logSoftmax
  rw [subf_apply, bc_row]

/-! ## One row over the reals: `-∞` in one column, real numbers elsewhere -/

theorem fold_max_row (f : Fin 8192 → ℝ) (p : Fin 8192) (hne : (Finset.univ.erase p).Nonempty) :
    Finset.univ.fold (FloatOps.maximumf (F := Ideal) (φ := .f32)) (⊥ : EReal)
        (fun j => if j = p then (⊥ : EReal) else ((f j : ℝ) : EReal))
      = (((Finset.univ.erase p).sup' hne f : ℝ) : EReal) := by
  have h0 : Finset.univ.fold (FloatOps.maximumf (F := Ideal) (φ := .f32)) (⊥ : EReal)
        (fun j => if j = p then (⊥ : EReal) else ((f j : ℝ) : EReal))
      = Finset.univ.sup (fun j => if j = p then (⊥ : EReal) else ((f j : ℝ) : EReal)) := rfl
  rw [h0]
  apply le_antisymm
  · refine Finset.sup_le fun j _ => ?_
    by_cases hj : j = p
    · rw [if_pos hj]; exact bot_le
    · rw [if_neg hj]
      exact EReal.coe_le_coe_iff.mpr (Finset.le_sup' f (Finset.mem_erase.mpr ⟨hj, Finset.mem_univ j⟩))
  · obtain ⟨j, hj, hmax⟩ := Finset.exists_mem_eq_sup' hne f
    rw [hmax]
    have hjp : j ≠ p := (Finset.mem_erase.mp hj).1
    have hle := Finset.le_sup (f := fun j => if j = p then (⊥ : EReal) else ((f j : ℝ) : EReal)) (Finset.mem_univ j)
    rw [if_neg hjp] at hle
    exact hle

theorem sum_exp_row (e : Fin 8192 → ℝ) (p : Fin 8192) :
    ∑ j : Fin 8192, (if j = p then (0 : EReal) else ((e j : ℝ) : EReal))
      = ((∑ j ∈ Finset.univ.erase p, e j : ℝ) : EReal) := by
  rw [coe_sum, ← Finset.sum_erase Finset.univ (f := fun j => if j = p then (0 : EReal) else ((e j : ℝ) : EReal)) (a := p) (if_pos rfl)]
  refine Finset.sum_congr rfl fun j hj => ?_
  rw [if_neg (Finset.mem_erase.mp hj).1]

/-- THE ROW: over real inputs, the log-softmax of the scaled, masked array read at `(r, r)` is the specification's `refRow`. -/
theorem row_value (A B : FVec Ideal S4096x64 .f32) (hA : IsReal A) (hB : IsReal B) (r : Fin 8192) :
    logSoftmax (scaled A B) (ix2 r r)
      = ((refRow (stack (toR A) (toR B)) (stack (toR B) (toR A)) r : ℝ) : EReal) := by
  generalize hQ : stack (toR A) (toR B) = Q
  generalize hK : stack (toR B) (toR A) = K
  have hx : ∀ j, scaled A B (ix2 r j) = if j = partner r then (⊥ : EReal) else ((lgt Q K r j : ℝ) : EReal) := by
    intro j; rw [scaled_apply A B hA hB r j, hQ, hK]
  generalize scaled A B = X at hx ⊢
  have hrp : r ≠ partner r := (Finset.mem_erase.mp (self_mem_others r)).1
  have hM : rowMax X (ix1 r) = (((others r).sup' (others_nonempty r) (lgt Q K r) : ℝ) : EReal) := by
    rw [rowMax_apply, show (fun k : Fin 8192 => X (ix2 r k)) = _ from funext hx]
    exact fold_max_row (lgt Q K r) (partner r) (others_nonempty r)
  generalize hMv : (others r).sup' (others_nonempty r) (lgt Q K r) = M at hM
  have hsh : ∀ j, shifted X (ix2 r j) = if j = partner r then (⊥ : EReal) else ((lgt Q K r j - M : ℝ) : EReal) := by
    intro j
    rw [shifted_apply, hM, hx]
    by_cases hj : j = partner r
    · rw [if_pos hj, if_pos hj]; exact EReal.bot_sub _
    · rw [if_neg hj, if_neg hj, EReal.coe_sub]
  have hexp : ∀ j, Ideal.exp (shifted X (ix2 r j))
      = if j = partner r then (0 : EReal) else ((Real.exp (lgt Q K r j - M) : ℝ) : EReal) := by
    intro j
    rw [hsh]
    by_cases hj : j = partner r
    · rw [if_pos hj, if_pos hj]; rfl
    · rw [if_neg hj, if_neg hj]; rfl
  have hpos : 0 < ∑ j ∈ others r, Real.exp (lgt Q K r j - M) :=
    Finset.sum_pos (fun j _ => Real.exp_pos _) (others_nonempty r)
  have hS : rowLse X (ix2 r 0) = ((Real.log (∑ j ∈ others r, Real.exp (lgt Q K r j - M)) : ℝ) : EReal) := by
    rw [rowLse_apply, rowSum_apply, Finset.sum_congr rfl (fun k _ => hexp k), sum_exp_row]
    show Ideal.log ((∑ j ∈ others r, Real.exp (lgt Q K r j - M) : ℝ) : EReal) = _
    rw [Ideal.log_coe, if_neg (not_le.mpr hpos)]
  rw [logSoftmax_apply, hsh, if_neg hrp, hS, ← EReal.coe_sub]
  unfold refRow
  rw [hMv]

/-! ## Reading each row of an array at its own column -/

/-- The column `0, 1, …, 8191`. -/
def iotaCol : IVec S8192x1 32 := broadcastInDim S8192x1 ![0] bcast_S8192_S8192x1_0 (iotaInDim S8192 32 0)

theorem iotaCol_apply (r : Fin 8192) (z : Fin 1) : iotaCol (ix2 r z) = BitVec.ofNat 32 r.val := by
  unfold iotaCol; rw [bc_col]; rfl

theorem ofNat_toNat (r : Fin 8192) : (BitVec.ofNat 32 r.val).toNat = r.val := by
  rw [BitVec.toNat_ofNat]; exact Nat.mod_eq_of_lt (by have := r.isLt; omega)

/-- The same column after the wrap of negative indices, which changes nothing. -/
def wrapped : IVec S8192x1 32 :=
  select (cmpi .slt iotaCol (broadcastInDim S8192x1 ![] bcast_S_S8192x1 (constantI S_ 32 0#32)))
    (addi iotaCol (broadcastInDim S8192x1 ![] bcast_S_S8192x1 (constantI S_ 32 8192#32))) iotaCol

theorem wrapped_apply (r : Fin 8192) (z : Fin 1) : wrapped (ix2 r z) = BitVec.ofNat 32 r.val := by
  have hb : (broadcastInDim S8192x1 ![] bcast_S_S8192x1 (constantI S_ 32 0#32)) (ix2 r z) = 0#32 :=
    broadcastInDim_apply _ bcast_S_S8192x1 _ (ix2 r z) (fun a => a.elim0) (fun a => a.elim0)
  have hc : (cmpi .slt iotaCol (broadcastInDim S8192x1 ![] bcast_S_S8192x1 (constantI S_ 32 0#32))) (ix2 r z) = 0#1 := by
    show IntOp.cmpi .slt (iotaCol (ix2 r z)) ((broadcastInDim S8192x1 ![] bcast_S_S8192x1 (constantI S_ 32 0#32)) (ix2 r z)) = 0#1
    rw [iotaCol_apply, hb]
    refine eq_zero_of_ne_one fun h => ?_
    have := (slt_iff_toNat (by rw [ofNat_toNat]; have := r.isLt; omega) (by decide)).mp h
    simp at this
  unfold wrapped
  rw [select_apply, hc, select_zero, iotaCol_apply]

/-- The column as the 8192 × 1 × 1 array of start indices. -/
def tgtIdx : IVec S8192x1x1 32 := shapeCast _ wrapped shapeCasts_S8192x1_S8192x1x1

theorem tgtIdx_apply (r : Fin 8192) : tgtIdx (ix3 r 0 0) = BitVec.ofNat 32 r.val := by
  unfold tgtIdx
  rw [shapeCast_apply wrapped shapeCasts_S8192x1_S8192x1x1 (ix3 r 0 0) (ix2 r 0) (by
    rewrite [Shape.rowMajor_val_two, Shape.rowMajor_val_three]
    show r.val * 1 + 0 = (r.val * 1 + 0) * 1 + 0
    omega)]
  exact wrapped_apply r 0

theorem fold_fin_one {α : Type} (op : α → α → α) [Std.Commutative op] [Std.Associative op] (b : α) {n : Nat} (hn : n = 1)
    (f : Fin n → α) : Finset.univ.fold op b f = op (f ⟨0, by omega⟩) b := by
  subst hn
  rw [Finset.univ_unique, Finset.fold_singleton]; rfl

/-- Whether each start index lies in `[0, 8191]`: it always does. -/
def inRange : IVec S8192x1 1 :=
  Host.reduce IntOp.andi
    (andi (cmpi .sge tgtIdx (broadcastInDim S8192x1x1 ![] bcast_S_S8192x1x1 (constantI S_ 32 0#32)))
      (cmpi .sle tgtIdx (broadcastInDim S8192x1x1 ![0, 1, 2] bcast_S1x1x1_S8192x1x1_0_1_2
        (broadcastInDim S1x1x1 ![2] bcast_S1_S1x1x1_2 (constantI S1 32 8191#32)))))
    (constantI S_ 1 1#1) reducesTo_S8192x1x1_S8192x1_d2 h_S_

theorem inRange_apply (r : Fin 8192) : inRange (ix2 r 0) = 1#1 := by
  have hlo : (broadcastInDim S8192x1x1 ![] bcast_S_S8192x1x1 (constantI S_ 32 0#32)) (ix3 r 0 0) = 0#32 :=
    broadcastInDim_apply _ bcast_S_S8192x1x1 _ (ix3 r 0 0) (fun a => a.elim0) (fun a => a.elim0)
  have hhi : (broadcastInDim S8192x1x1 ![0, 1, 2] bcast_S1x1x1_S8192x1x1_0_1_2
      (broadcastInDim S1x1x1 ![2] bcast_S1_S1x1x1_2 (constantI S1 32 8191#32))) (ix3 r 0 0) = 8191#32 := by
    rw [broadcastInDim_apply _ bcast_S1x1x1_S8192x1x1_0_1_2 _ (ix3 r 0 0) (ix3 0 0 0) (fun a => match a with
      | ⟨0, _⟩ => by show 0 = if (1 : Nat) = 1 then 0 else r.val; rw [if_pos rfl]
      | ⟨1, _⟩ => by show 0 = if (1 : Nat) = 1 then 0 else 0; rw [if_pos rfl]
      | ⟨2, _⟩ => by show 0 = if (1 : Nat) = 1 then 0 else 0; rw [if_pos rfl]),
      broadcastInDim_apply _ bcast_S1_S1x1x1_2 _ (ix3 0 0 0) (ix1 0) (fun a => match a with
      | ⟨0, _⟩ => by show 0 = if (1 : Nat) = 1 then 0 else 0; rw [if_pos rfl])]
    rfl
  have hr := r.isLt
  have hv : (andi (cmpi .sge tgtIdx (broadcastInDim S8192x1x1 ![] bcast_S_S8192x1x1 (constantI S_ 32 0#32)))
      (cmpi .sle tgtIdx (broadcastInDim S8192x1x1 ![0, 1, 2] bcast_S1x1x1_S8192x1x1_0_1_2
        (broadcastInDim S1x1x1 ![2] bcast_S1_S1x1x1_2 (constantI S1 32 8191#32))))) (ix3 r 0 0) = 1#1 := by
    show IntOp.andi (IntOp.cmpi .sge (tgtIdx (ix3 r 0 0)) _) (IntOp.cmpi .sle (tgtIdx (ix3 r 0 0)) _) = 1#1
    rw [hlo, hhi, tgtIdx_apply,
      (sge_iff_toNat (by rw [ofNat_toNat]; omega) (by decide)).mpr (by simp),
      (sle_iff_toNat (by rw [ofNat_toNat]; omega) (by decide)).mpr (by rw [ofNat_toNat]; simp; omega)]
    rfl
  unfold inRange
  rw [Host.reduce_eq_fold_single IntOp.andi _ _ reducesTo_S8192x1x1_S8192x1_d2 (by decide) h_S_ (ix2 r 0)]
  refine (fold_fin_one IntOp.andi _ (n := S8192x1x1.size 2) rfl _).trans ?_
  have hl : (Shape.Reduces.lift (s := S8192x1x1) (t := S8192x1) (a := 2) (by decide) (ix2 r 0) ⟨0, by decide⟩) = ix3 r 0 0 :=
    funext fun a => Fin.ext (by match a with | ⟨0, _⟩ => rfl | ⟨1, _⟩ => rfl | ⟨2, _⟩ => rfl)
  rw [Function.comp_apply, hl, hv]
  rfl

/-- A gather along each row with start indices `idx` reads row `r` at the clamped index. -/
theorem gather_row (X : FVec Ideal S8192x8192 .f32) (idx : IVec S8192x1x1 32) (r c : Fin 8192)
    (hc : min (idx (ix3 r 0 0)).toInt.toNat (8192 - 1) = c.val) :
    Host.gather gather_S8192x8192_S8192x1x1_S8192x1_n_1_0_0_1_2_11 X idx (ix2 r 0) = X (ix2 r c) := by
  unfold Host.gather
  refine congrArg X (funext fun a => Fin.ext ?_)
  match a with
  | ⟨0, _⟩ =>
    show gather_S8192x8192_S8192x1x1_S8192x1_n_1_0_0_1_2_11.start (ix2 r 0) idx 0
      + gather_S8192x8192_S8192x1x1_S8192x1_n_1_0_0_1_2_11.batchCoord (ix2 r 0) 0
      + gather_S8192x8192_S8192x1x1_S8192x1_n_1_0_0_1_2_11.offCoord (ix2 r 0) 0 = r.val
    rw [GatherDims.start_batching _ _ _ _ (by decide),
      GatherDims.offCoord_eq_zero _ _ _ (fun h => ((GatherDims.mem_sKept _ _).mp h).2 (by decide))]
    unfold GatherDims.batchCoord
    rw [dif_pos (by decide), Nat.zero_add, Nat.add_zero]
    rfl
  | ⟨1, _⟩ =>
    show gather_S8192x8192_S8192x1x1_S8192x1_n_1_0_0_1_2_11.start (ix2 r 0) idx 1
      + gather_S8192x8192_S8192x1x1_S8192x1_n_1_0_0_1_2_11.batchCoord (ix2 r 0) 1
      + gather_S8192x8192_S8192x1x1_S8192x1_n_1_0_0_1_2_11.offCoord (ix2 r 0) 1 = c.val
    rw [GatherDims.batchCoord_eq_zero _ _ _ (by decide),
      GatherDims.offCoord_eq_zero _ _ _ (fun h => ((GatherDims.mem_sKept _ _).mp h).1 (by decide))]
    unfold GatherDims.start
    rw [dif_pos (by decide)]
    have hsi : gather_S8192x8192_S8192x1x1_S8192x1_n_1_0_0_1_2_11.siIdx (ix2 r 0)
        ⟨List.idxOf (1 : Fin 2) gather_S8192x8192_S8192x1x1_S8192x1_n_1_0_0_1_2_11.startIndexMap,
          List.idxOf_lt_length_iff.2 (by decide)⟩ = ix3 r 0 0 := by
      funext b; refine Fin.ext ?_
      match b with
      | ⟨0, _⟩ => rfl
      | ⟨1, _⟩ => rfl
      | ⟨2, _⟩ => rfl
    rw [hsi]
    exact hc

/-- Each row read at its own column (the never-taken out-of-range value being a NaN). -/
def picked (X : FVec Ideal S8192x8192 .f32) : FVec Ideal S8192x1 .f32 :=
  select inRange (Host.gather gather_S8192x8192_S8192x1x1_S8192x1_n_1_0_0_1_2_11 X tgtIdx)
    (broadcastInDim S8192x1 ![] bcast_S_S8192x1 (constant S_ .f32 0x7FC00000#32))

theorem picked_apply (X : FVec Ideal S8192x8192 .f32) (r : Fin 8192) : picked X (ix2 r 0) = X (ix2 r r) := by
  have hr := r.isLt
  unfold picked
  rw [select_apply, inRange_apply, select_one]
  refine gather_row X tgtIdx r r ?_
  rw [tgtIdx_apply, toInt_ofNat_small r.val (by omega), Int.toNat_natCast]
  omega

/-! ## The branch's loss -/

/-- The reference's loss of one branch, as the composition of its operations on the two arrays. -/
def branch (A B : FVec Ideal S4096x64 .f32) : FVec Ideal S_ .f32 :=
  Host.negf (Host.divf
    (Host.reduceAdd (picked (logSoftmax (scaled A B))) (constant S_ .f32 0x00000000#32) reducesTo_S8192x1_S_d0_1 h_S_)
    (constant S_ .f32 0x46000000#32))

theorem ofBits_8192 : Ideal.ofBits .f32 0x46000000#32 = (((8192 : ℝ)) : EReal) := by
  simp [Ideal.ofBits, Ideal.ieee, -EReal.coe_mul]; norm_num

/-- Over real inputs the branch's loss is the specification's `refBranch` of the stacked matrices. -/
theorem branch_value (A B : FVec Ideal S4096x64 .f32) (hA : IsReal A) (hB : IsReal B) :
    branch A B = fun _ => ((refBranch (stack (toR A) (toR B)) (stack (toR B) (toR A)) : ℝ) : EReal) := by
  funext i
  have hi : (constant (F := Ideal) S_ .f32 0x00000000#32) (Shape.Idx.first h_S_) = (0 : EReal) := Ideal.ofBits_zero_f32
  have hd : (constant (F := Ideal) S_ .f32 0x46000000#32) i = (((8192 : ℝ)) : EReal) := ofBits_8192
  have hsum : Host.reduceAdd (picked (logSoftmax (scaled A B))) (constant (F := Ideal) S_ .f32 0x00000000#32)
      reducesTo_S8192x1_S_d0_1 h_S_ i
      = ((∑ r : Fin 8192, refRow (stack (toR A) (toR B)) (stack (toR B) (toR A)) r : ℝ) : EReal) := by
    simp only [Host.reduceAdd, Ideal.hostReduceAdd_def]
    rw [Ideal.hostReduceAdd_total reducesTo_S8192x1_S_d0_1 (fun b => b.elim0) _ _ i, hi, zero_add, sum_idx2, coe_sum]
    refine Finset.sum_congr rfl fun r _ => ?_
    rw [Fin.sum_univ_one, picked_apply, row_value A B hA hB r]
  unfold branch
  rw [host_negf_apply, host_divf_apply, hsum, hd, Ideal.div_coe (by norm_num), ← EReal.coe_mul, ← EReal.coe_neg]
  unfold refBranch
  congr 1
  ring

/-! ## The two branches of the printed program are that composition -/

theorem user_eq (x0 : (⟨S4096, .i32⟩ : BufTy).Contents (Elt Ideal)) (x2 x4 : (⟨S100000x64, .f32⟩ : BufTy).Contents (Elt Ideal)) :
    ReadP.val_main_v45 (F := Ideal) x0 x2 x4
      = branch (ReadP.val_main_v16 (F := Ideal) x0 x2) (ReadP.val_main_v19 (F := Ideal) x0 x4) := rfl

theorem item_eq (x1 : (⟨S4096, .i32⟩ : BufTy).Contents (Elt Ideal)) (x3 x5 : (⟨S100000x64, .f32⟩ : BufTy).Contents (Elt Ideal)) :
    ReadP.val_main_v85 (F := Ideal) x1 x3 x5
      = branch (ReadP.val_main_v52 (F := Ideal) x1 x3) (ReadP.val_main_v59 (F := Ideal) x1 x5) := rfl

/-- The user branch's loss. -/
theorem ref_user (x0 : (⟨S4096, .i32⟩ : BufTy).Contents (Elt Ideal)) (x2 x4 : (⟨S100000x64, .f32⟩ : BufTy).Contents (Elt Ideal))
    (h1 : IsReal (s := S4096x64) (ReadP.val_main_v16 (F := Ideal) x0 x2))
    (h2 : IsReal (s := S4096x64) (ReadP.val_main_v19 (F := Ideal) x0 x4)) :
    ReadP.val_main_v45 (F := Ideal) x0 x2 x4 = fun _ =>
      ((refBranch
        (stack (toR (n := 4096) (ReadP.val_main_v16 (F := Ideal) x0 x2)) (toR (n := 4096) (ReadP.val_main_v19 (F := Ideal) x0 x4)))
        (stack (toR (n := 4096) (ReadP.val_main_v19 (F := Ideal) x0 x4)) (toR (n := 4096) (ReadP.val_main_v16 (F := Ideal) x0 x2))) : ℝ) : EReal) :=
  (user_eq x0 x2 x4).trans (branch_value _ _ h1 h2)

/-- The item branch's loss. -/
theorem ref_item (x1 : (⟨S4096, .i32⟩ : BufTy).Contents (Elt Ideal)) (x3 x5 : (⟨S100000x64, .f32⟩ : BufTy).Contents (Elt Ideal))
    (h1 : IsReal (s := S4096x64) (ReadP.val_main_v52 (F := Ideal) x1 x3))
    (h2 : IsReal (s := S4096x64) (ReadP.val_main_v59 (F := Ideal) x1 x5)) :
    ReadP.val_main_v85 (F := Ideal) x1 x3 x5 = fun _ =>
      ((refBranch
        (stack (toR (n := 4096) (ReadP.val_main_v52 (F := Ideal) x1 x3)) (toR (n := 4096) (ReadP.val_main_v59 (F := Ideal) x1 x5)))
        (stack (toR (n := 4096) (ReadP.val_main_v59 (F := Ideal) x1 x5)) (toR (n := 4096) (ReadP.val_main_v52 (F := Ideal) x1 x3))) : ℝ) : EReal) :=
  (item_eq x1 x3 x5).trans (branch_value _ _ h1 h2)

end Cert.ReferenceIdeal.Branch
end
-- ==== Proof.Assembly.lean ====
/-
  The two programs' results as one extended real.

  Write `U1, U2` for the two normalised user matrices and `I1, I2` for the two gathered item matrices (stages of the
  host chain both programs share), all holding real numbers under the precondition, and
  `total = kerBranch [U1; U2] [U2; U1] + kerBranch [I1; I2] [I2; I1]`.

  Kernel. pallas_call 0 is entered with `Q = [U1; U2]`, `K = [U2; U1]`, pallas_call 1 with `[I1; I2]`, `[I2; I1]`; for each,
  the host adds the sixteen output entries to 0 and divides by 8192, which is that branch's `kerBranch`; the result
  is the sum of the two.
  Reference. Its result is the sum of the two branches' `refBranch`, and `refBranch = kerBranch` on a stacked pair.
-/
import proofs.«427174_j46875273069282_1_alg».proof.Proof.Gen.KernelIdeal.Frame
import proofs.«427174_j46875273069282_1_alg».proof.Proof.RefStages
import proofs.«427174_j46875273069282_1_alg».proof.Proof.Spec
import proofs.«427174_j46875273069282_1_alg».proof.Proof.RealMath
import proofs.«427174_j46875273069282_1_alg».proof.Proof.KernelBranch
import proofs.«427174_j46875273069282_1_alg».proof.Proof.KernelBranch1
import proofs.«427174_j46875273069282_1_alg».proof.Proof.KernelHost
import proofs.«427174_j46875273069282_1_alg».proof.Proof.RefBranch

set_option maxRecDepth 16384

noncomputable section

namespace Cert.Assembly

open Idealize.ShloMosaic Idealize.ShloMosaic.ValueIdx Idealize.SL.Sem Cert.InfoNCE

/-- The common value of the two results, for the four arrays the two branches start from. -/
def total (U1 U2 I1 I2 : (⟨2, ![4096, 64]⟩ : Shape).Idx → EReal) : EReal :=
  ((kerBranch (stack (toR U1) (toR U2)) (stack (toR U2) (toR U1)) : ℝ) : EReal)
    + ((kerBranch (stack (toR I1) (toR I2)) (stack (toR I2) (toR I1)) : ℝ) : EReal)

section Kernel

open Cert.KernelIdeal Cert.KernelIdeal.Gen Idealize.ShloMosaic.TcCoe

variable (m : (ℓ : Loc nD τ sig) → Buf (Elt Ideal) ℓ) (ρ : Dev nD → PrngReg) (c : Dev nD)

/-- The idealized kernel's result buffer after the last host operation holds `total` of the four arrays. -/
theorem kernel_value
    (h16 : IsReal (Cert.ReferenceIdeal.ReadP.val_main_v16 (F := Ideal) (m ((c : Thread nD τ).loc main_arg0)) (m ((c : Thread nD τ).loc main_arg2))))
    (h19 : IsReal (Cert.ReferenceIdeal.ReadP.val_main_v19 (F := Ideal) (m ((c : Thread nD τ).loc main_arg0)) (m ((c : Thread nD τ).loc main_arg4))))
    (h52 : IsReal (Cert.ReferenceIdeal.ReadP.val_main_v52 (F := Ideal) (m ((c : Thread nD τ).loc main_arg1)) (m ((c : Thread nD τ).loc main_arg3))))
    (h59 : IsReal (Cert.ReferenceIdeal.ReadP.val_main_v59 (F := Ideal) (m ((c : Thread nD τ).loc main_arg1)) (m ((c : Thread nD τ).loc main_arg5)))) :
    W9 m ρ c (Proc.devRef .tc main_v48) = fun _ =>
      total (Cert.ReferenceIdeal.ReadP.val_main_v16 (F := Ideal) (m ((c : Thread nD τ).loc main_arg0)) (m ((c : Thread nD τ).loc main_arg2)))
        (Cert.ReferenceIdeal.ReadP.val_main_v19 (F := Ideal) (m ((c : Thread nD τ).loc main_arg0)) (m ((c : Thread nD τ).loc main_arg4)))
        (Cert.ReferenceIdeal.ReadP.val_main_v52 (F := Ideal) (m ((c : Thread nD τ).loc main_arg1)) (m ((c : Thread nD τ).loc main_arg3)))
        (Cert.ReferenceIdeal.ReadP.val_main_v59 (F := Ideal) (m ((c : Thread nD τ).loc main_arg1)) (m ((c : Thread nD τ).loc main_arg5))) := by
  rw [Host.result m ρ c]
  funext _
  have e0 := Branch.branch0 (V5 m ρ) c _ _ h16 h19 (Host.entry0_Q m ρ c) (Host.entry0_K m ρ c)
  have e1 := Branch.branch1 (V7 m ρ) c _ _ h52 h59 (Host.entry1_Q m ρ c) (Host.entry1_K m ρ c)
  unfold total
  exact congrArg₂ (· + ·) e0 e1

end Kernel

section Reference

open Cert.ReferenceIdeal

/-- The idealized reference's last stage is `total` of the same four arrays. -/
theorem ref_value (x0 x1 : (⟨S4096, .i32⟩ : BufTy).Contents (Elt Ideal)) (x2 x3 x4 x5 : (⟨S100000x64, .f32⟩ : BufTy).Contents (Elt Ideal))
    (h16 : IsReal (ReadP.val_main_v16 (F := Ideal) x0 x2)) (h19 : IsReal (ReadP.val_main_v19 (F := Ideal) x0 x4))
    (h52 : IsReal (ReadP.val_main_v52 (F := Ideal) x1 x3)) (h59 : IsReal (ReadP.val_main_v59 (F := Ideal) x1 x5)) :
    ReadP.val_main_v86 (F := Ideal) x0 x1 x2 x3 x4 x5 = fun _ =>
      total (ReadP.val_main_v16 (F := Ideal) x0 x2) (ReadP.val_main_v19 (F := Ideal) x0 x4)
        (ReadP.val_main_v52 (F := Ideal) x1 x3) (ReadP.val_main_v59 (F := Ideal) x1 x5) := by
  unfold ReadP.val_main_v86
  rw [Branch.ref_user x0 x2 x4 h16 h19, Branch.ref_item x1 x3 x5 h52 h59]
  funext _
  unfold total
  rw [branch_eq, branch_eq]
  rfl

end Reference

end Cert.Assembly

end
-- ==== Proof.lean ====
/-
  The certificate of the InfoNCE kernel against its reference.

  Both programs gather the rows of four embedding tables at two index vectors, divide each gathered user row by its
  Euclidean norm, and compute for each branch (user, item) the InfoNCE loss of the pair of 4096 × 64 matrices; the
  result is the sum of the two branches' losses. The reference forms the 8192 × 8192 matrix of scaled similarities,
  masks each row's similarity with itself, takes the row-wise log-softmax at the target column and negates the mean.
  The kernel sweeps each row block by block with a running maximum and a running sum, removes the row's similarity
  with itself from the sum, and averages the rows' losses tile by tile. Over the reals the two are one function
  (Proof/RealMath.lean); the precondition (finite tables, no zero user row) makes every quantity real
  (Proof/PreDecode.lean), and the kernel's scale, the named constant, is the reciprocal of the reference's divisor.
-/
import proofs.«427174_j46875273069282_1_alg».proof.Defs
import proofs.«427174_j46875273069282_1_alg».proof.Proof.Gen.Kernel
import proofs.«427174_j46875273069282_1_alg».proof.Proof.Gen.Kernel.Frame
import proofs.«427174_j46875273069282_1_alg».proof.Proof.Gen.KernelIdeal
import proofs.«427174_j46875273069282_1_alg».proof.Proof.Gen.KernelIdeal.Frame
import proofs.«427174_j46875273069282_1_alg».proof.Proof.Gen.ReferenceIdeal
import proofs.«427174_j46875273069282_1_alg».proof.Proof.Gen.Pre_finite_inputs
import proofs.«427174_j46875273069282_1_alg».proof.Proof.KernelRun
import proofs.«427174_j46875273069282_1_alg».proof.Proof.RefRun
import proofs.«427174_j46875273069282_1_alg».proof.Proof.RefStages
import proofs.«427174_j46875273069282_1_alg».proof.Proof.RefFold
import proofs.«427174_j46875273069282_1_alg».proof.Proof.PreDecode
import proofs.«427174_j46875273069282_1_alg».proof.Proof.Assembly
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The idealization names one constant, at 36 sites: the kernel's scale `5.0` is read as `67108864 / 13421773`, the
    reciprocal of the binary value of the single-precision number nearest to 0.2, which is what the table gives it. -/
theorem preserves : Cert.preserves_Kernel_KernelIdeal := by
  have h : IdealRules.named_const.Statement Cert.KernelIdeal.κ "inv_temperature" .f32 0x40A00000#32 ((67108864 / 13421773 : ℝ) : EReal) :=
    IdealRules.named_const.statement Cert.KernelIdeal.κ "inv_temperature" .f32 0x40A00000#32 ((67108864 / 13421773 : ℝ) : EReal) rfl
  exact ⟨h, h, h, h, h, h, h, h, h, h, h, h, h, h, h, h, h, h, h, h, h, h, h, h, h, h, h, h, h, h, h, h, h, h, h, h⟩

/-- The idealized reference runs and leaves its arguments unchanged: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the arguments and satisfy the precondition, the idealized kernel and the idealized
    reference both end with `total` of the four arrays the branches start from in their result buffers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hreal := fun c => Cert.PreDecode.real_of_pre _ _ _ _ _ _ (hpre c)
  refine ⟨fun c _ => Cert.Assembly.total
      (Cert.ReferenceIdeal.ReadP.val_main_v16 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      (Cert.ReferenceIdeal.ReadP.val_main_v19 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)))
      (Cert.ReferenceIdeal.ReadP.val_main_v52 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)))
      (Cert.ReferenceIdeal.ReadP.val_main_v59 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg5))), ?_, ?_⟩
  · refine (θ_run Cert.KernelIdeal.defs _ _).mono (fun r h c => ⟨(h c).1.trans ?_, (h c).2⟩)
      (Cert.KernelIdeal.GenRun.run_result (F := Ideal) m ρ)
    exact Cert.Assembly.kernel_value m ρ c (hreal c).1 (hreal c).2.1 (hreal c).2.2.1 (hreal c).2.2.2
  · refine (θ_run Cert.ReferenceIdeal.defs _ _).mono (fun r h c => ⟨(h c).1.trans ?_, (h c).2⟩)
      (Cert.ReferenceIdeal.ValueP.run (F := Ideal) m' ρ')
    rw [Cert.ReferenceIdeal.Fold.fold_main_v86 (F := Ideal) m' c, (hagree c).1, (hagree c).2.1, (hagree c).2.2.1, (hagree c).2.2.2.1, (hagree c).2.2.2.2.1, (hagree c).2.2.2.2.2]
    exact Cert.Assembly.ref_value _ _ _ _ _ _ (hreal c).1 (hreal c).2.1 (hreal c).2.2.1 (hreal c).2.2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
